-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v275)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v275) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x5000 : Shape := ⟨2, ![20000, 5000]⟩
abbrev S2x320000 : Shape := ⟨2, ![2, 320000]⟩
abbrev S20000 : Shape := ⟨1, ![20000]⟩
abbrev S128 : Shape := ⟨1, ![128]⟩
abbrev S5000x64 : Shape := ⟨2, ![5000, 64]⟩
abbrev S64 : Shape := ⟨1, ![64]⟩
abbrev S5064x64 : Shape := ⟨2, ![5064, 64]⟩
abbrev S256x2 : Shape := ⟨2, ![256, 2]⟩
abbrev S2 : Shape := ⟨1, ![2]⟩
abbrev S_ : Shape := ⟨0, ![]⟩

class Facts : Prop where
  bcast_S_S20000x5000 : S_.BroadcastsInDim S20000x5000 (![] : Fin 0 → Fin S20000x5000.rank)
  reducesTo_S20000x5000_S_d0_1 : S20000x5000.ReducesTo [0, 1] S_
  h_S_ : 0 < S_.numel
  bcast_S_S5000x64 : S_.BroadcastsInDim S5000x64 (![] : Fin 0 → Fin S5000x64.rank)
  reducesTo_S5000x64_S_d0_1 : S5000x64.ReducesTo [0, 1] S_
  bcast_S_S64 : S_.BroadcastsInDim S64 (![] : Fin 0 → Fin S64.rank)
  reducesTo_S64_S_d0 : S64.ReducesTo [0] S_
  bcast_S_S5064x64 : S_.BroadcastsInDim S5064x64 (![] : Fin 0 → Fin S5064x64.rank)
  reducesTo_S5064x64_S_d0_1 : S5064x64.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg11 : FVec F S5064x64 .f32) (main_arg12 : FVec F S64 .f32) (main_arg13 : FVec F S256x2 .f32) (main_arg14 : FVec F S2 .f32) (main_v33 : IVec S_ 1) : IVec S_ 1 :=
  let main_v34 : FVec F S5064x64 .f32 := Host.absf main_arg11
  let main_cst_12 : FVec F S_ .f32 := constant S_ .f32 0x7F800000#32
  let main_v35 : FVec F S5064x64 .f32 := broadcastInDim S5064x64 ![] bcast_S_S5064x64 main_cst_12
  let main_v36 : IVec S5064x64 1 := cmpf .olt main_v34 main_v35
  let main_c_13 : IVec S_ 1 := constantI S_ 1 1#1
  let main_v37 : IVec S_ 1 := (fun x v => Host.reduce IntOp.andi x v reducesTo_S5064x64_S_d0_1 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S256x2 .f32 := Host.absf main_arg13
  let main_cst_16 : FVec F S_ .f32 := constant S_ .f32 0x7F800000#32
  let main_v45 : FVec F S256x2 .f32 := broadcastInDim S256x2 ![] bcast_S_S256x2 main_cst_16
  let main_v46 : IVec S256x2 1 := cmpf .olt main_v44 main_v45
  let main_c_17 : IVec S_ 1 := constantI S_ 1 1#1
  let main_v47 : IVec S_ 1 := (fun x v => Host.reduce IntOp.andi x v reducesTo_S256x2_S_d0_1 h_S_) main_v46 main_c_17
  let main_v48 : IVec S_ 1 := andi main_v43 main_v47
  let main_v49 : FVec F S2 .f32 := Host.absf main_arg14
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg8 : FVec F S64 .f32) (main_arg9 : FVec F S5000x64 .f32) (main_arg10 : FVec F S64 .f32) (main_arg11 : FVec F S5064x64 .f32) (main_arg12 : FVec F S64 .f32) (main_arg13 : FVec F S256x2 .f32) (main_arg14 : FVec F S2 .f32) (main_v13 : IVec S_ 1) (main_v16 : IVec S5064x64 1) : IVec S_ 1 :=
  let main_c_5 : IVec S_ 1 := constantI S_ 1 1#1
  let main_v17 : IVec S_ 1 := (fun x v => Host.reduce IntOp.andi x v reducesTo_S5064x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S5000x64 .f32 := Host.absf main_arg9
  let main_cst_8 : FVec F S_ .f32 := constant S_ .f32 0x7F800000#32
  let main_v25 : FVec F S5000x64 .f32 := broadcastInDim S5000x64 ![] bcast_S_S5000x64 main_cst_8
  let main_v26 : IVec S5000x64 1 := cmpf .olt main_v24 main_v25
  let main_c_9 : IVec S_ 1 := constantI S_ 1 1#1
  let main_v27 : IVec S_ 1 := (fun x v => Host.reduce IntOp.andi x v reducesTo_S5000x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_v33

def fn {F : FTy → Type} [FloatOps F] (main_arg0 : FVec F S20000x5000 .f32) (main_arg1 : IVec S2x320000 32) (main_arg2 : IVec S2x320000 32) (main_arg3 : IVec S20000 32) (main_arg4 : IVec S128 32) (main_arg5 : FVec F S5000x64 .f32) (main_arg6 : FVec F S64 .f32) (main_arg7 : FVec F S5064x64 .f32) (main_arg8 : FVec F S64 .f32) (main_arg9 : FVec F S5000x64 .f32) (main_arg10 : FVec F S64 .f32) (main_arg11 : FVec F S5064x64 .f32) (main_arg12 : FVec F S64 .f32) (main_arg13 : FVec F S256x2 .f32) (main_arg14 : FVec F S2 .f32) : IVec S_ 1 :=
  let main_v0 : FVec F S20000x5000 .f32 := Host.absf main_arg0
  let main_cst : FVec F S_ .f32 := constant S_ .f32 0x7F800000#32
  let main_v1 : FVec F S20000x5000 .f32 := broadcastInDim S20000x5000 ![] bcast_S_S20000x5000 main_cst
  let main_v2 : IVec S20000x5000 1 := cmpf .olt main_v0 main_v1
  let main_c : IVec S_ 1 := constantI S_ 1 1#1
  let main_v3 : IVec S_ 1 := (fun x v => Host.reduce IntOp.andi x v reducesTo_S20000x5000_S_d0_1 h_S_) main_v2 main_c
  let main_v4 : FVec F S5000x64 .f32 := Host.absf main_arg5
  let main_cst_0 : FVec F S_ .f32 := constant S_ .f32 0x7F800000#32
  let main_v5 : FVec F S5000x64 .f32 := broadcastInDim S5000x64 ![] bcast_S_S5000x64 main_cst_0
  let main_v6 : IVec S5000x64 1 := cmpf .olt main_v4 main_v5
  let main_c_1 : IVec S_ 1 := constantI S_ 1 1#1
  let main_v7 : IVec S_ 1 := (fun x v => Host.reduce IntOp.andi x v reducesTo_S5000x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S5064x64 .f32 := Host.absf main_arg7
  let main_cst_4 : FVec F S_ .f32 := constant S_ .f32 0x7F800000#32
  let main_v15 : FVec F S5064x64 .f32 := broadcastInDim S5064x64 ![] bcast_S_S5064x64 main_cst_4
  let main_v16 : IVec S5064x64 1 := cmpf .olt main_v14 main_v15
  fn_part1 (F := F) main_arg8 main_arg9 main_arg10 main_arg11 main_arg12 main_arg13 main_arg14 main_v13 main_v16
-- ==== Kernel.lean ====
abbrev S20000x5000 : Shape := ⟨2, ![20000, 5000]⟩
abbrev S2x320000 : Shape := ⟨2, ![2, 320000]⟩
abbrev S20000 : Shape := ⟨1, ![20000]⟩
abbrev S128 : Shape := ⟨1, ![128]⟩
abbrev S5000x64 : Shape := ⟨2, ![5000, 64]⟩
abbrev S64 : Shape := ⟨1, ![64]⟩
abbrev S5064x64 : Shape := ⟨2, ![5064, 64]⟩
abbrev S256x2 : Shape := ⟨2, ![256, 2]⟩
abbrev S2 : Shape := ⟨1, ![2]⟩
abbrev S5000x128 : Shape := ⟨2, ![5000, 128]⟩
abbrev S20000x128 : Shape := ⟨2, ![20000, 128]⟩
abbrev S400x5000 : Shape := ⟨2, ![400, 5000]⟩
abbrev S400x128 : Shape := ⟨2, ![400, 128]⟩
abbrev S20000x64 : Shape := ⟨2, ![20000, 64]⟩
abbrev S_ : Shape := ⟨0, ![]⟩
abbrev S128x1 : Shape := ⟨2, ![128, 1]⟩
abbrev S128x5000 : Shape := ⟨2, ![128, 5000]⟩
abbrev S20000x1 : Shape := ⟨2, ![20000, 1]⟩
abbrev S1x320000 : Shape := ⟨2, ![1, 320000]⟩
abbrev S320000 : Shape := ⟨1, ![320000]⟩
abbrev S340000 : Shape := ⟨1, ![340000]⟩
abbrev S340000x1 : Shape := ⟨2, ![340000, 1]⟩
abbrev S340000x64 : Shape := ⟨2, ![340000, 64]⟩
abbrev S1x64 : Shape := ⟨2, ![1, 64]⟩
abbrev S64x64 : Shape := ⟨2, ![64, 64]⟩
abbrev S128x64 : Shape := ⟨2, ![128, 64]⟩
abbrev S128x128 : Shape := ⟨2, ![128, 128]⟩
abbrev S128x256 : Shape := ⟨2, ![128, 256]⟩
abbrev S128x2 : Shape := ⟨2, ![128, 2]⟩
abbrev S1x2 : Shape := ⟨2, ![1, 2]⟩

abbrev nBuf : Space → Nat
  | .hbm => 386
  | .vmem => 5
  | .smem => 0
  | _ => 0

abbrev hbmTy0_0 (i : Nat) : BufTy := match i % 128 with
  | 0 => ⟨S20000x5000, .f32⟩
  | 1 => ⟨S2x320000, .i32⟩
  | 2 => ⟨S2x320000, .i32⟩
  | 3 => ⟨S20000, .i32⟩
  | 4 => ⟨S128, .i32⟩
  | 5 => ⟨S5000x64, .f32⟩
  | 6 => ⟨S64, .f32⟩
  | 7 => ⟨S5064x64, .f32⟩
  | 8 => ⟨S64, .f32⟩
  | 9 => ⟨S5000x64, .f32⟩
  | 10 => ⟨S64, .f32⟩
  | 11 => ⟨S5064x64, .f32⟩
  | 12 => ⟨S64, .f32⟩
  | 13 => ⟨S256x2, .f32⟩
  | 14 => ⟨S2, .f32⟩
  | 15 => ⟨S5000x128, .f32⟩
  | 16 => ⟨S20000x128, .f32⟩
  | 17 => ⟨S20000x64, .f32⟩
  | 18 => ⟨S20000x64, .f32⟩
  | 19 => ⟨S_, .i32⟩
  | 20 => ⟨S128, .i32⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S128x5000, .f32⟩
  | 28 => ⟨S_, .f32⟩
  | 29 => ⟨S128x5000, .f32⟩
  | 30 => ⟨S128x5000, .f32⟩
  | 31 => ⟨S_, .f32⟩
  | 32 => ⟨S20000x1, .f32⟩
  | 33 => ⟨S_, .f32⟩
  | 34 => ⟨S128x1, .f32⟩
  | 35 => ⟨S20000x1, .i32⟩
  | 36 => ⟨S128x1, .f32⟩
  | 37 => ⟨S_, .f32⟩
  | 38 => ⟨S128x1, .f32⟩
  | 39 => ⟨S128x1, .f32⟩
  | 40 => ⟨S1x320000, .i32⟩
  | 41 => ⟨S320000, .i32⟩
  | 42 => ⟨S1x320000, .i32⟩
  | 43 => ⟨S320000, .i32⟩
  | 44 => ⟨S20000, .i32⟩
  | 45 => ⟨S340000, .i32⟩
  | 46 => ⟨S340000, .i32⟩
  | 47 => ⟨S_, .f32⟩
  | 48 => ⟨S340000, .f32⟩
  | 49 => ⟨S_, .f32⟩
  | 50 => ⟨S20000, .f32⟩
  | 51 => ⟨S340000x1, .i32⟩
  | 52 => ⟨S20000, .f32⟩
  | 53 => ⟨S_, .f32⟩
  | 54 => ⟨S20000, .f32⟩
  | 55 => ⟨S20000, .i1⟩
  | 56 => ⟨S20000, .f32⟩
  | 57 => ⟨S_, .f32⟩
  | 58 => ⟨S_, .f32⟩
  | 59 => ⟨S20000, .f32⟩
  | 60 => ⟨S20000, .f32⟩
  | 61 => ⟨S_, .i32⟩
  | 62 => ⟨S340000, .i32⟩
  | 63 => ⟨S340000, .i1⟩
  | 64 => ⟨S_, .i32⟩
  | 65 => ⟨S340000, .i32⟩
  | 66 => ⟨S340000, .i32⟩
  | 67 => ⟨S340000, .i32⟩
  | 68 => ⟨S340000x1, .i32⟩
  | 69 => ⟨S340000, .f32⟩
  | 70 => ⟨S_, .i32⟩
  | 71 => ⟨S340000, .i32⟩
  | 72 => ⟨S340000, .i1⟩
  | 73 => ⟨S_, .i32⟩
  | 74 => ⟨S340000, .i32⟩
  | 75 => ⟨S340000, .i32⟩
  | 76 => ⟨S340000, .i32⟩
  | 77 => ⟨S340000x1, .i32⟩
  | 78 => ⟨S340000, .f32⟩
  | 79 => ⟨S340000, .f32⟩
  | 80 => ⟨S_, .i32⟩
  | 81 => ⟨S340000, .i32⟩
  | 82 => ⟨S340000, .i1⟩
  | 83 => ⟨S_, .i32⟩
  | 84 => ⟨S340000, .i32⟩
  | 85 => ⟨S340000, .i32⟩
  | 86 => ⟨S340000, .i32⟩
  | 87 => ⟨S340000x1, .i32⟩
  | 88 => ⟨S340000x64, .f32⟩
  | 89 => ⟨S340000x1, .f32⟩
  | 90 => ⟨S340000x64, .f32⟩
  | 91 => ⟨S340000x64, .f32⟩
  | 92 => ⟨S_, .f32⟩
  | 93 => ⟨S20000x64, .f32⟩
  | 94 => ⟨S340000x1, .i32⟩
  | 95 => ⟨S20000x64, .f32⟩
  | 96 => ⟨S1x64, .f32⟩
  | 97 => ⟨S20000x64, .f32⟩
  | 98 => ⟨S20000x64, .f32⟩
  | 99 => ⟨S64x64, .f32⟩
  | 100 => ⟨S5000x64, .f32⟩
  | 101 => ⟨S128x64, .f32⟩
  | 102 => ⟨S_, .f32⟩
  | 103 => ⟨S20000x64, .f32⟩
  | 104 => ⟨S20000x64, .f32⟩
  | 105 => ⟨S20000x64, .f32⟩
  | 106 => ⟨S_, .i32⟩
  | 107 => ⟨S20000, .i32⟩
  | 108 => ⟨S20000, .i1⟩
  | 109 => ⟨S_, .i32⟩
  | 110 => ⟨S20000, .i32⟩
  | 111 => ⟨S20000, .i32⟩
  | 112 => ⟨S20000, .i32⟩
  | 113 => ⟨S20000x1, .i32⟩
  | 114 => ⟨S20000x64, .f32⟩
  | 115 => ⟨S20000x64, .f32⟩
  | 116 => ⟨S1x320000, .i32⟩
  | 117 => ⟨S320000, .i32⟩
  | 118 => ⟨S1x320000, .i32⟩
  | 119 => ⟨S320000, .i32⟩
  | 120 => ⟨S20000, .i32⟩
  | 121 => ⟨S340000, .i32⟩
  | 122 => ⟨S340000, .i32⟩
  | 123 => ⟨S_, .f32⟩
  | 124 => ⟨S340000, .f32⟩
  | 125 => ⟨S_, .f32⟩
  | 126 => ⟨S20000, .f32⟩
  | 127 => ⟨S340000x1, .i32⟩
  | _ => ⟨S20000x5000, .f32⟩

abbrev hbmTy0_1 (i : Nat) : BufTy := match i % 128 with
  | 0 => ⟨S20000, .f32⟩
  | 1 => ⟨S_, .f32⟩
  | 2 => ⟨S20000, .f32⟩
  | 3 => ⟨S20000, .i1⟩
  | 4 => ⟨S20000, .f32⟩
  | 5 => ⟨S_, .f32⟩
  | 6 => ⟨S_, .f32⟩
  | 7 => ⟨S20000, .f32⟩
  | 8 => ⟨S20000, .f32⟩
  | 9 => ⟨S_, .i32⟩
  | 10 => ⟨S340000, .i32⟩
  | 11 => ⟨S340000, .i1⟩
  | 12 => ⟨S_, .i32⟩
  | 13 => ⟨S340000, .i32⟩
  | 14 => ⟨S340000, .i32⟩
  | 15 => ⟨S340000, .i32⟩
  | 16 => ⟨S340000x1, .i32⟩
  | 17 => ⟨S340000, .f32⟩
  | 18 => ⟨S_, .i32⟩
  | 19 => ⟨S340000, .i32⟩
  | 20 => ⟨S340000, .i1⟩
  | 21 => ⟨S_, .i32⟩
  | 22 => ⟨S340000, .i32⟩
  | 23 => ⟨S340000, .i32⟩
  | 24 => ⟨S340000, .i32⟩
  | 25 => ⟨S340000x1, .i32⟩
  | 26 => ⟨S340000, .f32⟩
  | 27 => ⟨S340000, .f32⟩
  | 28 => ⟨S_, .i32⟩
  | 29 => ⟨S340000, .i32⟩
  | 30 => ⟨S340000, .i1⟩
  | 31 => ⟨S_, .i32⟩
  | 32 => ⟨S340000, .i32⟩
  | 33 => ⟨S340000, .i32⟩
  | 34 => ⟨S340000, .i32⟩
  | 35 => ⟨S340000x1, .i32⟩
  | 36 => ⟨S340000x64, .f32⟩
  | 37 => ⟨S340000x1, .f32⟩
  | 38 => ⟨S340000x64, .f32⟩
  | 39 => ⟨S340000x64, .f32⟩
  | 40 => ⟨S_, .f32⟩
  | 41 => ⟨S20000x64, .f32⟩
  | 42 => ⟨S340000x1, .i32⟩
  | 43 => ⟨S20000x64, .f32⟩
  | 44 => ⟨S1x64, .f32⟩
  | 45 => ⟨S20000x64, .f32⟩
  | 46 => ⟨S20000x64, .f32⟩
  | 47 => ⟨S_, .f32⟩
  | 48 => ⟨S20000x64, .f32⟩
  | 49 => ⟨S20000x64, .f32⟩
  | 50 => ⟨S_, .i32⟩
  | 51 => ⟨S128, .i32⟩
  | 52 => ⟨S128, .i1⟩
  | 53 => ⟨S_, .i32⟩
  | 54 => ⟨S128, .i32⟩
  | 55 => ⟨S128, .i32⟩
  | 56 => ⟨S128, .i32⟩
  | 57 => ⟨S128x1, .i32⟩
  | 58 => ⟨S128x64, .f32⟩
  | 59 => ⟨S_, .i32⟩
  | 60 => ⟨S20000, .i32⟩
  | 61 => ⟨S20000, .i1⟩
  | 62 => ⟨S_, .i32⟩
  | 63 => ⟨S20000, .i32⟩
  | 64 => ⟨S20000, .i32⟩
  | 65 => ⟨S20000, .i32⟩
  | 66 => ⟨S20000x1, .i32⟩
  | 67 => ⟨S20000x64, .f32⟩
  | 68 => ⟨S20000x128, .f32⟩
  | 69 => ⟨S_, .f32⟩
  | 70 => ⟨S128x128, .f32⟩
  | 71 => ⟨S20000x1, .i32⟩
  | 72 => ⟨S128x128, .f32⟩
  | 73 => ⟨S128x128, .f32⟩
  | 74 => ⟨S128x128, .f32⟩
  | 75 => ⟨S1x320000, .i32⟩
  | 76 => ⟨S320000, .i32⟩
  | 77 => ⟨S1x320000, .i32⟩
  | 78 => ⟨S320000, .i32⟩
  | 79 => ⟨S20000, .i32⟩
  | 80 => ⟨S340000, .i32⟩
  | 81 => ⟨S340000, .i32⟩
  | 82 => ⟨S_, .f32⟩
  | 83 => ⟨S340000, .f32⟩
  | 84 => ⟨S_, .f32⟩
  | 85 => ⟨S20000, .f32⟩
  | 86 => ⟨S340000x1, .i32⟩
  | 87 => ⟨S20000, .f32⟩
  | 88 => ⟨S_, .f32⟩
  | 89 => ⟨S20000, .f32⟩
  | 90 => ⟨S20000, .i1⟩
  | 91 => ⟨S20000, .f32⟩
  | 92 => ⟨S_, .f32⟩
  | 93 => ⟨S_, .f32⟩
  | 94 => ⟨S20000, .f32⟩
  | 95 => ⟨S20000, .f32⟩
  | 96 => ⟨S_, .i32⟩
  | 97 => ⟨S340000, .i32⟩
  | 98 => ⟨S340000, .i1⟩
  | 99 => ⟨S_, .i32⟩
  | 100 => ⟨S340000, .i32⟩
  | 101 => ⟨S340000, .i32⟩
  | 102 => ⟨S340000, .i32⟩
  | 103 => ⟨S340000x1, .i32⟩
  | 104 => ⟨S340000, .f32⟩
  | 105 => ⟨S_, .i32⟩
  | 106 => ⟨S340000, .i32⟩
  | 107 => ⟨S340000, .i1⟩
  | 108 => ⟨S_, .i32⟩
  | 109 => ⟨S340000, .i32⟩
  | 110 => ⟨S340000, .i32⟩
  | 111 => ⟨S340000, .i32⟩
  | 112 => ⟨S340000x1, .i32⟩
  | 113 => ⟨S340000, .f32⟩
  | 114 => ⟨S340000, .f32⟩
  | 115 => ⟨S_, .i32⟩
  | 116 => ⟨S340000, .i32⟩
  | 117 => ⟨S340000, .i1⟩
  | 118 => ⟨S_, .i32⟩
  | 119 => ⟨S340000, .i32⟩
  | 120 => ⟨S340000, .i32⟩
  | 121 => ⟨S340000, .i32⟩
  | 122 => ⟨S340000x1, .i32⟩
  | 123 => ⟨S340000x64, .f32⟩
  | 124 => ⟨S340000x1, .f32⟩
  | 125 => ⟨S340000x64, .f32⟩
  | 126 => ⟨S340000x64, .f32⟩
  | 127 => ⟨S_, .f32⟩
  | _ => ⟨S20000x5000, .f32⟩

abbrev hbmTy0_2 (i : Nat) : BufTy := match i % 128 with
  | 0 => ⟨S20000x64, .f32⟩
  | 1 => ⟨S340000x1, .i32⟩
  | 2 => ⟨S20000x64, .f32⟩
  | 3 => ⟨S1x64, .f32⟩
  | 4 => ⟨S20000x64, .f32⟩
  | 5 => ⟨S20000x64, .f32⟩
  | 6 => ⟨S64x64, .f32⟩
  | 7 => ⟨S5000x64, .f32⟩
  | 8 => ⟨S128x64, .f32⟩
  | 9 => ⟨S_, .f32⟩
  | 10 => ⟨S20000x64, .f32⟩
  | 11 => ⟨S20000x64, .f32⟩
  | 12 => ⟨S20000x64, .f32⟩
  | 13 => ⟨S_, .i32⟩
  | 14 => ⟨S20000, .i32⟩
  | 15 => ⟨S20000, .i1⟩
  | 16 => ⟨S_, .i32⟩
  | 17 => ⟨S20000, .i32⟩
  | 18 => ⟨S20000, .i32⟩
  | 19 => ⟨S20000, .i32⟩
  | 20 => ⟨S20000x1, .i32⟩
  | 21 => ⟨S20000x64, .f32⟩
  | 22 => ⟨S20000x64, .f32⟩
  | 23 => ⟨S1x320000, .i32⟩
  | 24 => ⟨S320000, .i32⟩
  | 25 => ⟨S1x320000, .i32⟩
  | 26 => ⟨S320000, .i32⟩
  | 27 => ⟨S20000, .i32⟩
  | 28 => ⟨S340000, .i32⟩
  | 29 => ⟨S340000, .i32⟩
  | 30 => ⟨S_, .f32⟩
  | 31 => ⟨S340000, .f32⟩
  | 32 => ⟨S_, .f32⟩
  | 33 => ⟨S20000, .f32⟩
  | 34 => ⟨S340000x1, .i32⟩
  | 35 => ⟨S20000, .f32⟩
  | 36 => ⟨S_, .f32⟩
  | 37 => ⟨S20000, .f32⟩
  | 38 => ⟨S20000, .i1⟩
  | 39 => ⟨S20000, .f32⟩
  | 40 => ⟨S_, .f32⟩
  | 41 => ⟨S_, .f32⟩
  | 42 => ⟨S20000, .f32⟩
  | 43 => ⟨S20000, .f32⟩
  | 44 => ⟨S_, .i32⟩
  | 45 => ⟨S340000, .i32⟩
  | 46 => ⟨S340000, .i1⟩
  | 47 => ⟨S_, .i32⟩
  | 48 => ⟨S340000, .i32⟩
  | 49 => ⟨S340000, .i32⟩
  | 50 => ⟨S340000, .i32⟩
  | 51 => ⟨S340000x1, .i32⟩
  | 52 => ⟨S340000, .f32⟩
  | 53 => ⟨S_, .i32⟩
  | 54 => ⟨S340000, .i32⟩
  | 55 => ⟨S340000, .i1⟩
  | 56 => ⟨S_, .i32⟩
  | 57 => ⟨S340000, .i32⟩
  | 58 => ⟨S340000, .i32⟩
  | 59 => ⟨S340000, .i32⟩
  | 60 => ⟨S340000x1, .i32⟩
  | 61 => ⟨S340000, .f32⟩
  | 62 => ⟨S340000, .f32⟩
  | 63 => ⟨S_, .i32⟩
  | 64 => ⟨S340000, .i32⟩
  | 65 => ⟨S340000, .i1⟩
  | 66 => ⟨S_, .i32⟩
  | 67 => ⟨S340000, .i32⟩
  | 68 => ⟨S340000, .i32⟩
  | 69 => ⟨S340000, .i32⟩
  | 70 => ⟨S340000x1, .i32⟩
  | 71 => ⟨S340000x64, .f32⟩
  | 72 => ⟨S340000x1, .f32⟩
  | 73 => ⟨S340000x64, .f32⟩
  | 74 => ⟨S340000x64, .f32⟩
  | 75 => ⟨S_, .f32⟩
  | 76 => ⟨S20000x64, .f32⟩
  | 77 => ⟨S340000x1, .i32⟩
  | 78 => ⟨S20000x64, .f32⟩
  | 79 => ⟨S1x64, .f32⟩
  | 80 => ⟨S20000x64, .f32⟩
  | 81 => ⟨S20000x64, .f32⟩
  | 82 => ⟨S_, .f32⟩
  | 83 => ⟨S20000x64, .f32⟩
  | 84 => ⟨S20000x64, .f32⟩
  | 85 => ⟨S_, .i32⟩
  | 86 => ⟨S128, .i32⟩
  | 87 => ⟨S128, .i1⟩
  | 88 => ⟨S_, .i32⟩
  | 89 => ⟨S128, .i32⟩
  | 90 => ⟨S128, .i32⟩
  | 91 => ⟨S128, .i32⟩
  | 92 => ⟨S128x1, .i32⟩
  | 93 => ⟨S128x64, .f32⟩
  | 94 => ⟨S_, .i32⟩
  | 95 => ⟨S20000, .i32⟩
  | 96 => ⟨S20000, .i1⟩
  | 97 => ⟨S_, .i32⟩
  | 98 => ⟨S20000, .i32⟩
  | 99 => ⟨S20000, .i32⟩
  | 100 => ⟨S20000, .i32⟩
  | 101 => ⟨S20000x1, .i32⟩
  | 102 => ⟨S20000x64, .f32⟩
  | 103 => ⟨S20000x128, .f32⟩
  | 104 => ⟨S_, .f32⟩
  | 105 => ⟨S128x128, .f32⟩
  | 106 => ⟨S20000x1, .i32⟩
  | 107 => ⟨S128x128, .f32⟩
  | 108 => ⟨S128x128, .f32⟩
  | 109 => ⟨S128x128, .f32⟩
  | 110 => ⟨S128x256, .f32⟩
  | 111 => ⟨S128x2, .f32⟩
  | 112 => ⟨S1x2, .f32⟩
  | 113 => ⟨S128x2, .f32⟩
  | 114 => ⟨S128x2, .f32⟩
  | 115 => ⟨S_, .f32⟩
  | 116 => ⟨S128, .f32⟩
  | 117 => ⟨S_, .f32⟩
  | 118 => ⟨S128, .f32⟩
  | 119 => ⟨S128, .f32⟩
  | 120 => ⟨S128x1, .f32⟩
  | 121 => ⟨S128x2, .f32⟩
  | 122 => ⟨S128x2, .f32⟩
  | 123 => ⟨S128x2, .f32⟩
  | 124 => ⟨S_, .f32⟩
  | 125 => ⟨S128, .f32⟩
  | 126 => ⟨S128x1, .f32⟩
  | 127 => ⟨S128x1, .f32⟩
  | _ => ⟨S20000x5000, .f32⟩

abbrev hbmTy0_3 (i : Nat) : BufTy := match i % 128 with
  | 0 => ⟨S128x2, .f32⟩
  | 1 => ⟨S128x2, .f32⟩
  | _ => ⟨S20000x5000, .f32⟩

abbrev hbmTy (i : Nat) : BufTy := match i / 128 with
  | 0 => hbmTy0_0 i
  | 1 => hbmTy0_1 i
  | 2 => hbmTy0_2 i
  | 3 => hbmTy0_3 i
  | _ => ⟨S20000x5000, .f32⟩

abbrev bufTy : (tb : Table) → Fin (tcTables nBuf tb) → BufTy
  | .hbm, ⟨i, _⟩ => hbmTy i
  | .local _ .vmem, ⟨0, _⟩ => ⟨S400x5000, .f32⟩
  | .local _ .vmem, ⟨1, _⟩ => ⟨S400x5000, .f32⟩
  | .local _ .vmem, ⟨2, _⟩ => ⟨S5000x128, .f32⟩
  | .local _ .vmem, ⟨3, _⟩ => ⟨S400x128, .f32⟩
  | .local _ .vmem, ⟨4, _⟩ => ⟨S400x128, .f32⟩
  | _, _ => ⟨S20000x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call0_cst : Ref sig .tc := ⟨.hbm, 28, rfl⟩
abbrev main_call0_v0 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_c_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_9 : Ref sig .tc := ⟨.hbm, 70, rfl⟩
abbrev main_v40 : Ref sig .tc := ⟨.hbm, 71, rfl⟩
abbrev main_v41 : Ref sig .tc := ⟨.hbm, 72, rfl⟩
abbrev main_c_10 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_11 : Ref sig .tc := ⟨.hbm, 80, rfl⟩
abbrev main_v48 : Ref sig .tc := ⟨.hbm, 81, rfl⟩
abbrev main_v49 : Ref sig .tc := ⟨.hbm, 82, rfl⟩
abbrev main_c_12 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_13 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call2_cst : Ref sig .tc := ⟨.hbm, 102, rfl⟩
abbrev main_call2_v0 : Ref sig .tc := ⟨.hbm, 103, rfl⟩
abbrev main_v67 : Ref sig .tc := ⟨.hbm, 104, rfl⟩
abbrev main_v68 : Ref sig .tc := ⟨.hbm, 105, rfl⟩
abbrev main_c_14 : Ref sig .tc := ⟨.hbm, 106, rfl⟩
abbrev main_v69 : Ref sig .tc := ⟨.hbm, 107, rfl⟩
abbrev main_v70 : Ref sig .tc := ⟨.hbm, 108, rfl⟩
abbrev main_c_15 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_16 : Ref sig .tc := ⟨.hbm, 123, rfl⟩
abbrev main_v84 : Ref sig .tc := ⟨.hbm, 124, rfl⟩
abbrev main_cst_17 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_18 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_19 : Ref sig .tc := ⟨.hbm, 133, rfl⟩
abbrev main_call3_v0 : Ref sig .tc := ⟨.hbm, 134, rfl⟩
abbrev main_call3_v1 : Ref sig .tc := ⟨.hbm, 135, rfl⟩
abbrev main_v91 : Ref sig .tc := ⟨.hbm, 136, rfl⟩
abbrev main_c_20 : Ref sig .tc := ⟨.hbm, 137, rfl⟩
abbrev main_v92 : Ref sig .tc := ⟨.hbm, 138, rfl⟩
abbrev main_v93 : Ref sig .tc := ⟨.hbm, 139, rfl⟩
abbrev main_c_21 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_c_22 : Ref sig .tc := ⟨.hbm, 146, rfl⟩
abbrev main_v99 : Ref sig .tc := ⟨.hbm, 147, rfl⟩
abbrev main_v100 : Ref sig .tc := ⟨.hbm, 148, rfl⟩
abbrev main_c_23 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_c_24 : Ref sig .tc := ⟨.hbm, 156, rfl⟩
abbrev main_v107 : Ref sig .tc := ⟨.hbm, 157, rfl⟩
abbrev main_v108 : Ref sig .tc := ⟨.hbm, 158, rfl⟩
abbrev main_c_25 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_26 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_call4_cst : Ref sig .tc := ⟨.hbm, 175, rfl⟩
abbrev main_call4_v0 : Ref sig .tc := ⟨.hbm, 176, rfl⟩
abbrev main_v123 : Ref sig .tc := ⟨.hbm, 177, rfl⟩
abbrev main_c_27 : Ref sig .tc := ⟨.hbm, 178, rfl⟩
abbrev main_v124 : Ref sig .tc := ⟨.hbm, 179, rfl⟩
abbrev main_v125 : Ref sig .tc := ⟨.hbm, 180, rfl⟩
abbrev main_c_28 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_c_29 : Ref sig .tc := ⟨.hbm, 187, rfl⟩
abbrev main_v131 : Ref sig .tc := ⟨.hbm, 188, rfl⟩
abbrev main_v132 : Ref sig .tc := ⟨.hbm, 189, rfl⟩
abbrev main_c_30 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_31 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_cst_32 : Ref sig .tc := ⟨.hbm, 210, rfl⟩
abbrev main_v151 : Ref sig .tc := ⟨.hbm, 211, rfl⟩
abbrev main_cst_33 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_cst_34 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_cst_35 : Ref sig .tc := ⟨.hbm, 220, rfl⟩
abbrev main_call5_v0 : Ref sig .tc := ⟨.hbm, 221, rfl⟩
abbrev main_call5_v1 : Ref sig .tc := ⟨.hbm, 222, rfl⟩
abbrev main_v158 : Ref sig .tc := ⟨.hbm, 223, rfl⟩
abbrev main_c_36 : Ref sig .tc := ⟨.hbm, 224, rfl⟩
abbrev main_v159 : Ref sig .tc := ⟨.hbm, 225, rfl⟩
abbrev main_v160 : Ref sig .tc := ⟨.hbm, 226, rfl⟩
abbrev main_c_37 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_c_38 : Ref sig .tc := ⟨.hbm, 233, rfl⟩
abbrev main_v166 : Ref sig .tc := ⟨.hbm, 234, rfl⟩
abbrev main_v167 : Ref sig .tc := ⟨.hbm, 235, rfl⟩
abbrev main_c_39 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_c_40 : Ref sig .tc := ⟨.hbm, 243, rfl⟩
abbrev main_v174 : Ref sig .tc := ⟨.hbm, 244, rfl⟩
abbrev main_v175 : Ref sig .tc := ⟨.hbm, 245, rfl⟩
abbrev main_c_41 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_cst_42 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_call6_cst : Ref sig .tc := ⟨.hbm, 265, rfl⟩
abbrev main_call6_v0 : Ref sig .tc := ⟨.hbm, 266, rfl⟩
abbrev main_v193 : Ref sig .tc := ⟨.hbm, 267, rfl⟩
abbrev main_v194 : Ref sig .tc := ⟨.hbm, 268, rfl⟩
abbrev main_c_43 : Ref sig .tc := ⟨.hbm, 269, rfl⟩
abbrev main_v195 : Ref sig .tc := ⟨.hbm, 270, rfl⟩
abbrev main_v196 : Ref sig .tc := ⟨.hbm, 271, rfl⟩
abbrev main_c_44 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_cst_45 : Ref sig .tc := ⟨.hbm, 286, rfl⟩
abbrev main_v210 : Ref sig .tc := ⟨.hbm, 287, rfl⟩
abbrev main_cst_46 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_cst_47 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_cst_48 : Ref sig .tc := ⟨.hbm, 296, rfl⟩
abbrev main_call7_v0 : Ref sig .tc := ⟨.hbm, 297, rfl⟩
abbrev main_call7_v1 : Ref sig .tc := ⟨.hbm, 298, rfl⟩
abbrev main_v217 : Ref sig .tc := ⟨.hbm, 299, rfl⟩
abbrev main_c_49 : Ref sig .tc := ⟨.hbm, 300, rfl⟩
abbrev main_v218 : Ref sig .tc := ⟨.hbm, 301, rfl⟩
abbrev main_v219 : Ref sig .tc := ⟨.hbm, 302, rfl⟩
abbrev main_c_50 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_c_51 : Ref sig .tc := ⟨.hbm, 309, rfl⟩
abbrev main_v225 : Ref sig .tc := ⟨.hbm, 310, rfl⟩
abbrev main_v226 : Ref sig .tc := ⟨.hbm, 311, rfl⟩
abbrev main_c_52 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_c_53 : Ref sig .tc := ⟨.hbm, 319, rfl⟩
abbrev main_v233 : Ref sig .tc := ⟨.hbm, 320, rfl⟩
abbrev main_v234 : Ref sig .tc := ⟨.hbm, 321, rfl⟩
abbrev main_c_54 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_v238 : Ref sig .tc := ⟨.hbm, 326, rfl⟩
abbrev main_v239 : Ref sig .tc := ⟨.hbm, 327, rfl⟩
abbrev main_v240 : Ref sig .tc := ⟨.hbm, 328, rfl⟩
abbrev main_v241 : Ref sig .tc := ⟨.hbm, 329, rfl⟩
abbrev main_v242 : Ref sig .tc := ⟨.hbm, 330, rfl⟩
abbrev main_cst_55 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩
abbrev main_v246 : Ref sig .tc := ⟨.hbm, 335, rfl⟩
abbrev main_v247 : Ref sig .tc := ⟨.hbm, 336, rfl⟩
abbrev main_v248 : Ref sig .tc := ⟨.hbm, 337, rfl⟩
abbrev main_call8_cst : Ref sig .tc := ⟨.hbm, 338, rfl⟩
abbrev main_call8_v0 : Ref sig .tc := ⟨.hbm, 339, rfl⟩
abbrev main_v249 : Ref sig .tc := ⟨.hbm, 340, rfl⟩
abbrev main_c_56 : Ref sig .tc := ⟨.hbm, 341, rfl⟩
abbrev main_v250 : Ref sig .tc := ⟨.hbm, 342, rfl⟩
abbrev main_v251 : Ref sig .tc := ⟨.hbm, 343, rfl⟩
abbrev main_c_57 : Ref sig .tc := ⟨.hbm, 344, rfl⟩
abbrev main_v252 : Ref sig .tc := ⟨.hbm, 345, rfl⟩
abbrev main_v253 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_c_58 : Ref sig .tc := ⟨.hbm, 350, rfl⟩
abbrev main_v257 : Ref sig .tc := ⟨.hbm, 351, rfl⟩
abbrev main_v258 : Ref sig .tc := ⟨.hbm, 352, rfl⟩
abbrev main_c_59 : Ref sig .tc := ⟨.hbm, 353, rfl⟩
abbrev main_v259 : Ref sig .tc := ⟨.hbm, 354, rfl⟩
abbrev main_v260 : Ref sig .tc := ⟨.hbm, 355, rfl⟩
abbrev main_v261 : Ref sig .tc := ⟨.hbm, 356, rfl⟩
abbrev main_v262 : Ref sig .tc := ⟨.hbm, 357, rfl⟩
abbrev main_v263 : Ref sig .tc := ⟨.hbm, 358, rfl⟩
abbrev main_v264 : Ref sig .tc := ⟨.hbm, 359, rfl⟩
abbrev main_cst_60 : Ref sig .tc := ⟨.hbm, 360, rfl⟩
abbrev main_v265 : Ref sig .tc := ⟨.hbm, 361, rfl⟩
abbrev main_v266 : Ref sig .tc := ⟨.hbm, 362, rfl⟩
abbrev main_v267 : Ref sig .tc := ⟨.hbm, 363, rfl⟩
abbrev main_v268 : Ref sig .tc := ⟨.hbm, 364, rfl⟩
abbrev main_v269 : Ref sig .tc := ⟨.hbm, 365, rfl⟩
abbrev main_v270 : Ref sig .tc := ⟨.hbm, 366, rfl⟩
abbrev main_v271 : Ref sig .tc := ⟨.hbm, 367, rfl⟩
abbrev main_v272 : Ref sig .tc := ⟨.hbm, 368, rfl⟩
abbrev main_v273 : Ref sig .tc := ⟨.hbm, 369, rfl⟩
abbrev main_v274 : Ref sig .tc := ⟨.hbm, 370, rfl⟩
abbrev main_call9_cst : Ref sig .tc := ⟨.hbm, 371, rfl⟩
abbrev main_call9_v0 : Ref sig .tc := ⟨.hbm, 372, rfl⟩
abbrev main_call9_cst_0 : Ref sig .tc := ⟨.hbm, 373, rfl⟩
abbrev main_call9_v1 : Ref sig .tc := ⟨.hbm, 374, rfl⟩
abbrev main_call9_v2 : Ref sig .tc := ⟨.hbm, 375, rfl⟩
abbrev main_call9_v3 : Ref sig .tc := ⟨.hbm, 376, rfl⟩
abbrev main_call9_v4 : Ref sig .tc := ⟨.hbm, 377, rfl⟩
abbrev main_call9_v5 : Ref sig .tc := ⟨.hbm, 378, rfl⟩
abbrev main_call9_v6 : Ref sig .tc := ⟨.hbm, 379, rfl⟩
abbrev main_call9_cst_1 : Ref sig .tc := ⟨.hbm, 380, rfl⟩
abbrev main_call9_v7 : Ref sig .tc := ⟨.hbm, 381, rfl⟩
abbrev main_call9_v8 : Ref sig .tc := ⟨.hbm, 382, rfl⟩
abbrev main_call9_v9 : Ref sig .tc := ⟨.hbm, 383, rfl⟩
abbrev main_call9_v10 : Ref sig .tc := ⟨.hbm, 384, rfl⟩
abbrev main_v275 : Ref sig .tc := ⟨.hbm, 385, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S5000x64_S5000x64_S5000x128_d1 : Shape.Concatenates [S5000x64, S5000x64] S5000x128 1
  inb_S400x5000_S400x5000_0_0 : ∀ a, (![0, 0] : Fin 2 → Nat) a + S400x5000.size a ≤ S400x5000.size a
  h_S400x5000 : 0 < S400x5000.numel
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S400x128_S400x128_0_0 : ∀ a, (![0, 0] : Fin 2 → Nat) a + S400x128.size a ≤ S400x128.size a
  h_S400x128 : 0 < S400x128.numel
  slices_S20000x128_S20000x64_0_0 : S20000x128.Slices ![0, 0] S20000x64
  slices_S20000x128_S20000x64_0_64 : S20000x128.Slices ![0, 64] S20000x64
  bcast_S_S128 : S_.BroadcastsInDim S128 (![] : Fin 0 → Fin S128.rank)
  bcast_S128_S128x1_0 : S128.BroadcastsInDim S128x1 (![0] : Fin 1 → Fin S128x1.rank)
  bcast_S_S128x5000 : S_.BroadcastsInDim S128x5000 (![] : Fin 0 → Fin S128x5000.rank)
  bcast_S_S20000x1 : S_.BroadcastsInDim S20000x1 (![] : Fin 0 → Fin S20000x1.rank)
  bcast_S_S128x1 : S_.BroadcastsInDim S128x1 (![] : Fin 0 → Fin S128x1.rank)
  bcast_S20000_S20000x1_0 : S20000.BroadcastsInDim S20000x1 (![0] : Fin 1 → Fin S20000x1.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S20000_S340000_d0 : Shape.Concatenates [S320000, S20000] S340000 0
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000x1_S340000x64_0_1 : S340000x1.BroadcastsInDim S340000x64 (![0, 1] : Fin 2 → Fin S340000x64.rank)
  bcast_S_S20000x64 : S_.BroadcastsInDim S20000x64 (![] : Fin 0 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  slices_S5064x64_S64x64_0_0 : S5064x64.Slices ![0, 0] S64x64
  slices_S5064x64_S5000x64_64_0 : S5064x64.Slices ![64, 0] S5000x64
  concatenates_S20000x64_S20000x64_S20000x128_d1 : Shape.Concatenates [S20000x64, S20000x64] S20000x128 1
  bcast_S_S128x128 : S_.BroadcastsInDim S128x128 (![] : Fin 0 → Fin S128x128.rank)
  bcast_S128x1_S128x128_0_1 : S128x1.BroadcastsInDim S128x128 (![0, 1] : Fin 2 → Fin S128x128.rank)
  concatenates_S128x128_S128x128_S128x256_d1 : Shape.Concatenates [S128x128, S128x128] S128x256 1
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  reducesTo_S128x2_S128_d1 : S128x2.ReducesTo [1] S128
  h_S_ : 0 < S_.numel
  bcast_S128x1_S128x2_0_1 : S128x1.BroadcastsInDim S128x2 (![0, 1] : Fin 2 → Fin S128x2.rank)
  dot_S400x5000_S5000x128_S400x128_1_0_0_1_n_n_wf : DotDims.WF S400x5000 S5000x128 S400x128 [1] [0] [0] [1] [] []
  gather_S20000x5000_S128x1_S128x5000_1_0_n_n_0_1_15000_wf : GatherDims.WF S20000x5000 S128x1 S128x5000 [1] [0] [] [0] [] 1 ![1, 5000]
  scatter_S128x1_S20000x1_S20000x1_1_0_0_1_wf : ScatterDims.WF S128x1 S20000x1 S20000x1 [1] [0] [0] 1
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S20000x64_S340000x1_S340000x64_1_0_n_n_0_1_164_wf : GatherDims.WF S20000x64 S340000x1 S340000x64 [1] [0] [] [0] [] 1 ![1, 64]
  scatter_S20000x64_S340000x1_S340000x64_1_0_0_1_wf : ScatterDims.WF S20000x64 S340000x1 S340000x64 [1] [0] [0] 1
  dot_S128x5000_S5000x64_S128x64_1_0_0_1_n_n_wf : DotDims.WF S128x5000 S5000x64 S128x64 [1] [0] [0] [1] [] []
  dot_S20000x64_S64x64_S20000x64_1_0_0_1_n_n_wf : DotDims.WF S20000x64 S64x64 S20000x64 [1] [0] [0] [1] [] []
  gather_S128x64_S20000x1_S20000x64_1_0_n_n_0_1_164_wf : GatherDims.WF S128x64 S20000x1 S20000x64 [1] [0] [] [0] [] 1 ![1, 64]
  gather_S20000x64_S128x1_S128x64_1_0_n_n_0_1_164_wf : GatherDims.WF S20000x64 S128x1 S128x64 [1] [0] [] [0] [] 1 ![1, 64]
  scatter_S128x128_S20000x1_S20000x128_1_0_0_1_wf : ScatterDims.WF S128x128 S20000x1 S20000x128 [1] [0] [0] 1
  dot_S128x256_S256x2_S128x2_1_0_0_1_n_n_wf : DotDims.WF S128x256 S256x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x5000.size a ≤ S20000x5000.size a
  hwx0_0 : ∀ i : grid0.Coords, EltTy.bits .f32 = 32 ∨ (Rect.block (s := S20000x5000) S400x5000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S5000x128.size a
  hwx0_1 : ∀ i : grid0.Coords, EltTy.bits .f32 = 32 ∨ (Rect.block (s := S5000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S20000x128.size a
  hwx0_2 : ∀ i : grid0.Coords, EltTy.bits .f32 = 32 ∨ (Rect.block (s := S20000x128) S400x128.size (cc0_transform_2 i) (hinb0_2 i)).WholeWords (EltTy.packing .f32)

variable [Facts₀]

def dot_S400x5000_S5000x128_S400x128_1_0_0_1_n_n : DotDims S400x5000 S5000x128 S400x128 where
  lhsContracting := [1]
  rhsContracting := [0]
  lhsNonContracting := [0]
  rhsNonContracting := [1]
  lhsBatch := []
  rhsBatch := []
  wf := dot_S400x5000_S5000x128_S400x128_1_0_0_1_n_n_wf
def gather_S20000x5000_S128x1_S128x5000_1_0_n_n_0_1_15000 : GatherDims S20000x5000 S128x1 S128x5000 where
  offsetDims := [1]
  collapsedSliceDims := [0]
  operandBatchingDims := []
  startIndicesBatchingDims := []
  startIndexMap := [0]
  indexVectorDim := 1
  sliceSizes := ![1, 5000]
  wf := gather_S20000x5000_S128x1_S128x5000_1_0_n_n_0_1_15000_wf
def scatter_S128x1_S20000x1_S20000x1_1_0_0_1 : ScatterDims S128x1 S20000x1 S20000x1 where
  updateWindowDims := [1]
  insertedWindowDims := [0]
  scatterDimsToOperandDims := [0]
  indexVectorDim := 1
  wf := scatter_S128x1_S20000x1_S20000x1_1_0_0_1_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x64_S340000x1_S340000x64_1_0_n_n_0_1_164 : GatherDims S20000x64 S340000x1 S340000x64 where
  offsetDims := [1]
  collapsedSliceDims := [0]
  operandBatchingDims := []
  startIndicesBatchingDims := []
  startIndexMap := [0]
  indexVectorDim := 1
  sliceSizes := ![1, 64]
  wf := gather_S20000x64_S340000x1_S340000x64_1_0_n_n_0_1_164_wf
def scatter_S20000x64_S340000x1_S340000x64_1_0_0_1 : ScatterDims S20000x64 S340000x1 S340000x64 where
  updateWindowDims := [1]
  insertedWindowDims := [0]
  scatterDimsToOperandDims := [0]
  indexVectorDim := 1
  wf := scatter_S20000x64_S340000x1_S340000x64_1_0_0_1_wf
def dot_S128x5000_S5000x64_S128x64_1_0_0_1_n_n : DotDims S128x5000 S5000x64 S128x64 where
  lhsContracting := [1]
  rhsContracting := [0]
  lhsNonContracting := [0]
  rhsNonContracting := [1]
  lhsBatch := []
  rhsBatch := []
  wf := dot_S128x5000_S5000x64_S128x64_1_0_0_1_n_n_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S128x64_S20000x1_S20000x64_1_0_n_n_0_1_164 : GatherDims S128x64 S20000x1 S20000x64 where
  offsetDims := [1]
  collapsedSliceDims := [0]
  operandBatchingDims := []
  startIndicesBatchingDims := []
  startIndexMap := [0]
  indexVectorDim := 1
  sliceSizes := ![1, 64]
  wf := gather_S128x64_S20000x1_S20000x64_1_0_n_n_0_1_164_wf
def gather_S20000x64_S128x1_S128x64_1_0_n_n_0_1_164 : GatherDims S20000x64 S128x1 S128x64 where
  offsetDims := [1]
  collapsedSliceDims := [0]
  operandBatchingDims := []
  startIndicesBatchingDims := []
  startIndexMap := [0]
  indexVectorDim := 1
  sliceSizes := ![1, 64]
  wf := gather_S20000x64_S128x1_S128x64_1_0_n_n_0_1_164_wf
def scatter_S128x128_S20000x1_S20000x128_1_0_0_1 : ScatterDims S128x128 S20000x1 S20000x128 where
  updateWindowDims := [1]
  insertedWindowDims := [0]
  scatterDimsToOperandDims := [0]
  indexVectorDim := 1
  wf := scatter_S128x128_S20000x1_S20000x128_1_0_0_1_wf
def dot_S128x256_S256x2_S128x2_1_0_0_1_n_n : DotDims S128x256 S256x2 S128x2 where
  lhsContracting := [1]
  rhsContracting := [0]
  lhsNonContracting := [0]
  rhsNonContracting := [1]
  lhsBatch := []
  rhsBatch := []
  wf := dot_S128x256_S256x2_S128x2_1_0_0_1_n_n_wf

abbrev win0_0 : Pipeline.Window sig grid0 :=
  Pipeline.Window.ofSpec (Memref.whole main_arg0) S400x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S20000x5000 : Shape := ⟨2, ![20000, 5000]⟩
abbrev S2x320000 : Shape := ⟨2, ![2, 320000]⟩
abbrev S20000 : Shape := ⟨1, ![20000]⟩
abbrev S128 : Shape := ⟨1, ![128]⟩
abbrev S5000x64 : Shape := ⟨2, ![5000, 64]⟩
abbrev S64 : Shape := ⟨1, ![64]⟩
abbrev S5064x64 : Shape := ⟨2, ![5064, 64]⟩
abbrev S256x2 : Shape := ⟨2, ![256, 2]⟩
abbrev S2 : Shape := ⟨1, ![2]⟩
abbrev S20000x64 : Shape := ⟨2, ![20000, 64]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S340000x64 : Shape := ⟨2, ![340000, 64]⟩
abbrev S1x64 : Shape := ⟨2, ![1, 64]⟩
abbrev S20000x1 : Shape := ⟨2, ![20000, 1]⟩
abbrev S20000x5064 : Shape := ⟨2, ![20000, 5064]⟩
abbrev S20000x128 : Shape := ⟨2, ![20000, 128]⟩
abbrev S128x128 : Shape := ⟨2, ![128, 128]⟩
abbrev S128x1 : Shape := ⟨2, ![128, 1]⟩
abbrev S128x256 : Shape := ⟨2, ![128, 256]⟩
abbrev S128x2 : Shape := ⟨2, ![128, 2]⟩
abbrev S1x2 : Shape := ⟨2, ![1, 2]⟩

abbrev nBuf : Space → Nat
  | .hbm => 393
  | .vmem => 0
  | .smem => 0
  | _ => 0

abbrev hbmTy0_0 (i : Nat) : BufTy := match i % 128 with
  | 0 => ⟨S20000x5000, .f32⟩
  | 1 => ⟨S2x320000, .i32⟩
  | 2 => ⟨S2x320000, .i32⟩
  | 3 => ⟨S20000, .i32⟩
  | 4 => ⟨S128, .i32⟩
  | 5 => ⟨S5000x64, .f32⟩
  | 6 => ⟨S64, .f32⟩
  | 7 => ⟨S5064x64, .f32⟩
  | 8 => ⟨S64, .f32⟩
  | 9 => ⟨S5000x64, .f32⟩
  | 10 => ⟨S64, .f32⟩
  | 11 => ⟨S5064x64, .f32⟩
  | 12 => ⟨S64, .f32⟩
  | 13 => ⟨S256x2, .f32⟩
  | 14 => ⟨S2, .f32⟩
  | 15 => ⟨S20000x64, .f32⟩
  | 16 => ⟨S1x320000, .i32⟩
  | 17 => ⟨S320000, .i32⟩
  | 18 => ⟨S1x320000, .i32⟩
  | 19 => ⟨S320000, .i32⟩
  | 20 => ⟨S20000, .i32⟩
  | 21 => ⟨S340000, .i32⟩
  | 22 => ⟨S340000, .i32⟩
  | 23 => ⟨S_, .f32⟩
  | 24 => ⟨S340000, .f32⟩
  | 25 => ⟨S_, .f32⟩
  | 26 => ⟨S20000, .f32⟩
  | 27 => ⟨S340000x1, .i32⟩
  | 28 => ⟨S20000, .f32⟩
  | 29 => ⟨S_, .f32⟩
  | 30 => ⟨S20000, .f32⟩
  | 31 => ⟨S20000, .i1⟩
  | 32 => ⟨S20000, .f32⟩
  | 33 => ⟨S_, .f32⟩
  | 34 => ⟨S_, .f32⟩
  | 35 => ⟨S20000, .f32⟩
  | 36 => ⟨S20000, .f32⟩
  | 37 => ⟨S_, .i32⟩
  | 38 => ⟨S340000, .i32⟩
  | 39 => ⟨S340000, .i1⟩
  | 40 => ⟨S_, .i32⟩
  | 41 => ⟨S340000, .i32⟩
  | 42 => ⟨S340000, .i32⟩
  | 43 => ⟨S340000, .i32⟩
  | 44 => ⟨S340000x1, .i32⟩
  | 45 => ⟨S340000, .f32⟩
  | 46 => ⟨S_, .i32⟩
  | 47 => ⟨S340000, .i32⟩
  | 48 => ⟨S340000, .i1⟩
  | 49 => ⟨S_, .i32⟩
  | 50 => ⟨S340000, .i32⟩
  | 51 => ⟨S340000, .i32⟩
  | 52 => ⟨S340000, .i32⟩
  | 53 => ⟨S340000x1, .i32⟩
  | 54 => ⟨S340000, .f32⟩
  | 55 => ⟨S340000, .f32⟩
  | 56 => ⟨S_, .i32⟩
  | 57 => ⟨S340000, .i32⟩
  | 58 => ⟨S340000, .i1⟩
  | 59 => ⟨S_, .i32⟩
  | 60 => ⟨S340000, .i32⟩
  | 61 => ⟨S340000, .i32⟩
  | 62 => ⟨S340000, .i32⟩
  | 63 => ⟨S340000x1, .i32⟩
  | 64 => ⟨S340000x64, .f32⟩
  | 65 => ⟨S340000x1, .f32⟩
  | 66 => ⟨S340000x64, .f32⟩
  | 67 => ⟨S340000x64, .f32⟩
  | 68 => ⟨S_, .f32⟩
  | 69 => ⟨S20000x64, .f32⟩
  | 70 => ⟨S340000x1, .i32⟩
  | 71 => ⟨S20000x64, .f32⟩
  | 72 => ⟨S1x64, .f32⟩
  | 73 => ⟨S20000x64, .f32⟩
  | 74 => ⟨S20000x64, .f32⟩
  | 75 => ⟨S_, .i32⟩
  | 76 => ⟨S20000, .i32⟩
  | 77 => ⟨S20000, .i1⟩
  | 78 => ⟨S_, .i32⟩
  | 79 => ⟨S20000, .i32⟩
  | 80 => ⟨S20000, .i32⟩
  | 81 => ⟨S20000, .i32⟩
  | 82 => ⟨S20000x1, .i32⟩
  | 83 => ⟨S20000, .i32⟩
  | 84 => ⟨S_, .i32⟩
  | 85 => ⟨S20000, .i32⟩
  | 86 => ⟨S20000, .i1⟩
  | 87 => ⟨S_, .i32⟩
  | 88 => ⟨S20000, .i32⟩
  | 89 => ⟨S20000, .i32⟩
  | 90 => ⟨S20000, .i32⟩
  | 91 => ⟨S20000x1, .i32⟩
  | 92 => ⟨S20000x5000, .f32⟩
  | 93 => ⟨S20000x5064, .f32⟩
  | 94 => ⟨S_, .f32⟩
  | 95 => ⟨S20000x5064, .f32⟩
  | 96 => ⟨S20000x5064, .f32⟩
  | 97 => ⟨S20000x64, .f32⟩
  | 98 => ⟨S1x320000, .i32⟩
  | 99 => ⟨S320000, .i32⟩
  | 100 => ⟨S1x320000, .i32⟩
  | 101 => ⟨S320000, .i32⟩
  | 102 => ⟨S20000, .i32⟩
  | 103 => ⟨S340000, .i32⟩
  | 104 => ⟨S340000, .i32⟩
  | 105 => ⟨S_, .f32⟩
  | 106 => ⟨S340000, .f32⟩
  | 107 => ⟨S_, .f32⟩
  | 108 => ⟨S20000, .f32⟩
  | 109 => ⟨S340000x1, .i32⟩
  | 110 => ⟨S20000, .f32⟩
  | 111 => ⟨S_, .f32⟩
  | 112 => ⟨S20000, .f32⟩
  | 113 => ⟨S20000, .i1⟩
  | 114 => ⟨S20000, .f32⟩
  | 115 => ⟨S_, .f32⟩
  | 116 => ⟨S_, .f32⟩
  | 117 => ⟨S20000, .f32⟩
  | 118 => ⟨S20000, .f32⟩
  | 119 => ⟨S_, .i32⟩
  | 120 => ⟨S340000, .i32⟩
  | 121 => ⟨S340000, .i1⟩
  | 122 => ⟨S_, .i32⟩
  | 123 => ⟨S340000, .i32⟩
  | 124 => ⟨S340000, .i32⟩
  | 125 => ⟨S340000, .i32⟩
  | 126 => ⟨S340000x1, .i32⟩
  | 127 => ⟨S340000, .f32⟩
  | _ => ⟨S20000x5000, .f32⟩

abbrev hbmTy0_1 (i : Nat) : BufTy := match i % 128 with
  | 0 => ⟨S_, .i32⟩
  | 1 => ⟨S340000, .i32⟩
  | 2 => ⟨S340000, .i1⟩
  | 3 => ⟨S_, .i32⟩
  | 4 => ⟨S340000, .i32⟩
  | 5 => ⟨S340000, .i32⟩
  | 6 => ⟨S340000, .i32⟩
  | 7 => ⟨S340000x1, .i32⟩
  | 8 => ⟨S340000, .f32⟩
  | 9 => ⟨S340000, .f32⟩
  | 10 => ⟨S_, .i32⟩
  | 11 => ⟨S340000, .i32⟩
  | 12 => ⟨S340000, .i1⟩
  | 13 => ⟨S_, .i32⟩
  | 14 => ⟨S340000, .i32⟩
  | 15 => ⟨S340000, .i32⟩
  | 16 => ⟨S340000, .i32⟩
  | 17 => ⟨S340000x1, .i32⟩
  | 18 => ⟨S340000x64, .f32⟩
  | 19 => ⟨S340000x1, .f32⟩
  | 20 => ⟨S340000x64, .f32⟩
  | 21 => ⟨S340000x64, .f32⟩
  | 22 => ⟨S_, .f32⟩
  | 23 => ⟨S20000x64, .f32⟩
  | 24 => ⟨S340000x1, .i32⟩
  | 25 => ⟨S20000x64, .f32⟩
  | 26 => ⟨S1x64, .f32⟩
  | 27 => ⟨S20000x64, .f32⟩
  | 28 => ⟨S20000x64, .f32⟩
  | 29 => ⟨S_, .f32⟩
  | 30 => ⟨S20000x64, .f32⟩
  | 31 => ⟨S20000x64, .f32⟩
  | 32 => ⟨S_, .i32⟩
  | 33 => ⟨S20000, .i32⟩
  | 34 => ⟨S20000, .i1⟩
  | 35 => ⟨S_, .i32⟩
  | 36 => ⟨S20000, .i32⟩
  | 37 => ⟨S20000, .i32⟩
  | 38 => ⟨S20000, .i32⟩
  | 39 => ⟨S20000x1, .i32⟩
  | 40 => ⟨S20000, .i32⟩
  | 41 => ⟨S_, .i32⟩
  | 42 => ⟨S20000, .i32⟩
  | 43 => ⟨S20000, .i1⟩
  | 44 => ⟨S_, .i32⟩
  | 45 => ⟨S20000, .i32⟩
  | 46 => ⟨S20000, .i32⟩
  | 47 => ⟨S20000, .i32⟩
  | 48 => ⟨S20000x1, .i32⟩
  | 49 => ⟨S20000x64, .f32⟩
  | 50 => ⟨S20000x128, .f32⟩
  | 51 => ⟨S_, .f32⟩
  | 52 => ⟨S128x128, .f32⟩
  | 53 => ⟨S20000x1, .i32⟩
  | 54 => ⟨S128x128, .f32⟩
  | 55 => ⟨S_, .f32⟩
  | 56 => ⟨S20000x1, .f32⟩
  | 57 => ⟨S_, .f32⟩
  | 58 => ⟨S128x1, .f32⟩
  | 59 => ⟨S20000x1, .i32⟩
  | 60 => ⟨S128x1, .f32⟩
  | 61 => ⟨S_, .f32⟩
  | 62 => ⟨S128x1, .f32⟩
  | 63 => ⟨S128x1, .f32⟩
  | 64 => ⟨S128x128, .f32⟩
  | 65 => ⟨S128x128, .f32⟩
  | 66 => ⟨S20000x64, .f32⟩
  | 67 => ⟨S1x320000, .i32⟩
  | 68 => ⟨S320000, .i32⟩
  | 69 => ⟨S1x320000, .i32⟩
  | 70 => ⟨S320000, .i32⟩
  | 71 => ⟨S20000, .i32⟩
  | 72 => ⟨S340000, .i32⟩
  | 73 => ⟨S340000, .i32⟩
  | 74 => ⟨S_, .f32⟩
  | 75 => ⟨S340000, .f32⟩
  | 76 => ⟨S_, .f32⟩
  | 77 => ⟨S20000, .f32⟩
  | 78 => ⟨S340000x1, .i32⟩
  | 79 => ⟨S20000, .f32⟩
  | 80 => ⟨S_, .f32⟩
  | 81 => ⟨S20000, .f32⟩
  | 82 => ⟨S20000, .i1⟩
  | 83 => ⟨S20000, .f32⟩
  | 84 => ⟨S_, .f32⟩
  | 85 => ⟨S_, .f32⟩
  | 86 => ⟨S20000, .f32⟩
  | 87 => ⟨S20000, .f32⟩
  | 88 => ⟨S_, .i32⟩
  | 89 => ⟨S340000, .i32⟩
  | 90 => ⟨S340000, .i1⟩
  | 91 => ⟨S_, .i32⟩
  | 92 => ⟨S340000, .i32⟩
  | 93 => ⟨S340000, .i32⟩
  | 94 => ⟨S340000, .i32⟩
  | 95 => ⟨S340000x1, .i32⟩
  | 96 => ⟨S340000, .f32⟩
  | 97 => ⟨S_, .i32⟩
  | 98 => ⟨S340000, .i32⟩
  | 99 => ⟨S340000, .i1⟩
  | 100 => ⟨S_, .i32⟩
  | 101 => ⟨S340000, .i32⟩
  | 102 => ⟨S340000, .i32⟩
  | 103 => ⟨S340000, .i32⟩
  | 104 => ⟨S340000x1, .i32⟩
  | 105 => ⟨S340000, .f32⟩
  | 106 => ⟨S340000, .f32⟩
  | 107 => ⟨S_, .i32⟩
  | 108 => ⟨S340000, .i32⟩
  | 109 => ⟨S340000, .i1⟩
  | 110 => ⟨S_, .i32⟩
  | 111 => ⟨S340000, .i32⟩
  | 112 => ⟨S340000, .i32⟩
  | 113 => ⟨S340000, .i32⟩
  | 114 => ⟨S340000x1, .i32⟩
  | 115 => ⟨S340000x64, .f32⟩
  | 116 => ⟨S340000x1, .f32⟩
  | 117 => ⟨S340000x64, .f32⟩
  | 118 => ⟨S340000x64, .f32⟩
  | 119 => ⟨S_, .f32⟩
  | 120 => ⟨S20000x64, .f32⟩
  | 121 => ⟨S340000x1, .i32⟩
  | 122 => ⟨S20000x64, .f32⟩
  | 123 => ⟨S1x64, .f32⟩
  | 124 => ⟨S20000x64, .f32⟩
  | 125 => ⟨S20000x64, .f32⟩
  | 126 => ⟨S_, .i32⟩
  | 127 => ⟨S20000, .i32⟩
  | _ => ⟨S20000x5000, .f32⟩

abbrev hbmTy0_2 (i : Nat) : BufTy := match i % 128 with
  | 0 => ⟨S20000, .i1⟩
  | 1 => ⟨S_, .i32⟩
  | 2 => ⟨S20000, .i32⟩
  | 3 => ⟨S20000, .i32⟩
  | 4 => ⟨S20000, .i32⟩
  | 5 => ⟨S20000x1, .i32⟩
  | 6 => ⟨S20000, .i32⟩
  | 7 => ⟨S_, .i32⟩
  | 8 => ⟨S20000, .i32⟩
  | 9 => ⟨S20000, .i1⟩
  | 10 => ⟨S_, .i32⟩
  | 11 => ⟨S20000, .i32⟩
  | 12 => ⟨S20000, .i32⟩
  | 13 => ⟨S20000, .i32⟩
  | 14 => ⟨S20000x1, .i32⟩
  | 15 => ⟨S20000x5000, .f32⟩
  | 16 => ⟨S20000x5064, .f32⟩
  | 17 => ⟨S_, .f32⟩
  | 18 => ⟨S20000x5064, .f32⟩
  | 19 => ⟨S20000x5064, .f32⟩
  | 20 => ⟨S20000x64, .f32⟩
  | 21 => ⟨S1x320000, .i32⟩
  | 22 => ⟨S320000, .i32⟩
  | 23 => ⟨S1x320000, .i32⟩
  | 24 => ⟨S320000, .i32⟩
  | 25 => ⟨S20000, .i32⟩
  | 26 => ⟨S340000, .i32⟩
  | 27 => ⟨S340000, .i32⟩
  | 28 => ⟨S_, .f32⟩
  | 29 => ⟨S340000, .f32⟩
  | 30 => ⟨S_, .f32⟩
  | 31 => ⟨S20000, .f32⟩
  | 32 => ⟨S340000x1, .i32⟩
  | 33 => ⟨S20000, .f32⟩
  | 34 => ⟨S_, .f32⟩
  | 35 => ⟨S20000, .f32⟩
  | 36 => ⟨S20000, .i1⟩
  | 37 => ⟨S20000, .f32⟩
  | 38 => ⟨S_, .f32⟩
  | 39 => ⟨S_, .f32⟩
  | 40 => ⟨S20000, .f32⟩
  | 41 => ⟨S20000, .f32⟩
  | 42 => ⟨S_, .i32⟩
  | 43 => ⟨S340000, .i32⟩
  | 44 => ⟨S340000, .i1⟩
  | 45 => ⟨S_, .i32⟩
  | 46 => ⟨S340000, .i32⟩
  | 47 => ⟨S340000, .i32⟩
  | 48 => ⟨S340000, .i32⟩
  | 49 => ⟨S340000x1, .i32⟩
  | 50 => ⟨S340000, .f32⟩
  | 51 => ⟨S_, .i32⟩
  | 52 => ⟨S340000, .i32⟩
  | 53 => ⟨S340000, .i1⟩
  | 54 => ⟨S_, .i32⟩
  | 55 => ⟨S340000, .i32⟩
  | 56 => ⟨S340000, .i32⟩
  | 57 => ⟨S340000, .i32⟩
  | 58 => ⟨S340000x1, .i32⟩
  | 59 => ⟨S340000, .f32⟩
  | 60 => ⟨S340000, .f32⟩
  | 61 => ⟨S_, .i32⟩
  | 62 => ⟨S340000, .i32⟩
  | 63 => ⟨S340000, .i1⟩
  | 64 => ⟨S_, .i32⟩
  | 65 => ⟨S340000, .i32⟩
  | 66 => ⟨S340000, .i32⟩
  | 67 => ⟨S340000, .i32⟩
  | 68 => ⟨S340000x1, .i32⟩
  | 69 => ⟨S340000x64, .f32⟩
  | 70 => ⟨S340000x1, .f32⟩
  | 71 => ⟨S340000x64, .f32⟩
  | 72 => ⟨S340000x64, .f32⟩
  | 73 => ⟨S_, .f32⟩
  | 74 => ⟨S20000x64, .f32⟩
  | 75 => ⟨S340000x1, .i32⟩
  | 76 => ⟨S20000x64, .f32⟩
  | 77 => ⟨S1x64, .f32⟩
  | 78 => ⟨S20000x64, .f32⟩
  | 79 => ⟨S20000x64, .f32⟩
  | 80 => ⟨S_, .f32⟩
  | 81 => ⟨S20000x64, .f32⟩
  | 82 => ⟨S20000x64, .f32⟩
  | 83 => ⟨S_, .i32⟩
  | 84 => ⟨S20000, .i32⟩
  | 85 => ⟨S20000, .i1⟩
  | 86 => ⟨S_, .i32⟩
  | 87 => ⟨S20000, .i32⟩
  | 88 => ⟨S20000, .i32⟩
  | 89 => ⟨S20000, .i32⟩
  | 90 => ⟨S20000x1, .i32⟩
  | 91 => ⟨S20000, .i32⟩
  | 92 => ⟨S_, .i32⟩
  | 93 => ⟨S20000, .i32⟩
  | 94 => ⟨S20000, .i1⟩
  | 95 => ⟨S_, .i32⟩
  | 96 => ⟨S20000, .i32⟩
  | 97 => ⟨S20000, .i32⟩
  | 98 => ⟨S20000, .i32⟩
  | 99 => ⟨S20000x1, .i32⟩
  | 100 => ⟨S20000x64, .f32⟩
  | 101 => ⟨S20000x128, .f32⟩
  | 102 => ⟨S_, .f32⟩
  | 103 => ⟨S128x128, .f32⟩
  | 104 => ⟨S20000x1, .i32⟩
  | 105 => ⟨S128x128, .f32⟩
  | 106 => ⟨S_, .f32⟩
  | 107 => ⟨S20000x1, .f32⟩
  | 108 => ⟨S_, .f32⟩
  | 109 => ⟨S128x1, .f32⟩
  | 110 => ⟨S20000x1, .i32⟩
  | 111 => ⟨S128x1, .f32⟩
  | 112 => ⟨S_, .f32⟩
  | 113 => ⟨S128x1, .f32⟩
  | 114 => ⟨S128x1, .f32⟩
  | 115 => ⟨S128x128, .f32⟩
  | 116 => ⟨S128x128, .f32⟩
  | 117 => ⟨S128x256, .f32⟩
  | 118 => ⟨S128x2, .f32⟩
  | 119 => ⟨S1x2, .f32⟩
  | 120 => ⟨S128x2, .f32⟩
  | 121 => ⟨S128x2, .f32⟩
  | 122 => ⟨S_, .f32⟩
  | 123 => ⟨S128, .f32⟩
  | 124 => ⟨S_, .f32⟩
  | 125 => ⟨S128, .f32⟩
  | 126 => ⟨S128, .f32⟩
  | 127 => ⟨S128x1, .f32⟩
  | _ => ⟨S20000x5000, .f32⟩

abbrev hbmTy0_3 (i : Nat) : BufTy := match i % 128 with
  | 0 => ⟨S128x2, .f32⟩
  | 1 => ⟨S128x2, .f32⟩
  | 2 => ⟨S128x2, .f32⟩
  | 3 => ⟨S_, .f32⟩
  | 4 => ⟨S128, .f32⟩
  | 5 => ⟨S128x1, .f32⟩
  | 6 => ⟨S128x1, .f32⟩
  | 7 => ⟨S128x2, .f32⟩
  | 8 => ⟨S128x2, .f32⟩
  | _ => ⟨S20000x5000, .f32⟩

abbrev hbmTy (i : Nat) : BufTy := match i / 128 with
  | 0 => hbmTy0_0 i
  | 1 => hbmTy0_1 i
  | 2 => hbmTy0_2 i
  | 3 => hbmTy0_3 i
  | _ => ⟨S20000x5000, .f32⟩

abbrev bufTy : (tb : Table) → Fin (tcTables nBuf tb) → BufTy
  | .hbm, ⟨i, _⟩ => hbmTy i
  | _, _ => ⟨S20000x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_9 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩
abbrev main_c_12 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call1_cst : Ref sig .tc := ⟨.hbm, 94, rfl⟩
abbrev main_call1_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_16 : Ref sig .tc := ⟨.hbm, 115, rfl⟩
abbrev main_call2_v0 : Ref sig .tc := ⟨.hbm, 116, rfl⟩
abbrev main_call2_v1 : Ref sig .tc := ⟨.hbm, 117, rfl⟩
abbrev main_v78 : Ref sig .tc := ⟨.hbm, 118, rfl⟩
abbrev main_c_17 : Ref sig .tc := ⟨.hbm, 119, rfl⟩
abbrev main_v79 : Ref sig .tc := ⟨.hbm, 120, rfl⟩
abbrev main_v80 : Ref sig .tc := ⟨.hbm, 121, rfl⟩
abbrev main_c_18 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_19 : Ref sig .tc := ⟨.hbm, 128, rfl⟩
abbrev main_v86 : Ref sig .tc := ⟨.hbm, 129, rfl⟩
abbrev main_v87 : Ref sig .tc := ⟨.hbm, 130, rfl⟩
abbrev main_c_20 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_c_21 : Ref sig .tc := ⟨.hbm, 138, rfl⟩
abbrev main_v94 : Ref sig .tc := ⟨.hbm, 139, rfl⟩
abbrev main_v95 : Ref sig .tc := ⟨.hbm, 140, rfl⟩
abbrev main_c_22 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_23 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_call3_cst : Ref sig .tc := ⟨.hbm, 157, rfl⟩
abbrev main_call3_v0 : Ref sig .tc := ⟨.hbm, 158, rfl⟩
abbrev main_v110 : Ref sig .tc := ⟨.hbm, 159, rfl⟩
abbrev main_c_24 : Ref sig .tc := ⟨.hbm, 160, rfl⟩
abbrev main_v111 : Ref sig .tc := ⟨.hbm, 161, rfl⟩
abbrev main_v112 : Ref sig .tc := ⟨.hbm, 162, rfl⟩
abbrev main_c_25 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_c_26 : Ref sig .tc := ⟨.hbm, 169, rfl⟩
abbrev main_v118 : Ref sig .tc := ⟨.hbm, 170, rfl⟩
abbrev main_v119 : Ref sig .tc := ⟨.hbm, 171, rfl⟩
abbrev main_c_27 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_28 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_29 : Ref sig .tc := ⟨.hbm, 183, rfl⟩
abbrev main_v129 : Ref sig .tc := ⟨.hbm, 184, rfl⟩
abbrev main_cst_30 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_31 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_32 : Ref sig .tc := ⟨.hbm, 202, rfl⟩
abbrev main_v145 : Ref sig .tc := ⟨.hbm, 203, rfl⟩
abbrev main_cst_33 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_cst_34 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_cst_35 : Ref sig .tc := ⟨.hbm, 212, rfl⟩
abbrev main_call4_v0 : Ref sig .tc := ⟨.hbm, 213, rfl⟩
abbrev main_call4_v1 : Ref sig .tc := ⟨.hbm, 214, rfl⟩
abbrev main_v152 : Ref sig .tc := ⟨.hbm, 215, rfl⟩
abbrev main_c_36 : Ref sig .tc := ⟨.hbm, 216, rfl⟩
abbrev main_v153 : Ref sig .tc := ⟨.hbm, 217, rfl⟩
abbrev main_v154 : Ref sig .tc := ⟨.hbm, 218, rfl⟩
abbrev main_c_37 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_c_38 : Ref sig .tc := ⟨.hbm, 225, rfl⟩
abbrev main_v160 : Ref sig .tc := ⟨.hbm, 226, rfl⟩
abbrev main_v161 : Ref sig .tc := ⟨.hbm, 227, rfl⟩
abbrev main_c_39 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_c_40 : Ref sig .tc := ⟨.hbm, 235, rfl⟩
abbrev main_v168 : Ref sig .tc := ⟨.hbm, 236, rfl⟩
abbrev main_v169 : Ref sig .tc := ⟨.hbm, 237, rfl⟩
abbrev main_c_41 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_cst_42 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_c_43 : Ref sig .tc := ⟨.hbm, 254, rfl⟩
abbrev main_v184 : Ref sig .tc := ⟨.hbm, 255, rfl⟩
abbrev main_v185 : Ref sig .tc := ⟨.hbm, 256, rfl⟩
abbrev main_c_44 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_c_45 : Ref sig .tc := ⟨.hbm, 263, rfl⟩
abbrev main_v191 : Ref sig .tc := ⟨.hbm, 264, rfl⟩
abbrev main_v192 : Ref sig .tc := ⟨.hbm, 265, rfl⟩
abbrev main_c_46 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_call5_cst : Ref sig .tc := ⟨.hbm, 273, rfl⟩
abbrev main_call5_v0 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_cst_47 : Ref sig .tc := ⟨.hbm, 284, rfl⟩
abbrev main_v208 : Ref sig .tc := ⟨.hbm, 285, rfl⟩
abbrev main_cst_48 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_cst_49 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_cst_50 : Ref sig .tc := ⟨.hbm, 294, rfl⟩
abbrev main_call6_v0 : Ref sig .tc := ⟨.hbm, 295, rfl⟩
abbrev main_call6_v1 : Ref sig .tc := ⟨.hbm, 296, rfl⟩
abbrev main_v215 : Ref sig .tc := ⟨.hbm, 297, rfl⟩
abbrev main_c_51 : Ref sig .tc := ⟨.hbm, 298, rfl⟩
abbrev main_v216 : Ref sig .tc := ⟨.hbm, 299, rfl⟩
abbrev main_v217 : Ref sig .tc := ⟨.hbm, 300, rfl⟩
abbrev main_c_52 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_c_53 : Ref sig .tc := ⟨.hbm, 307, rfl⟩
abbrev main_v223 : Ref sig .tc := ⟨.hbm, 308, rfl⟩
abbrev main_v224 : Ref sig .tc := ⟨.hbm, 309, rfl⟩
abbrev main_c_54 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_c_55 : Ref sig .tc := ⟨.hbm, 317, rfl⟩
abbrev main_v231 : Ref sig .tc := ⟨.hbm, 318, rfl⟩
abbrev main_v232 : Ref sig .tc := ⟨.hbm, 319, rfl⟩
abbrev main_c_56 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_v238 : Ref sig .tc := ⟨.hbm, 326, rfl⟩
abbrev main_v239 : Ref sig .tc := ⟨.hbm, 327, rfl⟩
abbrev main_v240 : Ref sig .tc := ⟨.hbm, 328, rfl⟩
abbrev main_cst_57 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩
abbrev main_v246 : Ref sig .tc := ⟨.hbm, 335, rfl⟩
abbrev main_call7_cst : Ref sig .tc := ⟨.hbm, 336, rfl⟩
abbrev main_call7_v0 : Ref sig .tc := ⟨.hbm, 337, rfl⟩
abbrev main_v247 : Ref sig .tc := ⟨.hbm, 338, rfl⟩
abbrev main_c_58 : Ref sig .tc := ⟨.hbm, 339, rfl⟩
abbrev main_v248 : Ref sig .tc := ⟨.hbm, 340, rfl⟩
abbrev main_v249 : Ref sig .tc := ⟨.hbm, 341, rfl⟩
abbrev main_c_59 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_v254 : Ref sig .tc := ⟨.hbm, 347, rfl⟩
abbrev main_c_60 : Ref sig .tc := ⟨.hbm, 348, rfl⟩
abbrev main_v255 : Ref sig .tc := ⟨.hbm, 349, rfl⟩
abbrev main_v256 : Ref sig .tc := ⟨.hbm, 350, rfl⟩
abbrev main_c_61 : Ref sig .tc := ⟨.hbm, 351, rfl⟩
abbrev main_v257 : Ref sig .tc := ⟨.hbm, 352, rfl⟩
abbrev main_v258 : Ref sig .tc := ⟨.hbm, 353, rfl⟩
abbrev main_v259 : Ref sig .tc := ⟨.hbm, 354, rfl⟩
abbrev main_v260 : Ref sig .tc := ⟨.hbm, 355, rfl⟩
abbrev main_v261 : Ref sig .tc := ⟨.hbm, 356, rfl⟩
abbrev main_v262 : Ref sig .tc := ⟨.hbm, 357, rfl⟩
abbrev main_cst_62 : Ref sig .tc := ⟨.hbm, 358, rfl⟩
abbrev main_v263 : Ref sig .tc := ⟨.hbm, 359, rfl⟩
abbrev main_v264 : Ref sig .tc := ⟨.hbm, 360, rfl⟩
abbrev main_v265 : Ref sig .tc := ⟨.hbm, 361, rfl⟩
abbrev main_cst_63 : Ref sig .tc := ⟨.hbm, 362, rfl⟩
abbrev main_v266 : Ref sig .tc := ⟨.hbm, 363, rfl⟩
abbrev main_cst_64 : Ref sig .tc := ⟨.hbm, 364, rfl⟩
abbrev main_v267 : Ref sig .tc := ⟨.hbm, 365, rfl⟩
abbrev main_v268 : Ref sig .tc := ⟨.hbm, 366, rfl⟩
abbrev main_v269 : Ref sig .tc := ⟨.hbm, 367, rfl⟩
abbrev main_cst_65 : Ref sig .tc := ⟨.hbm, 368, rfl⟩
abbrev main_v270 : Ref sig .tc := ⟨.hbm, 369, rfl⟩
abbrev main_v271 : Ref sig .tc := ⟨.hbm, 370, rfl⟩
abbrev main_v272 : Ref sig .tc := ⟨.hbm, 371, rfl⟩
abbrev main_v273 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_call8_cst : Ref sig .tc := ⟨.hbm, 378, rfl⟩
abbrev main_call8_v0 : Ref sig .tc := ⟨.hbm, 379, rfl⟩
abbrev main_call8_cst_0 : Ref sig .tc := ⟨.hbm, 380, rfl⟩
abbrev main_call8_v1 : Ref sig .tc := ⟨.hbm, 381, rfl⟩
abbrev main_call8_v2 : Ref sig .tc := ⟨.hbm, 382, rfl⟩
abbrev main_call8_v3 : Ref sig .tc := ⟨.hbm, 383, rfl⟩
abbrev main_call8_v4 : Ref sig .tc := ⟨.hbm, 384, rfl⟩
abbrev main_call8_v5 : Ref sig .tc := ⟨.hbm, 385, rfl⟩
abbrev main_call8_v6 : Ref sig .tc := ⟨.hbm, 386, rfl⟩
abbrev main_call8_cst_1 : Ref sig .tc := ⟨.hbm, 387, rfl⟩
abbrev main_call8_v7 : Ref sig .tc := ⟨.hbm, 388, rfl⟩
abbrev main_call8_v8 : Ref sig .tc := ⟨.hbm, 389, rfl⟩
abbrev main_call8_v9 : Ref sig .tc := ⟨.hbm, 390, rfl⟩
abbrev main_call8_v10 : Ref sig .tc := ⟨.hbm, 391, rfl⟩
abbrev main_v279 : Ref sig .tc := ⟨.hbm, 392, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S20000_S340000_d0 : Shape.Concatenates [S320000, S20000] S340000 0
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000x1_S340000x64_0_1 : S340000x1.BroadcastsInDim S340000x64 (![0, 1] : Fin 2 → Fin S340000x64.rank)
  bcast_S_S20000x64 : S_.BroadcastsInDim S20000x64 (![] : Fin 0 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S20000_S20000x1_0 : S20000.BroadcastsInDim S20000x1 (![0] : Fin 1 → Fin S20000x1.rank)
  concatenates_S20000x64_S20000x5000_S20000x5064_d1 : Shape.Concatenates [S20000x64, S20000x5000] S20000x5064 1
  bcast_S_S20000x5064 : S_.BroadcastsInDim S20000x5064 (![] : Fin 0 → Fin S20000x5064.rank)
  concatenates_S20000x64_S20000x64_S20000x128_d1 : Shape.Concatenates [S20000x64, S20000x64] S20000x128 1
  bcast_S_S128x128 : S_.BroadcastsInDim S128x128 (![] : Fin 0 → Fin S128x128.rank)
  bcast_S_S20000x1 : S_.BroadcastsInDim S20000x1 (![] : Fin 0 → Fin S20000x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  concatenates_S128x128_S128x128_S128x256_d1 : Shape.Concatenates [S128x128, S128x128] S128x256 1
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  reducesTo_S128x2_S128_d1 : S128x2.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x2_0_1 : S128x1.BroadcastsInDim S128x2 (![0, 1] : Fin 2 → Fin S128x2.rank)
  dot_S20000x5000_S5000x64_S20000x64_1_0_0_1_n_n_wf : DotDims.WF S20000x5000 S5000x64 S20000x64 [1] [0] [0] [1] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S20000x64_S340000x1_S340000x64_1_0_n_n_0_1_164_wf : GatherDims.WF S20000x64 S340000x1 S340000x64 [1] [0] [] [0] [] 1 ![1, 64]
  scatter_S20000x64_S340000x1_S340000x64_1_0_0_1_wf : ScatterDims.WF S20000x64 S340000x1 S340000x64 [1] [0] [0] 1
  gather_S128_S20000x1_S20000_n_0_n_n_0_1_1_wf : GatherDims.WF S128 S20000x1 S20000 [] [0] [] [0] [] 1 ![1]
  gather_S20000x5000_S20000x1_S20000x5000_1_0_n_n_0_1_15000_wf : GatherDims.WF S20000x5000 S20000x1 S20000x5000 [1] [0] [] [0] [] 1 ![1, 5000]
  dot_S20000x5064_S5064x64_S20000x64_1_0_0_1_n_n_wf : DotDims.WF S20000x5064 S5064x64 S20000x64 [1] [0] [0] [1] [] []
  gather_S20000x64_S20000x1_S20000x64_1_0_n_n_0_1_164_wf : GatherDims.WF S20000x64 S20000x1 S20000x64 [1] [0] [] [0] [] 1 ![1, 64]
  scatter_S128x128_S20000x1_S20000x128_1_0_0_1_wf : ScatterDims.WF S128x128 S20000x1 S20000x128 [1] [0] [0] 1
  scatter_S128x1_S20000x1_S20000x1_1_0_0_1_wf : ScatterDims.WF S128x1 S20000x1 S20000x1 [1] [0] [0] 1
  dot_S128x256_S256x2_S128x2_1_0_0_1_n_n_wf : DotDims.WF S128x256 S256x2 S128x2 [1] [0] [0] [1] [] []

variable [Facts₀]

def dot_S20000x5000_S5000x64_S20000x64_1_0_0_1_n_n : DotDims S20000x5000 S5000x64 S20000x64 where
  lhsContracting := [1]
  rhsContracting := [0]
  lhsNonContracting := [0]
  rhsNonContracting := [1]
  lhsBatch := []
  rhsBatch := []
  wf := dot_S20000x5000_S5000x64_S20000x64_1_0_0_1_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x64_S340000x1_S340000x64_1_0_n_n_0_1_164 : GatherDims S20000x64 S340000x1 S340000x64 where
  offsetDims := [1]
  collapsedSliceDims := [0]
  operandBatchingDims := []
  startIndicesBatchingDims := []
  startIndexMap := [0]
  indexVectorDim := 1
  sliceSizes := ![1, 64]
  wf := gather_S20000x64_S340000x1_S340000x64_1_0_n_n_0_1_164_wf
def scatter_S20000x64_S340000x1_S340000x64_1_0_0_1 : ScatterDims S20000x64 S340000x1 S340000x64 where
  updateWindowDims := [1]
  insertedWindowDims := [0]
  scatterDimsToOperandDims := [0]
  indexVectorDim := 1
  wf := scatter_S20000x64_S340000x1_S340000x64_1_0_0_1_wf
def gather_S128_S20000x1_S20000_n_0_n_n_0_1_1 : GatherDims S128 S20000x1 S20000 where
  offsetDims := []
  collapsedSliceDims := [0]
  operandBatchingDims := []
  startIndicesBatchingDims := []
  startIndexMap := [0]
  indexVectorDim := 1
  sliceSizes := ![1]
  wf := gather_S128_S20000x1_S20000_n_0_n_n_0_1_1_wf
def gather_S20000x5000_S20000x1_S20000x5000_1_0_n_n_0_1_15000 : GatherDims S20000x5000 S20000x1 S20000x5000 where
  offsetDims := [1]
  collapsedSliceDims := [0]
  operandBatchingDims := []
  startIndicesBatchingDims := []
  startIndexMap := [0]
  indexVectorDim := 1
  sliceSizes := ![1, 5000]
  wf := gather_S20000x5000_S20000x1_S20000x5000_1_0_n_n_0_1_15000_wf
def dot_S20000x5064_S5064x64_S20000x64_1_0_0_1_n_n : DotDims S20000x5064 S5064x64 S20000x64 where
  lhsContracting := [1]
  rhsContracting := [0]
  lhsNonContracting := [0]
  rhsNonContracting := [1]
  lhsBatch := []
  rhsBatch := []
  wf := dot_S20000x5064_S5064x64_S20000x64_1_0_0_1_n_n_wf
def gather_S20000x64_S20000x1_S20000x64_1_0_n_n_0_1_164 : GatherDims S20000x64 S20000x1 S20000x64 where
  offsetDims := [1]
  collapsedSliceDims := [0]
  operandBatchingDims := []
  startIndicesBatchingDims := []
  startIndexMap := [0]
  indexVectorDim := 1
  sliceSizes := ![1, 64]
  wf := gather_S20000x64_S20000x1_S20000x64_1_0_n_n_0_1_164_wf
def scatter_S128x128_S20000x1_S20000x128_1_0_0_1 : ScatterDims S128x128 S20000x1 S20000x128 where
  updateWindowDims := [1]
  insertedWindowDims := [0]
  scatterDimsToOperandDims := [0]
  indexVectorDim := 1
  wf := scatter_S128x128_S20000x1_S20000x128_1_0_0_1_wf
def scatter_S128x1_S20000x1_S20000x1_1_0_0_1 : ScatterDims S128x1 S20000x1 S20000x1 where
  updateWindowDims := [1]
  insertedWindowDims := [0]
  scatterDimsToOperandDims := [0]
  indexVectorDim := 1
  wf := scatter_S128x1_S20000x1_S20000x1_1_0_0_1_wf
def dot_S128x256_S256x2_S128x2_1_0_0_1_n_n : DotDims S128x256 S256x2 S128x2 where
  lhsContracting := [1]
  rhsContracting := [0]
  lhsNonContracting := [0]
  rhsNonContracting := [1]
  lhsBatch := []
  rhsBatch := []
  wf := dot_S128x256_S256x2_S128x2_1_0_0_1_n_n_wf

class Facts : Prop extends Facts₀ where

variable [Facts]
-- ==== Proof.KFrame.lean ====
import proofs.«422748_j23210003267823_1_alg».proof.Proof.Gen.KernelIdeal.Launch
import proofs.«422748_j23210003267823_1_alg».proof.Proof.Gen.KernelIdeal.Skeleton
import proofs.«422748_j23210003267823_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The program's run: one host line (the two first-layer weight matrices side by side), the launched region — at each of
    its 50 points a 400 × 5000 block of `x` times the whole 5000 × 128 matrix, stored whole into the point's 400 × 128 output
    block —, then 369 host lines in twenty stretches, each writing only its own result buffer. Every fair execution ends,
    faults nowhere, leaves the pipeline's arrays at what the points wrote back, the argument arrays as launched, and every
    other buffer at what the later lines compute from those. -/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The stretches of host lines after the region, in order. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19]

/-- Every buffer a line after the region writes: each line's own result. -/
abbrev tailW : List (Ref sig .tc) := [
    main_v2, main_v3, main_c, main_v4, main_v5, main_c_0, main_v6, main_v7, main_v8, main_v9, main_v10,
    main_call0_cst, main_call0_v0, main_v11,
    main_cst, main_v12, main_cst_1, main_v13, main_v14, main_v15, main_cst_2, main_v16, main_v17, main_v18, main_v19, main_v20, main_v21, main_v22, main_v23, main_v24, main_cst_3, main_v25, main_cst_4, main_v26, main_v27, main_v28, main_cst_5, main_v29, main_v30, main_v31, main_cst_6,
    main_call1_v0, main_call1_v1, main_v32,
    main_c_7, main_v33, main_v34, main_c_8, main_v35, main_v36, main_v37, main_v38, main_v39, main_c_9, main_v40, main_v41, main_c_10, main_v42, main_v43, main_v44, main_v45, main_v46, main_v47, main_c_11, main_v48, main_v49, main_c_12, main_v50, main_v51, main_v52, main_v53, main_v54, main_v55, main_v56, main_v57, main_cst_13, main_v58, main_v59, main_v60, main_v61, main_v62, main_v63, main_v64, main_v65, main_v66,
    main_call2_cst, main_call2_v0, main_v67,
    main_v68, main_c_14, main_v69, main_v70, main_c_15, main_v71, main_v72, main_v73, main_v74, main_v75, main_v76, main_v77, main_v78, main_v79, main_v80, main_v81, main_v82, main_v83, main_cst_16, main_v84, main_cst_17, main_v85, main_v86, main_v87, main_cst_18, main_v88, main_v89, main_v90, main_cst_19,
    main_call3_v0, main_call3_v1, main_v91,
    main_c_20, main_v92, main_v93, main_c_21, main_v94, main_v95, main_v96, main_v97, main_v98, main_c_22, main_v99, main_v100, main_c_23, main_v101, main_v102, main_v103, main_v104, main_v105, main_v106, main_c_24, main_v107, main_v108, main_c_25, main_v109, main_v110, main_v111, main_v112, main_v113, main_v114, main_v115, main_v116, main_cst_26, main_v117, main_v118, main_v119, main_v120, main_v121, main_v122,
    main_call4_cst, main_call4_v0, main_v123,
    main_c_27, main_v124, main_v125, main_c_28, main_v126, main_v127, main_v128, main_v129, main_v130, main_c_29, main_v131, main_v132, main_c_30, main_v133, main_v134, main_v135, main_v136, main_v137, main_v138, main_cst_31, main_v139, main_v140, main_v141, main_v142, main_v143, main_v144, main_v145, main_v146, main_v147, main_v148, main_v149, main_v150, main_cst_32, main_v151, main_cst_33, main_v152, main_v153, main_v154, main_cst_34, main_v155, main_v156, main_v157, main_cst_35,
    main_call5_v0, main_call5_v1, main_v158,
    main_c_36, main_v159, main_v160, main_c_37, main_v161, main_v162, main_v163, main_v164, main_v165, main_c_38, main_v166, main_v167, main_c_39, main_v168, main_v169, main_v170, main_v171, main_v172, main_v173, main_c_40, main_v174, main_v175, main_c_41, main_v176, main_v177, main_v178, main_v179, main_v180, main_v181, main_v182, main_v183, main_cst_42, main_v184, main_v185, main_v186, main_v187, main_v188, main_v189, main_v190, main_v191, main_v192,
    main_call6_cst, main_call6_v0, main_v193,
    main_v194, main_c_43, main_v195, main_v196, main_c_44, main_v197, main_v198, main_v199, main_v200, main_v201, main_v202, main_v203, main_v204, main_v205, main_v206, main_v207, main_v208, main_v209, main_cst_45, main_v210, main_cst_46, main_v211, main_v212, main_v213, main_cst_47, main_v214, main_v215, main_v216, main_cst_48,
    main_call7_v0, main_call7_v1, main_v217,
    main_c_49, main_v218, main_v219, main_c_50, main_v220, main_v221, main_v222, main_v223, main_v224, main_c_51, main_v225, main_v226, main_c_52, main_v227, main_v228, main_v229, main_v230, main_v231, main_v232, main_c_53, main_v233, main_v234, main_c_54, main_v235, main_v236, main_v237, main_v238, main_v239, main_v240, main_v241, main_v242, main_cst_55, main_v243, main_v244, main_v245, main_v246, main_v247, main_v248,
    main_call8_cst, main_call8_v0, main_v249,
    main_c_56, main_v250, main_v251, main_c_57, main_v252, main_v253, main_v254, main_v255, main_v256, main_c_58, main_v257, main_v258, main_c_59, main_v259, main_v260, main_v261, main_v262, main_v263, main_v264, main_cst_60, main_v265, main_v266, main_v267, main_v268, main_v269, main_v270, main_v271, main_v272, main_v273, main_v274,
    main_call9_cst, main_call9_v0, main_call9_cst_0, main_call9_v1, main_call9_v2, main_call9_v3, main_call9_v4, main_call9_v5, main_call9_v6, main_call9_cst_1, main_call9_v7, main_call9_v8, main_call9_v9, main_call9_v10, main_v275 ]

/-- Core `c`'s buffer contents when the region is entered: after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The line before the region writes only the side-by-side weight matrix. -/
theorem head_keep (r : Ref sig .tc) (hr : r ≠ main_v0) :
    ∀ op ∈ (List.flatten [hostOps0] : List (HloOp τ sig (Elt F))), Proc.devRef (τ := τ) .tc r ∉ op.writes := by
  intro op hop
  simp only [hostOps0, List.flatten_cons, List.flatten_nil, List.append_nil, List.mem_cons, List.mem_nil_iff, List.not_mem_nil, or_false] at hop
  subst hop
  simp only [StableHlo.binary_writes, Finset.mem_singleton]
  exact StableHlo.devRef_ne_of_ne hr

/-- @main is the line before the region, the region, and the twenty stretches after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, List.not_mem_nil, or_false] at hops
  rcases hops with rfl | rfl | rfl | rfl | rfl | rfl | rfl | rfl | rfl | rfl | rfl | rfl | rfl | rfl | rfl | rfl | rfl | rfl | rfl | rfl
  all_goals exact Pipeline.sub_ucRefs op ((List.forall_iff_forall_mem.mp (by first | exact hostOps1_sub | exact hostOps1_1_sub | exact hostOps1_2_sub | exact hostOps1_3_sub | exact hostOps1_4_sub | exact hostOps1_5_sub | exact hostOps1_6_sub | exact hostOps1_7_sub | exact hostOps1_8_sub | exact hostOps1_9_sub | exact hostOps1_10_sub | exact hostOps1_11_sub | exact hostOps1_12_sub | exact hostOps1_13_sub | exact hostOps1_14_sub | exact hostOps1_15_sub | exact hostOps1_16_sub | exact hostOps1_17_sub | exact hostOps1_18_sub | exact hostOps1_19_sub)) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, List.not_mem_nil, or_false] at hops
  rcases hops with rfl | rfl | rfl | rfl | rfl | rfl | rfl | rfl | rfl | rfl | rfl | rfl | rfl | rfl | rfl | rfl | rfl | rfl | rfl | rfl
  all_goals
    refine (List.forall_iff_forall_mem.mp (?_ : List.Forall (fun op : HloOp τ sig (Elt F) => op.fresh = ∅) _)) op hop
    simp only [List.Forall]; repeat' constructor

set_option maxHeartbeats 8000000 in
/-- Each writes one buffer, and it is one of `tailW`. -/
theorem tail_writes : ∀ ops ∈ (tailOps : List (List (HloOp τ sig (Elt F)))), ∀ op ∈ ops,
    op.writes ⊆ (tailW.map (Proc.devRef (τ := τ) .tc)).toFinset := by
  intro ops hops op hop
  simp only [List.mem_cons, List.mem_nil_iff, List.not_mem_nil, or_false] at hops
  rcases hops with rfl | rfl | rfl | rfl | rfl | rfl | rfl | rfl | rfl | rfl | rfl | rfl | rfl | rfl | rfl | rfl | rfl | rfl | rfl | rfl
  all_goals
    refine (List.forall_iff_forall_mem.mp (?_ : List.Forall (fun op : HloOp τ sig (Elt F) => op.writes ⊆ (tailW.map (Proc.devRef (τ := τ) .tc)).toFinset) _)) op hop
    simp only [List.Forall]
    repeat' apply And.intro
    all_goals (simp only [StableHlo.nullary_writes, StableHlo.unary_writes, StableHlo.binary_writes, StableHlo.ternary_writes, StableHlo.reshape_writes, Finset.singleton_subset_iff, List.mem_toFinset]; exact List.mem_map_of_mem (by decide))

/-- So a buffer outside `tailW` is written by none of them. -/
theorem tail_keep (r : Ref sig .tc) (hr : r ∉ tailW) : ∀ ops ∈ (tailOps : List (List (HloOp τ sig (Elt F)))), ∀ op ∈ ops,
    Proc.devRef (τ := τ) .tc r ∉ op.writes := fun ops hops op hop hb => by
  obtain ⟨y, hy, he⟩ := List.mem_map.mp (List.mem_toFinset.mp (tail_writes ops hops op hop hb))
  exact hr (Proc.devRef_injective _ he ▸ hy)

/-- In particular none writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_keep main_arg0 (by decide) ops hops op hop
  · exact tail_keep main_v0 (by decide) ops hops op hop
  · exact tail_keep main_v1 (by decide) ops hops op hop

/-- A buffer outside `tailW` holds after the later lines what it held when the region ended. -/
theorem tail_of_kept (dats : (p : Fin 1) → (c : Dev nD) → Dat τ (Elt F) Unit ℕ (UR sig nD τ) ℕ (cfgs p) c) (c : Dev nD)
    (r : Ref sig .tc) (hr : r ∉ tailW) :
    Pipeline.afterTail₀ cfgs dats 0 (V0 m) tailOps c r
      = Pipeline.withArrays (cfgs 0).spec c (V0 m c) (fun w => (dats 0 c).arrAt w (cfgs 0).N) (Proc.devRef .tc r) := by
  unfold Pipeline.afterTail₀
  exact StableHlo.after_of_forall_not_mem (b := Proc.devRef .tc r) _ _ (fun op hop => by
    obtain ⟨ops, hops, hop'⟩ := List.mem_flatten.mp hop
    exact tail_keep r hr ops hops op hop')

/-- An argument array that is no array of the pipeline ends as launched. -/
theorem W_arg (dats : (p : Fin 1) → (c : Dev nD) → Dat τ (Elt F) Unit ℕ (UR sig nD τ) ℕ (cfgs p) c) (c : Dev nD)
    (r : Ref sig .tc) (hr : r ∉ tailW) (hw : ∀ w, Pipeline.arrRef spec0 w ≠ r) (h0 : r ≠ main_v0) :
    Pipeline.afterTail₀ cfgs dats 0 (V0 m) tailOps c r = m ((c : Thread nD τ).loc r) :=
  (tail_of_kept m dats c r hr).trans ((Pipeline.withArrays_of_ne _ c (V0 m c) _ r hw).trans
    (StableHlo.after_of_forall_not_mem (b := Proc.devRef .tc r) _ _ (head_keep r h0)))

/-- `x` enters the region as launched. -/
theorem V_main_arg0 (c : Dev nD) : V m c main_arg0 = m ((c : Thread nD τ).loc main_arg0) :=
  StableHlo.after_of_forall_not_mem (b := Proc.devRef .tc main_arg0) _ _ (head_keep main_arg0 (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The `x` window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds the whole matrix at every point (fetched at the first, its index never moves). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev r0_0 : Rect S400x5000 := Rect.unit (s := S400x5000) ![0, 0] S400x5000.size inb_S400x5000_S400x5000_0_0
abbrev r0_1 : Rect S5000x128 := Rect.unit (s := S5000x128) ![0, 0] S5000x128.size inb_S5000x128_S5000x128_0_0
abbrev r0_2 : Rect S400x128 := Rect.unit (s := S400x128) ![0, 0] S400x128.size inb_S400x128_S400x128_0_0

/-- The output window's staging buffer after the body: the product of the two input blocks, stored whole. -/
def out0_2 (x0 : Vec F S400x5000 .f32) (x1 : Vec F S5000x128 .f32) : Vec F S400x128 .f32 :=
  View.canon [⟨r0_2, k0_pay1 (View.ld x0 r0_0) (View.ld x1 r0_1)⟩]

/-- The one store covers the buffer. -/
theorem cover0_2 (p0 : Vec F S400x128 .f32) (y : S400x128.Idx) :
    ∃ pc ∈ ([⟨r0_2, p0⟩] : List (View.Piece (Elt F) S400x128 .f32)), y ∈ pc.1.set :=
  View.cover_of_tiled [⟨r0_2, p0⟩] S400x128.size (by rfl) y

set_option maxHeartbeats 1000000 in
/-- The body on whole staging memrefs, the inputs' at contents `x0`, `x1` and the output's at anything, ends with the
    inputs' as they were and the output's at `out0_2 x0 x1`. -/
theorem sound_kernel (c : Dev nD) (E : Set ℕ) (i : grid0.Coords) (arg1 : Memref sig .tc .vmem S400x5000 .f32) (harg1 : arg1.IsWhole) (arg2 : Memref sig .tc .vmem S5000x128 .f32) (harg2 : arg2.IsWhole) (arg3 : Memref sig .tc .vmem S400x128 .f32) (harg3 : arg3.IsWhole)
    (x0 : Vec F S400x5000 .f32) (x1 : Vec F S5000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- On core `c`: the arrays as the region finds them; after the body at point `t` each input's buffer at its block and the
    output's at the product of the two; the invariant untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the points wrote back and
    every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- What the run says of an unscoped buffer that is no array of the pipeline. -/
theorem rest_of_run {r : PUnit × MemSt nD τ sig (Elt F)}
    (h : Pipeline.FramePost cfgs (dats m) 0 (Pipeline.afterTail₀ cfgs (dats m) 0 (V0 m) tailOps) r) (c : Dev nD)
    (b : Ref sig .tc) (hs : b.isScoped = false) (ha : ∀ w, (spec0 w).arr.view.ref ≠ b) :
    r.2.mem ((c.tc : Thread nD τ).loc b) = Pipeline.afterTail₀ cfgs (dats m) 0 (V0 m) tailOps c b :=
  (h c).2 b (Pipeline.mem_restRefs_of b hs ha)

/-- `x`, the one argument the pipeline stages, ends as launched: an input's array is never written back. -/
theorem x_of_run {r : PUnit × MemSt nD τ sig (Elt F)}
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0) :=
  (((h c).1 0).trans ((dats m 0 c).arrAt_in 0 rfl _)).trans ((A_eq m c 0).trans (V_main_arg0 m c))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨x_of_run m h c,
      (rest_of_run m h c main_arg1 (by decide) (by decide)).trans (W_arg m (dats m) c main_arg1 (by decide) (by decide) (by decide)),
      (rest_of_run m h c main_arg2 (by decide) (by decide)).trans (W_arg m (dats m) c main_arg2 (by decide) (by decide) (by decide)),
      (rest_of_run m h c main_arg3 (by decide) (by decide)).trans (W_arg m (dats m) c main_arg3 (by decide) (by decide) (by decide)),
      (rest_of_run m h c main_arg4 (by decide) (by decide)).trans (W_arg m (dats m) c main_arg4 (by decide) (by decide) (by decide)),
      (rest_of_run m h c main_arg5 (by decide) (by decide)).trans (W_arg m (dats m) c main_arg5 (by decide) (by decide) (by decide)),
      (rest_of_run m h c main_arg6 (by decide) (by decide)).trans (W_arg m (dats m) c main_arg6 (by decide) (by decide) (by decide)),
      (rest_of_run m h c main_arg7 (by decide) (by decide)).trans (W_arg m (dats m) c main_arg7 (by decide) (by decide) (by decide)),
      (rest_of_run m h c main_arg8 (by decide) (by decide)).trans (W_arg m (dats m) c main_arg8 (by decide) (by decide) (by decide)),
      (rest_of_run m h c main_arg9 (by decide) (by decide)).trans (W_arg m (dats m) c main_arg9 (by decide) (by decide) (by decide)),
      (rest_of_run m h c main_arg10 (by decide) (by decide)).trans (W_arg m (dats m) c main_arg10 (by decide) (by decide) (by decide)),
      (rest_of_run m h c main_arg11 (by decide) (by decide)).trans (W_arg m (dats m) c main_arg11 (by decide) (by decide) (by decide)),
      (rest_of_run m h c main_arg12 (by decide) (by decide)).trans (W_arg m (dats m) c main_arg12 (by decide) (by decide) (by decide)),
      (rest_of_run m h c main_arg13 (by decide) (by decide)).trans (W_arg m (dats m) c main_arg13 (by decide) (by decide) (by decide)),
      (rest_of_run m h c main_arg14 (by decide) (by decide)).trans (W_arg m (dats m) c main_arg14 (by decide) (by decide) (by decide))⟩) (run_main m ρ)

end Cert.KernelIdeal.Fr

end
-- ==== Proof.KFrameBits.lean ====
import proofs.«422748_j23210003267823_1_alg».proof.Proof.Gen.Kernel.Launch
import proofs.«422748_j23210003267823_1_alg».proof.Proof.Gen.Kernel.Skeleton
import proofs.«422748_j23210003267823_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The program's run: one host line (the two first-layer weight matrices side by side), the launched region — at each of
    its 50 points a 400 × 5000 block of `x` times the whole 5000 × 128 matrix, stored whole into the point's 400 × 128 output
    block —, then 369 host lines in twenty stretches, each writing only its own result buffer. Every fair execution ends,
    faults nowhere, leaves the pipeline's arrays at what the points wrote back, the argument arrays as launched, and every
    other buffer at what the later lines compute from those. -/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The stretches of host lines after the region, in order. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19]

/-- Every buffer a line after the region writes: each line's own result. -/
abbrev tailW : List (Ref sig .tc) := [
    main_v2, main_v3, main_c, main_v4, main_v5, main_c_0, main_v6, main_v7, main_v8, main_v9, main_v10,
    main_call0_cst, main_call0_v0, main_v11,
    main_cst, main_v12, main_cst_1, main_v13, main_v14, main_v15, main_cst_2, main_v16, main_v17, main_v18, main_v19, main_v20, main_v21, main_v22, main_v23, main_v24, main_cst_3, main_v25, main_cst_4, main_v26, main_v27, main_v28, main_cst_5, main_v29, main_v30, main_v31, main_cst_6,
    main_call1_v0, main_call1_v1, main_v32,
    main_c_7, main_v33, main_v34, main_c_8, main_v35, main_v36, main_v37, main_v38, main_v39, main_c_9, main_v40, main_v41, main_c_10, main_v42, main_v43, main_v44, main_v45, main_v46, main_v47, main_c_11, main_v48, main_v49, main_c_12, main_v50, main_v51, main_v52, main_v53, main_v54, main_v55, main_v56, main_v57, main_cst_13, main_v58, main_v59, main_v60, main_v61, main_v62, main_v63, main_v64, main_v65, main_v66,
    main_call2_cst, main_call2_v0, main_v67,
    main_v68, main_c_14, main_v69, main_v70, main_c_15, main_v71, main_v72, main_v73, main_v74, main_v75, main_v76, main_v77, main_v78, main_v79, main_v80, main_v81, main_v82, main_v83, main_cst_16, main_v84, main_cst_17, main_v85, main_v86, main_v87, main_cst_18, main_v88, main_v89, main_v90, main_cst_19,
    main_call3_v0, main_call3_v1, main_v91,
    main_c_20, main_v92, main_v93, main_c_21, main_v94, main_v95, main_v96, main_v97, main_v98, main_c_22, main_v99, main_v100, main_c_23, main_v101, main_v102, main_v103, main_v104, main_v105, main_v106, main_c_24, main_v107, main_v108, main_c_25, main_v109, main_v110, main_v111, main_v112, main_v113, main_v114, main_v115, main_v116, main_cst_26, main_v117, main_v118, main_v119, main_v120, main_v121, main_v122,
    main_call4_cst, main_call4_v0, main_v123,
    main_c_27, main_v124, main_v125, main_c_28, main_v126, main_v127, main_v128, main_v129, main_v130, main_c_29, main_v131, main_v132, main_c_30, main_v133, main_v134, main_v135, main_v136, main_v137, main_v138, main_cst_31, main_v139, main_v140, main_v141, main_v142, main_v143, main_v144, main_v145, main_v146, main_v147, main_v148, main_v149, main_v150, main_cst_32, main_v151, main_cst_33, main_v152, main_v153, main_v154, main_cst_34, main_v155, main_v156, main_v157, main_cst_35,
    main_call5_v0, main_call5_v1, main_v158,
    main_c_36, main_v159, main_v160, main_c_37, main_v161, main_v162, main_v163, main_v164, main_v165, main_c_38, main_v166, main_v167, main_c_39, main_v168, main_v169, main_v170, main_v171, main_v172, main_v173, main_c_40, main_v174, main_v175, main_c_41, main_v176, main_v177, main_v178, main_v179, main_v180, main_v181, main_v182, main_v183, main_cst_42, main_v184, main_v185, main_v186, main_v187, main_v188, main_v189, main_v190, main_v191, main_v192,
    main_call6_cst, main_call6_v0, main_v193,
    main_v194, main_c_43, main_v195, main_v196, main_c_44, main_v197, main_v198, main_v199, main_v200, main_v201, main_v202, main_v203, main_v204, main_v205, main_v206, main_v207, main_v208, main_v209, main_cst_45, main_v210, main_cst_46, main_v211, main_v212, main_v213, main_cst_47, main_v214, main_v215, main_v216, main_cst_48,
    main_call7_v0, main_call7_v1, main_v217,
    main_c_49, main_v218, main_v219, main_c_50, main_v220, main_v221, main_v222, main_v223, main_v224, main_c_51, main_v225, main_v226, main_c_52, main_v227, main_v228, main_v229, main_v230, main_v231, main_v232, main_c_53, main_v233, main_v234, main_c_54, main_v235, main_v236, main_v237, main_v238, main_v239, main_v240, main_v241, main_v242, main_cst_55, main_v243, main_v244, main_v245, main_v246, main_v247, main_v248,
    main_call8_cst, main_call8_v0, main_v249,
    main_c_56, main_v250, main_v251, main_c_57, main_v252, main_v253, main_v254, main_v255, main_v256, main_c_58, main_v257, main_v258, main_c_59, main_v259, main_v260, main_v261, main_v262, main_v263, main_v264, main_cst_60, main_v265, main_v266, main_v267, main_v268, main_v269, main_v270, main_v271, main_v272, main_v273, main_v274,
    main_call9_cst, main_call9_v0, main_call9_cst_0, main_call9_v1, main_call9_v2, main_call9_v3, main_call9_v4, main_call9_v5, main_call9_v6, main_call9_cst_1, main_call9_v7, main_call9_v8, main_call9_v9, main_call9_v10, main_v275 ]

/-- Core `c`'s buffer contents when the region is entered: after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- The line before the region writes only the side-by-side weight matrix. -/
theorem head_keep (r : Ref sig .tc) (hr : r ≠ main_v0) :
    ∀ op ∈ (List.flatten [hostOps0] : List (HloOp τ sig (Elt F))), Proc.devRef (τ := τ) .tc r ∉ op.writes := by
  intro op hop
  simp only [hostOps0, List.flatten_cons, List.flatten_nil, List.append_nil, List.mem_cons, List.mem_nil_iff, List.not_mem_nil, or_false] at hop
  subst hop
  simp only [StableHlo.binary_writes, Finset.mem_singleton]
  exact StableHlo.devRef_ne_of_ne hr

/-- @main is the line before the region, the region, and the twenty stretches after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, List.not_mem_nil, or_false] at hops
  rcases hops with rfl | rfl | rfl | rfl | rfl | rfl | rfl | rfl | rfl | rfl | rfl | rfl | rfl | rfl | rfl | rfl | rfl | rfl | rfl | rfl
  all_goals exact Pipeline.sub_ucRefs op ((List.forall_iff_forall_mem.mp (by first | exact hostOps1_sub | exact hostOps1_1_sub | exact hostOps1_2_sub | exact hostOps1_3_sub | exact hostOps1_4_sub | exact hostOps1_5_sub | exact hostOps1_6_sub | exact hostOps1_7_sub | exact hostOps1_8_sub | exact hostOps1_9_sub | exact hostOps1_10_sub | exact hostOps1_11_sub | exact hostOps1_12_sub | exact hostOps1_13_sub | exact hostOps1_14_sub | exact hostOps1_15_sub | exact hostOps1_16_sub | exact hostOps1_17_sub | exact hostOps1_18_sub | exact hostOps1_19_sub)) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, List.not_mem_nil, or_false] at hops
  rcases hops with rfl | rfl | rfl | rfl | rfl | rfl | rfl | rfl | rfl | rfl | rfl | rfl | rfl | rfl | rfl | rfl | rfl | rfl | rfl | rfl
  all_goals
    refine (List.forall_iff_forall_mem.mp (?_ : List.Forall (fun op : HloOp τ sig (Elt F) => op.fresh = ∅) _)) op hop
    simp only [List.Forall]; repeat' constructor

set_option maxHeartbeats 8000000 in
/-- Each writes one buffer, and it is one of `tailW`. -/
theorem tail_writes : ∀ ops ∈ (tailOps : List (List (HloOp τ sig (Elt F)))), ∀ op ∈ ops,
    op.writes ⊆ (tailW.map (Proc.devRef (τ := τ) .tc)).toFinset := by
  intro ops hops op hop
  simp only [List.mem_cons, List.mem_nil_iff, List.not_mem_nil, or_false] at hops
  rcases hops with rfl | rfl | rfl | rfl | rfl | rfl | rfl | rfl | rfl | rfl | rfl | rfl | rfl | rfl | rfl | rfl | rfl | rfl | rfl | rfl
  all_goals
    refine (List.forall_iff_forall_mem.mp (?_ : List.Forall (fun op : HloOp τ sig (Elt F) => op.writes ⊆ (tailW.map (Proc.devRef (τ := τ) .tc)).toFinset) _)) op hop
    simp only [List.Forall]
    repeat' apply And.intro
    all_goals (simp only [StableHlo.nullary_writes, StableHlo.unary_writes, StableHlo.binary_writes, StableHlo.ternary_writes, StableHlo.reshape_writes, Finset.singleton_subset_iff, List.mem_toFinset]; exact List.mem_map_of_mem (by decide))

/-- So a buffer outside `tailW` is written by none of them. -/
theorem tail_keep (r : Ref sig .tc) (hr : r ∉ tailW) : ∀ ops ∈ (tailOps : List (List (HloOp τ sig (Elt F)))), ∀ op ∈ ops,
    Proc.devRef (τ := τ) .tc r ∉ op.writes := fun ops hops op hop hb => by
  obtain ⟨y, hy, he⟩ := List.mem_map.mp (List.mem_toFinset.mp (tail_writes ops hops op hop hb))
  exact hr (Proc.devRef_injective _ he ▸ hy)

/-- In particular none writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_keep main_arg0 (by decide) ops hops op hop
  · exact tail_keep main_v0 (by decide) ops hops op hop
  · exact tail_keep main_v1 (by decide) ops hops op hop

/-- A buffer outside `tailW` holds after the later lines what it held when the region ended. -/
theorem tail_of_kept (dats : (p : Fin 1) → (c : Dev nD) → Dat τ (Elt F) Unit ℕ (UR sig nD τ) ℕ (cfgs p) c) (c : Dev nD)
    (r : Ref sig .tc) (hr : r ∉ tailW) :
    Pipeline.afterTail₀ cfgs dats 0 (V0 m) tailOps c r
      = Pipeline.withArrays (cfgs 0).spec c (V0 m c) (fun w => (dats 0 c).arrAt w (cfgs 0).N) (Proc.devRef .tc r) := by
  unfold Pipeline.afterTail₀
  exact StableHlo.after_of_forall_not_mem (b := Proc.devRef .tc r) _ _ (fun op hop => by
    obtain ⟨ops, hops, hop'⟩ := List.mem_flatten.mp hop
    exact tail_keep r hr ops hops op hop')

/-- An argument array that is no array of the pipeline ends as launched. -/
theorem W_arg (dats : (p : Fin 1) → (c : Dev nD) → Dat τ (Elt F) Unit ℕ (UR sig nD τ) ℕ (cfgs p) c) (c : Dev nD)
    (r : Ref sig .tc) (hr : r ∉ tailW) (hw : ∀ w, Pipeline.arrRef spec0 w ≠ r) (h0 : r ≠ main_v0) :
    Pipeline.afterTail₀ cfgs dats 0 (V0 m) tailOps c r = m ((c : Thread nD τ).loc r) :=
  (tail_of_kept m dats c r hr).trans ((Pipeline.withArrays_of_ne _ c (V0 m c) _ r hw).trans
    (StableHlo.after_of_forall_not_mem (b := Proc.devRef .tc r) _ _ (head_keep r h0)))

/-- `x` enters the region as launched. -/
theorem V_main_arg0 (c : Dev nD) : V m c main_arg0 = m ((c : Thread nD τ).loc main_arg0) :=
  StableHlo.after_of_forall_not_mem (b := Proc.devRef .tc main_arg0) _ _ (head_keep main_arg0 (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The `x` window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds the whole matrix at every point (fetched at the first, its index never moves). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev r0_0 : Rect S400x5000 := Rect.unit (s := S400x5000) ![0, 0] S400x5000.size inb_S400x5000_S400x5000_0_0
abbrev r0_1 : Rect S5000x128 := Rect.unit (s := S5000x128) ![0, 0] S5000x128.size inb_S5000x128_S5000x128_0_0
abbrev r0_2 : Rect S400x128 := Rect.unit (s := S400x128) ![0, 0] S400x128.size inb_S400x128_S400x128_0_0

/-- The output window's staging buffer after the body: the product of the two input blocks, stored whole. -/
def out0_2 (x0 : Vec F S400x5000 .f32) (x1 : Vec F S5000x128 .f32) : Vec F S400x128 .f32 :=
  View.canon [⟨r0_2, k0_pay1 (View.ld x0 r0_0) (View.ld x1 r0_1)⟩]

/-- The one store covers the buffer. -/
theorem cover0_2 (p0 : Vec F S400x128 .f32) (y : S400x128.Idx) :
    ∃ pc ∈ ([⟨r0_2, p0⟩] : List (View.Piece (Elt F) S400x128 .f32)), y ∈ pc.1.set :=
  View.cover_of_tiled [⟨r0_2, p0⟩] S400x128.size (by rfl) y

set_option maxHeartbeats 1000000 in
/-- The body on whole staging memrefs, the inputs' at contents `x0`, `x1` and the output's at anything, ends with the
    inputs' as they were and the output's at `out0_2 x0 x1`. -/
theorem sound_kernel (c : Dev nD) (E : Set ℕ) (i : grid0.Coords) (arg1 : Memref sig .tc .vmem S400x5000 .f32) (harg1 : arg1.IsWhole) (arg2 : Memref sig .tc .vmem S5000x128 .f32) (harg2 : arg2.IsWhole) (arg3 : Memref sig .tc .vmem S400x128 .f32) (harg3 : arg3.IsWhole)
    (x0 : Vec F S400x5000 .f32) (x1 : Vec F S5000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- On core `c`: the arrays as the region finds them; after the body at point `t` each input's buffer at its block and the
    output's at the product of the two; the invariant untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the points wrote back and
    every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- What the run says of an unscoped buffer that is no array of the pipeline. -/
theorem rest_of_run {r : PUnit × MemSt nD τ sig (Elt F)}
    (h : Pipeline.FramePost cfgs (dats m) 0 (Pipeline.afterTail₀ cfgs (dats m) 0 (V0 m) tailOps) r) (c : Dev nD)
    (b : Ref sig .tc) (hs : b.isScoped = false) (ha : ∀ w, (spec0 w).arr.view.ref ≠ b) :
    r.2.mem ((c.tc : Thread nD τ).loc b) = Pipeline.afterTail₀ cfgs (dats m) 0 (V0 m) tailOps c b :=
  (h c).2 b (Pipeline.mem_restRefs_of b hs ha)

/-- `x`, the one argument the pipeline stages, ends as launched: an input's array is never written back. -/
theorem x_of_run {r : PUnit × MemSt nD τ sig (Elt F)}
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0) :=
  (((h c).1 0).trans ((dats m 0 c).arrAt_in 0 rfl _)).trans ((A_eq m c 0).trans (V_main_arg0 m c))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨x_of_run m h c,
      (rest_of_run m h c main_arg1 (by decide) (by decide)).trans (W_arg m (dats m) c main_arg1 (by decide) (by decide) (by decide)),
      (rest_of_run m h c main_arg2 (by decide) (by decide)).trans (W_arg m (dats m) c main_arg2 (by decide) (by decide) (by decide)),
      (rest_of_run m h c main_arg3 (by decide) (by decide)).trans (W_arg m (dats m) c main_arg3 (by decide) (by decide) (by decide)),
      (rest_of_run m h c main_arg4 (by decide) (by decide)).trans (W_arg m (dats m) c main_arg4 (by decide) (by decide) (by decide)),
      (rest_of_run m h c main_arg5 (by decide) (by decide)).trans (W_arg m (dats m) c main_arg5 (by decide) (by decide) (by decide)),
      (rest_of_run m h c main_arg6 (by decide) (by decide)).trans (W_arg m (dats m) c main_arg6 (by decide) (by decide) (by decide)),
      (rest_of_run m h c main_arg7 (by decide) (by decide)).trans (W_arg m (dats m) c main_arg7 (by decide) (by decide) (by decide)),
      (rest_of_run m h c main_arg8 (by decide) (by decide)).trans (W_arg m (dats m) c main_arg8 (by decide) (by decide) (by decide)),
      (rest_of_run m h c main_arg9 (by decide) (by decide)).trans (W_arg m (dats m) c main_arg9 (by decide) (by decide) (by decide)),
      (rest_of_run m h c main_arg10 (by decide) (by decide)).trans (W_arg m (dats m) c main_arg10 (by decide) (by decide) (by decide)),
      (rest_of_run m h c main_arg11 (by decide) (by decide)).trans (W_arg m (dats m) c main_arg11 (by decide) (by decide) (by decide)),
      (rest_of_run m h c main_arg12 (by decide) (by decide)).trans (W_arg m (dats m) c main_arg12 (by decide) (by decide) (by decide)),
      (rest_of_run m h c main_arg13 (by decide) (by decide)).trans (W_arg m (dats m) c main_arg13 (by decide) (by decide) (by decide)),
      (rest_of_run m h c main_arg14 (by decide) (by decide)).trans (W_arg m (dats m) c main_arg14 (by decide) (by decide) (by decide))⟩) (run_main m ρ)

end Cert.Kernel.Fr

end
-- ==== Proof.SpecSharedK.lean ====
import proofs.«422748_j23210003267823_1_alg».proof.Proof.Gen.KernelIdeal

/-! The operations both programs apply unchanged, as functions of their operands: signed index normalisation, the
    self-looped edge lists, the symmetric degree normalisation, one normalised aggregation with its bias, the per-graph
    mean pool, and the classifier head with its log-softmax. -/

noncomputable section

namespace Cert.KernelIdeal.Spec

open Idealize.ShloMosaic Cert.KernelIdeal Cert.KernelIdeal.Facts₀ Cert.KernelIdeal.Facts

variable {F : FTy → Type} [FloatOps F]

/-- A negative index counts from the end: `idx < 0 ? idx + 20000 : idx`, on the 340000 edge endpoints. -/
def normE (idx : IVec S340000 32) : IVec S340000 32 :=
  select (cmpi .slt idx (broadcastInDim S340000 ![] bcast_S_S340000 (constantI S_ 32 0#32))) (addi idx (broadcastInDim S340000 ![] bcast_S_S340000 (constantI S_ 32 20000#32))) idx

/-- The same on the 128 root indices (into the 20000 nodes). -/
def normR (idx : IVec S128 32) : IVec S128 32 :=
  select (cmpi .slt idx (broadcastInDim S128 ![] bcast_S_S128 (constantI S_ 32 0#32))) (addi idx (broadcastInDim S128 ![] bcast_S_S128 (constantI S_ 32 20000#32))) idx

/-- The same on the 20000 graph ids (into the 128 graphs). -/
def normB (idx : IVec S20000 32) : IVec S20000 32 :=
  select (cmpi .slt idx (broadcastInDim S20000 ![] bcast_S_S20000 (constantI S_ 32 0#32))) (addi idx (broadcastInDim S20000 ![] bcast_S_S20000 (constantI S_ 32 128#32))) idx

/-- Row 0 of the edge list (the sources) followed by one self loop per node. -/
def srcOf (e : IVec S2x320000 32) : IVec S340000 32 :=
  concatenate S340000 0 [⟨S320000, (shapeCast _ (extractStridedSlice S1x320000 ![0, 0] e slices_S2x320000_S1x320000_0_0) shapeCasts_S1x320000_S320000)⟩, ⟨S20000, (iotaInDim S20000 32 0)⟩] concatenates_S320000_S20000_S340000_d0

/-- Row 1 of the edge list (the targets) followed by one self loop per node. -/
def dstOf (e : IVec S2x320000 32) : IVec S340000 32 :=
  concatenate S340000 0 [⟨S320000, (shapeCast _ (extractStridedSlice S1x320000 ![1, 0] e slices_S2x320000_S1x320000_1_0) shapeCasts_S1x320000_S320000)⟩, ⟨S20000, (iotaInDim S20000 32 0)⟩] concatenates_S320000_S20000_S340000_d0

/-- The in-degree of every node: ones summed into the targets. -/
def degOf (dst : IVec S340000 32) : FVec F S20000 .f32 :=
  Host.scatterAdd scatter_S20000_S340000x1_S340000_n_0_0_1 (broadcastInDim S20000 ![] bcast_S_S20000 (constant S_ .f32 0x00000000#32)) (broadcastInDim S340000x1 ![0] bcast_S340000_S340000x1_0 dst) (broadcastInDim S340000 ![] bcast_S_S340000 (constant S_ .f32 0x3F800000#32))

/-- `deg > 0 ? deg^(-1/2) : 0`. -/
def dinvOf (deg : FVec F S20000 .f32) : FVec F S20000 .f32 :=
  select (cmpf .ogt deg (broadcastInDim S20000 ![] bcast_S_S20000 (constant S_ .f32 0x00000000#32))) (Host.rsqrt deg) (broadcastInDim S20000 ![] bcast_S_S20000 (id (constant S_ .f32 0x00000000#32)))

/-- The weight of every edge: `dinv[src] · dinv[dst]`. -/
def edgeW (dinv : FVec F S20000 .f32) (src dst : IVec S340000 32) : FVec F S340000 .f32 :=
  mulf (Host.gather gather_S20000_S340000x1_S340000_n_0_n_n_0_1_1 dinv (broadcastInDim S340000x1 ![0] bcast_S340000_S340000x1_0 (normE src))) (Host.gather gather_S20000_S340000x1_S340000_n_0_n_n_0_1_1 dinv (broadcastInDim S340000x1 ![0] bcast_S340000_S340000x1_0 (normE dst)))

/-- The weighted rows `h[src] · w` summed into their targets. -/
def scatterMsg (h : FVec F S20000x64 .f32) (w : FVec F S340000 .f32) (src dst : IVec S340000 32) : FVec F S20000x64 .f32 :=
  Host.scatterAdd scatter_S20000x64_S340000x1_S340000x64_1_0_0_1 (broadcastInDim S20000x64 ![] bcast_S_S20000x64 (constant S_ .f32 0x00000000#32)) (broadcastInDim S340000x1 ![0] bcast_S340000_S340000x1_0 dst) (mulf (Host.gather gather_S20000x64_S340000x1_S340000x64_1_0_n_n_0_1_164 h (broadcastInDim S340000x1 ![0] bcast_S340000_S340000x1_0 (normE src))) (broadcastInDim S340000x64 ![0, 1] bcast_S340000x1_S340000x64_0_1 (broadcastInDim S340000x1 ![0] bcast_S340000_S340000x1_0 w)))

/-- One normalised aggregation of the projected features `h` over the self-looped edges `e`, plus the bias row. -/
def gcn (h : FVec F S20000x64 .f32) (e : IVec S2x320000 32) (b : FVec F S64 .f32) : FVec F S20000x64 .f32 :=
  addf (scatterMsg h (edgeW (dinvOf (degOf (dstOf e))) (srcOf e) (dstOf e)) (srcOf e) (dstOf e)) (broadcastInDim S20000x64 ![0, 1] bcast_S1x64_S20000x64_0_1 (broadcastInDim S1x64 ![1] bcast_S64_S1x64_1 b))

/-- `max(x, 0)` on node features. -/
def relu64 (x : FVec F S20000x64 .f32) : FVec F S20000x64 .f32 :=
  maximumf x (broadcastInDim S20000x64 ![] bcast_S_S20000x64 (constant S_ .f32 0x00000000#32))

/-- The number of nodes of every graph, at least one. -/
def cntOf (batch : IVec S20000 32) : FVec F S128x1 .f32 :=
  maximumf (Host.scatterAdd scatter_S128x1_S20000x1_S20000x1_1_0_0_1 (broadcastInDim S128x1 ![] bcast_S_S128x1 (constant S_ .f32 0x00000000#32)) (broadcastInDim S20000x1 ![0] bcast_S20000_S20000x1_0 batch) (broadcastInDim S20000x1 ![] bcast_S_S20000x1 (constant S_ .f32 0x3F800000#32))) (broadcastInDim S128x1 ![] bcast_S_S128x1 (constant S_ .f32 0x3F800000#32))

/-- The per-graph mean of the node rows `[h2 | root2]`. -/
def pool (h2 root2 : FVec F S20000x64 .f32) (batch : IVec S20000 32) (cnt : FVec F S128x1 .f32) : FVec F S128x128 .f32 :=
  Host.divf (Host.scatterAdd scatter_S128x128_S20000x1_S20000x128_1_0_0_1 (broadcastInDim S128x128 ![] bcast_S_S128x128 (constant S_ .f32 0x00000000#32)) (broadcastInDim S20000x1 ![0] bcast_S20000_S20000x1_0 batch) (concatenate S20000x128 1 [⟨S20000x64, h2⟩, ⟨S20000x64, root2⟩] concatenates_S20000x64_S20000x64_S20000x128_d1)) (broadcastInDim S128x128 ![0, 1] bcast_S128x1_S128x128_0_1 cnt)

/-- The classifier's logits of the two branches' pooled rows. -/
def logits (td bu : FVec F S128x128 .f32) (fcW : FVec F S256x2 .f32) (fcb : FVec F S2 .f32) : FVec F S128x2 .f32 :=
  addf (Host.dotGeneral dot_S128x256_S256x2_S128x2_1_0_0_1_n_n none (concatenate S128x256 1 [⟨S128x128, td⟩, ⟨S128x128, bu⟩] concatenates_S128x128_S128x128_S128x256_d1) fcW) (broadcastInDim S128x2 ![0, 1] bcast_S1x2_S128x2_0_1 (broadcastInDim S1x2 ![1] bcast_S2_S1x2_1 fcb))

/-- `z − max z`, row by row. -/
def shifted (z : FVec F S128x2 .f32) : FVec F S128x2 .f32 :=
  subf z (broadcastInDim S128x2 ![0, 1] bcast_S128x1_S128x2_0_1 (broadcastInDim S128x1 ![0] bcast_S128_S128x1_0 (maximumf (broadcastInDim S128 ![] bcast_S_S128 (constant S_ .f32 0xFF800000#32)) (Host.reduce FloatOps.maximumf z (constant S_ .f32 0xFF800000#32) reducesTo_S128x2_S128_d1 h_S_))))

/-- The log-softmax of every row. -/
def logSoftmax (z : FVec F S128x2 .f32) : FVec F S128x2 .f32 :=
  subf (shifted z) (broadcastInDim S128x2 ![0, 1] bcast_S128x1_S128x2_0_1 (Host.log (broadcastInDim S128x1 ![0] bcast_S128_S128x1_0 (Host.reduceAdd (Host.exp (shifted z)) (constant S_ .f32 0x00000000#32) reducesTo_S128x2_S128_d1 h_S_))))

end Cert.KernelIdeal.Spec

end
-- ==== Proof.SpecK.lean ====
import proofs.«422748_j23210003267823_1_alg».proof.Proof.SpecSharedK

/-! What the kernel's host program computes from the matrix product the launched region leaves in its output array: the
    128 root rows of `x` are gathered and rectified once; in each branch the second layer's projection is the product of
    the rectified first-layer features with the first 64 rows of `W2` PLUS the per-graph product of the rectified root rows
    with the remaining 5000 rows of `W2`, gathered back onto the nodes by their graph id; the root features of the first
    layer are gathered per graph first and per node after. -/

noncomputable section

namespace Cert.KernelIdeal.Spec

open Idealize.ShloMosaic Cert.KernelIdeal Cert.KernelIdeal.Facts₀ Cert.KernelIdeal.Facts

variable {F : FTy → Type} [FloatOps F]

/-- `max(x[root], 0)`: the rectified root rows, one per graph. -/
def rootRelu (x : FVec F S20000x5000 .f32) (root : IVec S128 32) : FVec F S128x5000 .f32 :=
  maximumf (Host.gather gather_S20000x5000_S128x1_S128x5000_1_0_n_n_0_1_15000 x (broadcastInDim S128x1 ![0] bcast_S128_S128x1_0 (normR root))) (broadcastInDim S128x5000 ![] bcast_S_S128x5000 (constant S_ .f32 0x00000000#32))

/-- The second layer's projected features: `relu(x2) · W2[:64] + (rr · W2[64:])[batch]`. -/
def h2pre (x2 : FVec F S20000x64 .f32) (rr : FVec F S128x5000 .f32) (W2 : FVec F S5064x64 .f32) (batch : IVec S20000 32) : FVec F S20000x64 .f32 :=
  addf (Host.dotGeneral dot_S20000x64_S64x64_S20000x64_1_0_0_1_n_n none (relu64 x2) (extractStridedSlice S64x64 ![0, 0] W2 slices_S5064x64_S64x64_0_0)) (Host.gather gather_S128x64_S20000x1_S20000x64_1_0_n_n_0_1_164 (Host.dotGeneral dot_S128x5000_S5000x64_S128x64_1_0_0_1_n_n none rr (extractStridedSlice S5000x64 ![64, 0] W2 slices_S5064x64_S5000x64_64_0)) (broadcastInDim S20000x1 ![0] bcast_S20000_S20000x1_0 (normB batch)))

/-- Every node's root features of the first layer: `x2[root][batch]`. -/
def root2 (x2 : FVec F S20000x64 .f32) (root : IVec S128 32) (batch : IVec S20000 32) : FVec F S20000x64 .f32 :=
  Host.gather gather_S128x64_S20000x1_S20000x64_1_0_n_n_0_1_164 (Host.gather gather_S20000x64_S128x1_S128x64_1_0_n_n_0_1_164 x2 (broadcastInDim S128x1 ![0] bcast_S128_S128x1_0 (normR root))) (broadcastInDim S20000x1 ![0] bcast_S20000_S20000x1_0 (normB batch))

/-- One branch, from the first layer's projection `h1 = x · W1`. -/
def branch (h1 : FVec F S20000x64 .f32) (e : IVec S2x320000 32) (batch : IVec S20000 32) (root : IVec S128 32) (rr : FVec F S128x5000 .f32)
    (b1 : FVec F S64 .f32) (W2 : FVec F S5064x64 .f32) (b2 : FVec F S64 .f32) (cnt : FVec F S128x1 .f32) : FVec F S128x128 .f32 :=
  pool (relu64 (gcn (h2pre (gcn h1 e b1) rr W2 batch) e b2)) (root2 (gcn h1 e b1) root batch) batch cnt

/-- The whole result from the region's output array `o = x · [W1_td | W1_bu]` and the argument arrays. -/
def result (o : FVec F S20000x128 .f32) (x : FVec F S20000x5000 .f32) (e bu : IVec S2x320000 32) (batch : IVec S20000 32) (root : IVec S128 32)
    (b1td : FVec F S64 .f32) (W2td : FVec F S5064x64 .f32) (b2td : FVec F S64 .f32)
    (b1bu : FVec F S64 .f32) (W2bu : FVec F S5064x64 .f32) (b2bu : FVec F S64 .f32) (fcW : FVec F S256x2 .f32) (fcb : FVec F S2 .f32) : FVec F S128x2 .f32 :=
  logSoftmax (logits (branch (extractStridedSlice S20000x64 ![0, 0] o slices_S20000x128_S20000x64_0_0) e batch root (rootRelu x root) b1td W2td b2td (cntOf batch)) (branch (extractStridedSlice S20000x64 ![0, 64] o slices_S20000x128_S20000x64_0_64) bu batch root (rootRelu x root) b1bu W2bu b2bu (cntOf batch)) fcW fcb)

end Cert.KernelIdeal.Spec

end
-- ==== Proof.KTail.lean ====
import proofs.«422748_j23210003267823_1_alg».proof.Proof.Gen.KernelIdeal.Launch
import proofs.«422748_j23210003267823_1_alg».proof.Proof.SpecK
import Idealize.ShloMosaic.Lib.StableHlo.Run
import Idealize.ShloMosaic.Lib.Pipeline.Frame

/-! The 369 host lines after the region, read back: from ANY contents `X` of the buffers at the region's exit, the last line's
    result buffer ends at `Spec.result` of the region's output array and the argument arrays as `X` has them. Each line
    writes its function's value of its operands' contents into its own result buffer; composing them in order gives the
    nested term, which is `Spec.result` with its blocks opened. -/

set_option maxRecDepth 16384

noncomputable section

namespace Cert.KernelIdeal.Tail

open Idealize.ShloMosaic Idealize.ShloMosaic.TcCoe Idealize.ShloMosaic.StableHlo
open Idealize.SL.Sem
open Cert.KernelIdeal Cert.KernelIdeal.Facts₀ Cert.KernelIdeal.Facts
open Cert.KernelIdeal.Gen (hostOps1 hostOps1_1 hostOps1_2 hostOps1_3 hostOps1_4 hostOps1_5 hostOps1_6 hostOps1_7 hostOps1_8 hostOps1_9 hostOps1_10 hostOps1_11 hostOps1_12 hostOps1_13 hostOps1_14 hostOps1_15 hostOps1_16 hostOps1_17 hostOps1_18 hostOps1_19)

variable {F : FTy → Type} [FloatOps F]

/-- The stretches of host lines after the region, in order. -/
abbrev tailOps : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19]

/-- Two vectors side by side along an axis, as an ordinary function of the two. -/
def cat2 {α : Type} (t : Shape) (a : Fin t.rank) (s₁ s₂ : Shape) (h : Shape.Concatenates [s₁, s₂] t a)
    (x : s₁.Idx → α) (y : s₂.Idx → α) : t.Idx → α := concatenate t a [⟨s₁, x⟩, ⟨s₂, y⟩] h

theorem cat2_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-! The blocks that put two vectors side by side, stated over `cat2`. -/

theorem fold_srcOf (e : IVec S2x320000 32) :
    cat2 S340000 0 S320000 S20000 concatenates_S320000_S20000_S340000_d0
      (fun i => shapeCast S320000 (extractStridedSlice S1x320000 ![0, 0] e slices_S2x320000_S1x320000_0_0) shapeCasts_S1x320000_S320000 i) (iotaInDim S20000 32 0)
      = Spec.srcOf e := rfl

theorem fold_dstOf (e : IVec S2x320000 32) :
    cat2 S340000 0 S320000 S20000 concatenates_S320000_S20000_S340000_d0
      (fun i => shapeCast S320000 (extractStridedSlice S1x320000 ![1, 0] e slices_S2x320000_S1x320000_1_0) shapeCasts_S1x320000_S320000 i) (iotaInDim S20000 32 0)
      = Spec.dstOf e := rfl

theorem fold_pool (h2 root2 : FVec F S20000x64 .f32) (batch : IVec S20000 32) (cnt : FVec F S128x1 .f32) :
    Host.divf (Host.scatterAdd scatter_S128x128_S20000x1_S20000x128_1_0_0_1 (broadcastInDim S128x128 ![] bcast_S_S128x128 (constant S_ .f32 0x00000000#32)) (broadcastInDim S20000x1 ![0] bcast_S20000_S20000x1_0 batch)
        (cat2 S20000x128 1 S20000x64 S20000x64 concatenates_S20000x64_S20000x64_S20000x128_d1 h2 root2)) (broadcastInDim S128x128 ![0, 1] bcast_S128x1_S128x128_0_1 cnt)
      = Spec.pool h2 root2 batch cnt := rfl

theorem fold_logits (td bu : FVec F S128x128 .f32) (fcW : FVec F S256x2 .f32) (fcb : FVec F S2 .f32) :
    addf (Host.dotGeneral dot_S128x256_S256x2_S128x2_1_0_0_1_n_n none (cat2 S128x256 1 S128x128 S128x128 concatenates_S128x128_S128x128_S128x256_d1 td bu) fcW)
        (broadcastInDim S128x2 ![0, 1] bcast_S1x2_S128x2_0_1 (broadcastInDim S1x2 ![1] bcast_S2_S1x2_1 fcb))
      = Spec.logits td bu fcW fcb := rfl

set_option maxHeartbeats 20000000 in
theorem result_eq (X : Valuation τ sig (Elt F)) :
    StableHlo.after (tailOps (F := F)).flatten X (Proc.devRef .tc main_v275)
      = Spec.result (F := F) (X (Proc.devRef .tc main_v1)) (X (Proc.devRef .tc main_arg0)) (X (Proc.devRef .tc main_arg1)) (X (Proc.devRef .tc main_arg2)) (X (Proc.devRef .tc main_arg3)) (X (Proc.devRef .tc main_arg4))
          (X (Proc.devRef .tc main_arg6)) (X (Proc.devRef .tc main_arg7)) (X (Proc.devRef .tc main_arg8)) (X (Proc.devRef .tc main_arg10)) (X (Proc.devRef .tc main_arg11)) (X (Proc.devRef .tc main_arg12)) (X (Proc.devRef .tc main_arg13)) (X (Proc.devRef .tc main_arg14)) := by
  obtain ⟨o, h_o⟩ : ∃ o : FVec F S20000x128 .f32, o = X (Proc.devRef .tc main_v1) := ⟨_, rfl⟩
  obtain ⟨x, h_x⟩ : ∃ x : FVec F S20000x5000 .f32, x = X (Proc.devRef .tc main_arg0) := ⟨_, rfl⟩
  obtain ⟨e, h_e⟩ : ∃ e : IVec S2x320000 32, e = X (Proc.devRef .tc main_arg1) := ⟨_, rfl⟩
  obtain ⟨bu, h_bu⟩ : ∃ bu : IVec S2x320000 32, bu = X (Proc.devRef .tc main_arg2) := ⟨_, rfl⟩
  obtain ⟨batch, h_batch⟩ : ∃ batch : IVec S20000 32, batch = X (Proc.devRef .tc main_arg3) := ⟨_, rfl⟩
  obtain ⟨root, h_root⟩ : ∃ root : IVec S128 32, root = X (Proc.devRef .tc main_arg4) := ⟨_, rfl⟩
  obtain ⟨b1td, h_b1td⟩ : ∃ b1td : FVec F S64 .f32, b1td = X (Proc.devRef .tc main_arg6) := ⟨_, rfl⟩
  obtain ⟨W2td, h_W2td⟩ : ∃ W2td : FVec F S5064x64 .f32, W2td = X (Proc.devRef .tc main_arg7) := ⟨_, rfl⟩
  obtain ⟨b2td, h_b2td⟩ : ∃ b2td : FVec F S64 .f32, b2td = X (Proc.devRef .tc main_arg8) := ⟨_, rfl⟩
  obtain ⟨b1bu, h_b1bu⟩ : ∃ b1bu : FVec F S64 .f32, b1bu = X (Proc.devRef .tc main_arg10) := ⟨_, rfl⟩
  obtain ⟨W2bu, h_W2bu⟩ : ∃ W2bu : FVec F S5064x64 .f32, W2bu = X (Proc.devRef .tc main_arg11) := ⟨_, rfl⟩
  obtain ⟨b2bu, h_b2bu⟩ : ∃ b2bu : FVec F S64 .f32, b2bu = X (Proc.devRef .tc main_arg12) := ⟨_, rfl⟩
  obtain ⟨fcW, h_fcW⟩ : ∃ fcW : FVec F S256x2 .f32, fcW = X (Proc.devRef .tc main_arg13) := ⟨_, rfl⟩
  obtain ⟨fcb, h_fcb⟩ : ∃ fcb : FVec F S2 .f32, fcb = X (Proc.devRef .tc main_arg14) := ⟨_, rfl⟩
  simp only [tailOps, List.flatten_cons, List.flatten_nil, List.append_nil, StableHlo.after_append]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne',
    ← h_o, ← h_x, ← h_e, ← h_bu, ← h_batch, ← h_root, ← h_b1td, ← h_W2td, ← h_b2td, ← h_b1bu, ← h_W2bu, ← h_b2bu, ← h_fcW, ← h_fcb,
    ↓cat2_eq, TRef.ofBuf, TRef.toBuf, cast_eq]
  repeat rw [← Spec.normE.eq_1]
  repeat rw [← Spec.normR.eq_1]
  repeat rw [← Spec.normB.eq_1]
  repeat erw [fold_srcOf]
  repeat erw [fold_dstOf]
  repeat rw [← Spec.degOf.eq_1]
  repeat rw [← Spec.dinvOf.eq_1]
  repeat rw [← Spec.edgeW.eq_1]
  repeat rw [← Spec.scatterMsg.eq_1]
  repeat rw [← Spec.gcn.eq_1]
  repeat rw [← Spec.relu64.eq_1]
  repeat rw [← Spec.cntOf.eq_1]
  repeat rw [← Spec.rootRelu.eq_1]
  repeat rw [← Spec.h2pre.eq_1]
  repeat rw [← Spec.root2.eq_1]
  repeat rw [fold_pool]
  repeat rw [← Spec.branch.eq_1]
  rw [fold_logits, ← Spec.shifted.eq_1, ← Spec.logSoftmax.eq_1, ← Spec.result.eq_1]

end Cert.KernelIdeal.Tail

end
-- ==== Proof.KMatmul.lean ====
import proofs.«422748_j23210003267823_1_alg».proof.Proof.KFrame
import Idealize.ShloMosaic.Lib.Pipeline.Value
import Idealize.ShloMosaic.Lib.ValueIdx
import Idealize.ShloMosaic.PureOps.Ideal.Laws

/-! The region's output array after the run, index by index over the extended reals: entry (i, j) is the sum over k of
    x[i, k] · W[k, j], W the two first-layer weight matrices side by side. Point t writes rows 400·t … 400·t + 399 (the product
    of its block of x with the whole W), and the 50 blocks tile the array. -/

set_option maxRecDepth 16384

noncomputable section

namespace Cert.KernelIdeal.Fr

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Facts₀ Cert.KernelIdeal.Facts

variable (m : (ℓ : Loc nD τ sig) → Buf (Elt Ideal) ℓ)

/-- The region's output array after the run. -/
abbrev outArr (c : Dev nD) : FVec Ideal S20000x128 .f32 := (dats (F := Ideal) m 0 c).arrAt 2 cfg0.N
/-- `x` as launched. -/
abbrev xArr (c : Dev nD) : FVec Ideal S20000x5000 .f32 := m ((c : Thread nD τ).loc main_arg0)
/-- The two first-layer weight matrices as launched. -/
abbrev w1td (c : Dev nD) : FVec Ideal S5000x64 .f32 := m ((c : Thread nD τ).loc main_arg5)
abbrev w1bu (c : Dev nD) : FVec Ideal S5000x64 .f32 := m ((c : Thread nD τ).loc main_arg9)
/-- The two side by side: what the host line before the region writes. -/
abbrev wcat (c : Dev nD) : FVec Ideal S5000x128 .f32 :=
  concatenate S5000x128 1 [⟨S5000x64, w1td m c⟩, ⟨S5000x64, w1bu m c⟩] Facts₀.concatenates_S5000x64_S5000x64_S5000x128_d1

/-! ## The product's operand indices -/

/-- The left operand is read on its row axis at the output's row. -/
theorem lhs_row (i : S400x128.Idx) (q : dot_S400x5000_S5000x128_S400x128_1_0_0_1_n_n.contr.Idx) :
    (dot_S400x5000_S5000x128_S400x128_1_0_0_1_n_n.lhsIdx i q 0).val = (i 0).val := by
  unfold DotDims.lhsIdx
  rw [dif_neg (show ¬(0 : Fin S400x5000.rank) ∈ dot_S400x5000_S5000x128_S400x128_1_0_0_1_n_n.lhsBatch by decide),
    dif_pos (show (0 : Fin S400x5000.rank) ∈ dot_S400x5000_S5000x128_S400x128_1_0_0_1_n_n.lhsNonContracting by decide)]
  rfl
/-- … and on its column axis at the contracted position. -/
theorem lhs_col (i : S400x128.Idx) (q : dot_S400x5000_S5000x128_S400x128_1_0_0_1_n_n.contr.Idx) :
    (dot_S400x5000_S5000x128_S400x128_1_0_0_1_n_n.lhsIdx i q 1).val = (q ⟨0, by decide⟩).val :=
  dot_S400x5000_S5000x128_S400x128_1_0_0_1_n_n.lhsIdx_val_of_single rfl i q
/-- The right operand is read on its row axis at the contracted position … -/
theorem rhs_row (i : S400x128.Idx) (q : dot_S400x5000_S5000x128_S400x128_1_0_0_1_n_n.contr.Idx) :
    (dot_S400x5000_S5000x128_S400x128_1_0_0_1_n_n.rhsIdx i q 0).val = (q ⟨0, by decide⟩).val :=
  dot_S400x5000_S5000x128_S400x128_1_0_0_1_n_n.rhsIdx_val_of_single rfl i q
/-- … and on its column axis at the output's column. -/
theorem rhs_col (i : S400x128.Idx) (q : dot_S400x5000_S5000x128_S400x128_1_0_0_1_n_n.contr.Idx) :
    (dot_S400x5000_S5000x128_S400x128_1_0_0_1_n_n.rhsIdx i q 1).val = (i 1).val := by
  unfold DotDims.rhsIdx
  rw [dif_neg (show ¬(1 : Fin S5000x128.rank) ∈ dot_S400x5000_S5000x128_S400x128_1_0_0_1_n_n.rhsBatch by decide),
    dif_pos (show (1 : Fin S5000x128.rank) ∈ dot_S400x5000_S5000x128_S400x128_1_0_0_1_n_n.rhsNonContracting by decide)]
  rfl

/-! ## The body's product at an index -/

/-- Entry (p, q) of what the body stores: the row p of the block of x against column q of the weights. The changes of
    float format are the identity on extended reals, the cast is to the matrix's own shape, and the accumulator is zero. -/
theorem pay_apply (x0 : Vec Ideal S400x5000 .f32) (x1 : Vec Ideal S5000x128 .f32) (p : Fin 400) (q : Fin 128) :
    k0_pay1 x0 x1 (ix2 p q) = ∑ k : Fin 5000, x0 (ix2 p k) * x1 (ix2 k q) := by
  unfold k0_pay1
  refine (Ideal.matmul_constant_zero_apply dot_S400x5000_S5000x128_S400x128_1_0_0_1_n_n none _ _ (ix2 p q)).trans ?_
  rw [← Equiv.sum_comp (contrEquiv1 dot_S400x5000_S5000x128_S400x128_1_0_0_1_n_n 5000 rfl rfl).symm]
  refine Finset.sum_congr rfl fun k _ => ?_
  have hk := contrEquiv1_symm_val dot_S400x5000_S5000x128_S400x128_1_0_0_1_n_n 5000 rfl rfl k
  have el : dot_S400x5000_S5000x128_S400x128_1_0_0_1_n_n.lhsIdx (ix2 p q)
      ((contrEquiv1 dot_S400x5000_S5000x128_S400x128_1_0_0_1_n_n 5000 rfl rfl).symm k) = ix2 p k :=
    funext fun a => Fin.ext (by
      match a with
      | ⟨0, _⟩ => exact lhs_row _ _
      | ⟨1, _⟩ => exact (lhs_col _ _).trans hk)
  have er : dot_S400x5000_S5000x128_S400x128_1_0_0_1_n_n.rhsIdx (ix2 p q)
      ((contrEquiv1 dot_S400x5000_S5000x128_S400x128_1_0_0_1_n_n 5000 rfl rfl).symm k) = ix2 k q :=
    funext fun a => Fin.ext (by
      match a with
      | ⟨0, _⟩ => exact (rhs_row _ _).trans hk
      | ⟨1, _⟩ => exact rhs_col _ _)
  rw [el, er]
  show x0 (ix2 p k) * shapeCast S5000x128 x1 _ (ix2 k q) = _
  rw [shapeCast_self]

/-! ## One point's block -/

theorem zero_offsets : (![0, 0] : Fin 2 → Nat) = fun _ => 0 := funext fun a => by fin_cases a <;> rfl

/-- What the body leaves in the output's buffer, entry by entry: it loads both inputs whole and stores the product whole. -/
theorem out_block_apply (x0 : Vec Ideal S400x5000 .f32) (x1 : Vec Ideal S5000x128 .f32) (p : Fin 400) (q : Fin 128) :
    out0_2 x0 x1 (ix2 p q) = ∑ k : Fin 5000, x0 (ix2 p k) * x1 (ix2 k q) := by
  unfold out0_2
  rw [View.canon_unit_zero zero_offsets]
  simp only [View.ld_unit_zero (S := S400x5000) zero_offsets, View.ld_unit_zero (S := S5000x128) zero_offsets]
  exact pay_apply x0 x1 p q

/-! ## The whole array -/

/-- The product of a 20000 × 5000 matrix with a 5000 × 128 one, entry by entry. -/
def matProd (x : FVec Ideal S20000x5000 .f32) (w : FVec Ideal S5000x128 .f32) : FVec Ideal S20000x128 .f32 :=
  fun y => ∑ k : Fin 5000, x (ix2 (y 0) k) * w (ix2 k (y 1))

theorem matProd_apply (x : FVec Ideal S20000x5000 .f32) (w : FVec Ideal S5000x128 .f32) (i : Fin 20000) (j : Fin 128) :
    matProd x w (ix2 i j) = ∑ k : Fin 5000, x (ix2 i k) * w (ix2 k j) := rfl

/-- The block indices, decided over the grid: at point t the blocks of x and of the output are the t-th along the rows,
    and every other block index is zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- `x` as the region finds it. -/
abbrev xIn (c : Dev nD) : FVec Ideal S20000x5000 .f32 := V m c main_arg0
/-- The weight matrix as the region finds it. -/
abbrev wIn (c : Dev nD) : FVec Ideal S5000x128 .f32 := V m c main_v0

/-- WHAT POINT t WRITES BACK is its block of the product of x with the weights, both as the region finds them: the block
    of x holds the rows 400·t … 400·t + 399 of x, the weights' block is the whole matrix, and the output's block sits at
    those same rows. -/
theorem flushed_eq (c : Dev nD) (t : Fin cfg0.N) :
    (dats m 0 c).flushed 2 t = ((cfg0.win 2).blk t).view.read (Elt Ideal) (matProd (xIn m c) (wIn m c)) := by
  show (cfg0.win 2).cut (grid0.coords t) ((dats m 0 c).after 2 t) = _
  rw [after0_2]
  obtain ⟨e00, e01, e10, e11, e20, e21⟩ := block_indices t
  funext y
  obtain ⟨p, q, rfl⟩ : ∃ (p : Fin 400) (q : Fin 128), y = ix2 p q := ⟨y 0, y 1, eq_ix2 y⟩
  show out0_2 (iblk m c 0 t) (iblk m c 1 t) (ix2 p q)
    = matProd (xIn m c) (wIn m c) (((cfg0.win 2).blk t).view.emb (ix2 p q))
  refine (out_block_apply (iblk m c 0 t) (iblk m c 1 t) p q).trans ?_
  unfold matProd
  refine Finset.sum_congr rfl fun k _ => ?_
  show xIn m c (((cfg0.win 0).blk t).view.emb (ix2 p k)) * wIn m c (((cfg0.win 1).blk t).view.emb (ix2 k q))
    = xIn m c (ix2 (((cfg0.win 2).blk t).view.emb (ix2 p q) 0) k)
      * wIn m c (ix2 k (((cfg0.win 2).blk t).view.emb (ix2 p q) 1))
  have h0 : ((cfg0.win 0).blk t).view.emb (ix2 p k) = ix2 (((cfg0.win 2).blk t).view.emb (ix2 p q) 0) k := by
    funext a; apply Fin.ext
    match a with
    | ⟨0, _⟩ => show win0_0.index t (0 : Fin 2) * 400 + 1 * p.val = win0_2.index t (0 : Fin 2) * 400 + 1 * p.val; omega
    | ⟨1, _⟩ => show win0_0.index t (1 : Fin 2) * 5000 + 1 * k.val = k.val; omega
  have h1 : ((cfg0.win 1).blk t).view.emb (ix2 k q) = ix2 k (((cfg0.win 2).blk t).view.emb (ix2 p q) 1) := by
    funext a; apply Fin.ext
    match a with
    | ⟨0, _⟩ => show win0_1.index t (0 : Fin 2) * 5000 + 1 * k.val = k.val; omega
    | ⟨1, _⟩ => show win0_1.index t (1 : Fin 2) * 128 + 1 * q.val = win0_2.index t (1 : Fin 2) * 128 + 1 * q.val; omega
  rw [h0, h1]
  rfl

/-! ## The blocks tile the array -/

/-- An entry of the array lies in point t's block iff each coordinate is in the block's range on its axis. -/
theorem mem_block (t : Fin cfg0.N) (i : S20000x128.Idx) :
    i ∈ ((cfg0.win 2).blk t).view.set ↔ ∀ a : Fin 2, win0_2.index t a * S400x128.size a ≤ (i a).val
      ∧ (i a).val < win0_2.index t a * S400x128.size a + S400x128.size a := by
  show i ∈ ((View.whole main_v1).slice (win0_2.rect t)).set ↔ _
  rw [View.set_slice_whole, Rect.mem_set_unit]
  exact Iff.rfl

/-- Every entry is written back by some point: row r by point r / 400. -/
theorem covered (i : S20000x128.Idx) :
    ∃ t : Fin cfg0.N, (cfg0.win 2).flush t = true ∧ i ∈ ((cfg0.win 2).blk t).view.set := by
  have hi0 : (i 0).val < 20000 := (i 0).isLt
  have hi1 : (i 1).val < 128 := (i 1).isLt
  have hN : cfg0.N = 50 := N_0
  obtain ⟨t, ht⟩ : ∃ t : Fin cfg0.N, t.val = (i 0).val / 400 := ⟨⟨(i 0).val / 400, by omega⟩, rfl⟩
  obtain ⟨-, -, -, -, e20, e21⟩ := block_indices t
  refine ⟨t, flush0_2 t, ?_⟩
  rw [mem_block]
  intro a
  match a with
  | ⟨0, _⟩ =>
    show win0_2.index t (0 : Fin 2) * 400 ≤ (i 0).val ∧ (i 0).val < win0_2.index t (0 : Fin 2) * 400 + 400
    omega
  | ⟨1, _⟩ =>
    show win0_2.index t (1 : Fin 2) * 128 ≤ (i 1).val ∧ (i 1).val < win0_2.index t (1 : Fin 2) * 128 + 128
    omega

/-- So the output array ends at the product of x with the weights, both as the region finds them. -/
theorem out_eq_matProd (c : Dev nD) : outArr m c = matProd (xIn m c) (wIn m c) :=
  (dats m 0 c).arrAt_eq_of_cover 2 (matProd (xIn m c) (wIn m c)) (fun t _ => flushed_eq m c t) covered

/-! ## The arrays the region finds -/

/-- `x` enters the region as launched. -/
theorem xIn_eq (c : Dev nD) : xIn m c = xArr m c := V_main_arg0 m c

/-- The weight matrix the region finds is what the host line before it writes: the two launched matrices side by side. -/
theorem wIn_eq (c : Dev nD) : wIn m c = wcat m c := by
  show StableHlo.after hostOps0 (fun b => m (c, b)) (Proc.devRef .tc main_v0) = _
  after_results

/-- The output array is the matrix product, entry by entry. -/
theorem out_apply (c : Dev nD) (i : Fin 20000) (j : Fin 128) :
    outArr m c (ix2 i j) = ∑ k : Fin 5000, xArr m c (ix2 i k) * wcat m c (ix2 k j) := by
  refine (congrFun (out_eq_matProd m c) (ix2 i j)).trans ?_
  rw [xIn_eq, wIn_eq]
  rfl

end Cert.KernelIdeal.Fr

end
-- ==== Proof.SpecSharedR.lean ====
import proofs.«422748_j23210003267823_1_alg».proof.Proof.Gen.ReferenceIdeal

/-! The operations both programs apply unchanged, as functions of their operands: signed index normalisation, the
    self-looped edge lists, the symmetric degree normalisation, one normalised aggregation with its bias, the per-graph
    mean pool, and the classifier head with its log-softmax. -/

noncomputable section

namespace Cert.ReferenceIdeal.Spec

open Idealize.ShloMosaic Cert.ReferenceIdeal Cert.ReferenceIdeal.Facts₀ Cert.ReferenceIdeal.Facts

variable {F : FTy → Type} [FloatOps F]

/-- A negative index counts from the end: `idx < 0 ? idx + 20000 : idx`, on the 340000 edge endpoints. -/
def normE (idx : IVec S340000 32) : IVec S340000 32 :=
  select (cmpi .slt idx (broadcastInDim S340000 ![] bcast_S_S340000 (constantI S_ 32 0#32))) (addi idx (broadcastInDim S340000 ![] bcast_S_S340000 (constantI S_ 32 20000#32))) idx

/-- The same on the 128 root indices (into the 20000 nodes). -/
def normR (idx : IVec S128 32) : IVec S128 32 :=
  select (cmpi .slt idx (broadcastInDim S128 ![] bcast_S_S128 (constantI S_ 32 0#32))) (addi idx (broadcastInDim S128 ![] bcast_S_S128 (constantI S_ 32 20000#32))) idx

/-- The same on the 20000 graph ids (into the 128 graphs). -/
def normB (idx : IVec S20000 32) : IVec S20000 32 :=
  select (cmpi .slt idx (broadcastInDim S20000 ![] bcast_S_S20000 (constantI S_ 32 0#32))) (addi idx (broadcastInDim S20000 ![] bcast_S_S20000 (constantI S_ 32 128#32))) idx

/-- Row 0 of the edge list (the sources) followed by one self loop per node. -/
def srcOf (e : IVec S2x320000 32) : IVec S340000 32 :=
  concatenate S340000 0 [⟨S320000, (shapeCast _ (extractStridedSlice S1x320000 ![0, 0] e slices_S2x320000_S1x320000_0_0) shapeCasts_S1x320000_S320000)⟩, ⟨S20000, (iotaInDim S20000 32 0)⟩] concatenates_S320000_S20000_S340000_d0

/-- Row 1 of the edge list (the targets) followed by one self loop per node. -/
def dstOf (e : IVec S2x320000 32) : IVec S340000 32 :=
  concatenate S340000 0 [⟨S320000, (shapeCast _ (extractStridedSlice S1x320000 ![1, 0] e slices_S2x320000_S1x320000_1_0) shapeCasts_S1x320000_S320000)⟩, ⟨S20000, (iotaInDim S20000 32 0)⟩] concatenates_S320000_S20000_S340000_d0

/-- The in-degree of every node: ones summed into the targets. -/
def degOf (dst : IVec S340000 32) : FVec F S20000 .f32 :=
  Host.scatterAdd scatter_S20000_S340000x1_S340000_n_0_0_1 (broadcastInDim S20000 ![] bcast_S_S20000 (constant S_ .f32 0x00000000#32)) (broadcastInDim S340000x1 ![0] bcast_S340000_S340000x1_0 dst) (broadcastInDim S340000 ![] bcast_S_S340000 (constant S_ .f32 0x3F800000#32))

/-- `deg > 0 ? deg^(-1/2) : 0`. -/
def dinvOf (deg : FVec F S20000 .f32) : FVec F S20000 .f32 :=
  select (cmpf .ogt deg (broadcastInDim S20000 ![] bcast_S_S20000 (constant S_ .f32 0x00000000#32))) (Host.rsqrt deg) (broadcastInDim S20000 ![] bcast_S_S20000 (id (constant S_ .f32 0x00000000#32)))

/-- The weight of every edge: `dinv[src] · dinv[dst]`. -/
def edgeW (dinv : FVec F S20000 .f32) (src dst : IVec S340000 32) : FVec F S340000 .f32 :=
  mulf (Host.gather gather_S20000_S340000x1_S340000_n_0_n_n_0_1_1 dinv (broadcastInDim S340000x1 ![0] bcast_S340000_S340000x1_0 (normE src))) (Host.gather gather_S20000_S340000x1_S340000_n_0_n_n_0_1_1 dinv (broadcastInDim S340000x1 ![0] bcast_S340000_S340000x1_0 (normE dst)))

/-- The weighted rows `h[src] · w` summed into their targets. -/
def scatterMsg (h : FVec F S20000x64 .f32) (w : FVec F S340000 .f32) (src dst : IVec S340000 32) : FVec F S20000x64 .f32 :=
  Host.scatterAdd scatter_S20000x64_S340000x1_S340000x64_1_0_0_1 (broadcastInDim S20000x64 ![] bcast_S_S20000x64 (constant S_ .f32 0x00000000#32)) (broadcastInDim S340000x1 ![0] bcast_S340000_S340000x1_0 dst) (mulf (Host.gather gather_S20000x64_S340000x1_S340000x64_1_0_n_n_0_1_164 h (broadcastInDim S340000x1 ![0] bcast_S340000_S340000x1_0 (normE src))) (broadcastInDim S340000x64 ![0, 1] bcast_S340000x1_S340000x64_0_1 (broadcastInDim S340000x1 ![0] bcast_S340000_S340000x1_0 w)))

/-- One normalised aggregation of the projected features `h` over the self-looped edges `e`, plus the bias row. -/
def gcn (h : FVec F S20000x64 .f32) (e : IVec S2x320000 32) (b : FVec F S64 .f32) : FVec F S20000x64 .f32 :=
  addf (scatterMsg h (edgeW (dinvOf (degOf (dstOf e))) (srcOf e) (dstOf e)) (srcOf e) (dstOf e)) (broadcastInDim S20000x64 ![0, 1] bcast_S1x64_S20000x64_0_1 (broadcastInDim S1x64 ![1] bcast_S64_S1x64_1 b))

/-- `max(x, 0)` on node features. -/
def relu64 (x : FVec F S20000x64 .f32) : FVec F S20000x64 .f32 :=
  maximumf x (broadcastInDim S20000x64 ![] bcast_S_S20000x64 (constant S_ .f32 0x00000000#32))

/-- The number of nodes of every graph, at least one. -/
def cntOf (batch : IVec S20000 32) : FVec F S128x1 .f32 :=
  maximumf (Host.scatterAdd scatter_S128x1_S20000x1_S20000x1_1_0_0_1 (broadcastInDim S128x1 ![] bcast_S_S128x1 (constant S_ .f32 0x00000000#32)) (broadcastInDim S20000x1 ![0] bcast_S20000_S20000x1_0 batch) (broadcastInDim S20000x1 ![] bcast_S_S20000x1 (constant S_ .f32 0x3F800000#32))) (broadcastInDim S128x1 ![] bcast_S_S128x1 (constant S_ .f32 0x3F800000#32))

/-- The per-graph mean of the node rows `[h2 | root2]`. -/
def pool (h2 root2 : FVec F S20000x64 .f32) (batch : IVec S20000 32) (cnt : FVec F S128x1 .f32) : FVec F S128x128 .f32 :=
  Host.divf (Host.scatterAdd scatter_S128x128_S20000x1_S20000x128_1_0_0_1 (broadcastInDim S128x128 ![] bcast_S_S128x128 (constant S_ .f32 0x00000000#32)) (broadcastInDim S20000x1 ![0] bcast_S20000_S20000x1_0 batch) (concatenate S20000x128 1 [⟨S20000x64, h2⟩, ⟨S20000x64, root2⟩] concatenates_S20000x64_S20000x64_S20000x128_d1)) (broadcastInDim S128x128 ![0, 1] bcast_S128x1_S128x128_0_1 cnt)

/-- The classifier's logits of the two branches' pooled rows. -/
def logits (td bu : FVec F S128x128 .f32) (fcW : FVec F S256x2 .f32) (fcb : FVec F S2 .f32) : FVec F S128x2 .f32 :=
  addf (Host.dotGeneral dot_S128x256_S256x2_S128x2_1_0_0_1_n_n none (concatenate S128x256 1 [⟨S128x128, td⟩, ⟨S128x128, bu⟩] concatenates_S128x128_S128x128_S128x256_d1) fcW) (broadcastInDim S128x2 ![0, 1] bcast_S1x2_S128x2_0_1 (broadcastInDim S1x2 ![1] bcast_S2_S1x2_1 fcb))

/-- `z − max z`, row by row. -/
def shifted (z : FVec F S128x2 .f32) : FVec F S128x2 .f32 :=
  subf z (broadcastInDim S128x2 ![0, 1] bcast_S128x1_S128x2_0_1 (broadcastInDim S128x1 ![0] bcast_S128_S128x1_0 (maximumf (broadcastInDim S128 ![] bcast_S_S128 (constant S_ .f32 0xFF800000#32)) (Host.reduce FloatOps.maximumf z (constant S_ .f32 0xFF800000#32) reducesTo_S128x2_S128_d1 h_S_))))

/-- The log-softmax of every row. -/
def logSoftmax (z : FVec F S128x2 .f32) : FVec F S128x2 .f32 :=
  subf (shifted z) (broadcastInDim S128x2 ![0, 1] bcast_S128x1_S128x2_0_1 (Host.log (broadcastInDim S128x1 ![0] bcast_S128_S128x1_0 (Host.reduceAdd (Host.exp (shifted z)) (constant S_ .f32 0x00000000#32) reducesTo_S128x2_S128_d1 h_S_))))

end Cert.ReferenceIdeal.Spec

end
-- ==== Proof.SpecR.lean ====
import proofs.«422748_j23210003267823_1_alg».proof.Proof.SpecSharedR

/-! What the reference computes: in each branch every node takes its graph's root row of `x` (`x[root[batch]]`), the
    rectified row `[x2 | root1]` of 5064 entries is multiplied by the whole `W2`, and the root features of the first
    layer are `x2[root[batch]]`. -/

noncomputable section

namespace Cert.ReferenceIdeal.Spec

open Idealize.ShloMosaic Cert.ReferenceIdeal Cert.ReferenceIdeal.Facts₀ Cert.ReferenceIdeal.Facts

variable {F : FTy → Type} [FloatOps F]

/-- Every node's root node: `root[batch]`, negative entries counted from the end (of the 20000 nodes). -/
def rootOfNode (root : IVec S128 32) (batch : IVec S20000 32) : IVec S20000 32 :=
  select (cmpi .slt (Host.gather gather_S128_S20000x1_S20000_n_0_n_n_0_1_1 root (broadcastInDim S20000x1 ![0] bcast_S20000_S20000x1_0 (normB batch))) (broadcastInDim S20000 ![] bcast_S_S20000 (constantI S_ 32 0#32))) (addi (Host.gather gather_S128_S20000x1_S20000_n_0_n_n_0_1_1 root (broadcastInDim S20000x1 ![0] bcast_S20000_S20000x1_0 (normB batch))) (broadcastInDim S20000 ![] bcast_S_S20000 (constantI S_ 32 20000#32))) (Host.gather gather_S128_S20000x1_S20000_n_0_n_n_0_1_1 root (broadcastInDim S20000x1 ![0] bcast_S20000_S20000x1_0 (normB batch)))

/-- The second layer's projected features: `relu([x2 | x[root[batch]]]) · W2`. -/
def h2pre (x2 : FVec F S20000x64 .f32) (x : FVec F S20000x5000 .f32) (W2 : FVec F S5064x64 .f32) (root : IVec S128 32) (batch : IVec S20000 32) : FVec F S20000x64 .f32 :=
  Host.dotGeneral dot_S20000x5064_S5064x64_S20000x64_1_0_0_1_n_n none (maximumf (concatenate S20000x5064 1 [⟨S20000x64, x2⟩, ⟨S20000x5000, (Host.gather gather_S20000x5000_S20000x1_S20000x5000_1_0_n_n_0_1_15000 x (broadcastInDim S20000x1 ![0] bcast_S20000_S20000x1_0 (rootOfNode root batch)))⟩] concatenates_S20000x64_S20000x5000_S20000x5064_d1) (broadcastInDim S20000x5064 ![] bcast_S_S20000x5064 (constant S_ .f32 0x00000000#32))) W2

/-- Every node's root features of the first layer: `x2[root[batch]]`. -/
def root2 (x2 : FVec F S20000x64 .f32) (root : IVec S128 32) (batch : IVec S20000 32) : FVec F S20000x64 .f32 :=
  Host.gather gather_S20000x64_S20000x1_S20000x64_1_0_n_n_0_1_164 x2 (broadcastInDim S20000x1 ![0] bcast_S20000_S20000x1_0 (rootOfNode root batch))

/-- One branch. -/
def branch (x : FVec F S20000x5000 .f32) (e : IVec S2x320000 32) (batch : IVec S20000 32) (root : IVec S128 32)
    (W1 : FVec F S5000x64 .f32) (b1 : FVec F S64 .f32) (W2 : FVec F S5064x64 .f32) (b2 : FVec F S64 .f32) : FVec F S128x128 .f32 :=
  pool (relu64 (gcn (h2pre (gcn (Host.dotGeneral dot_S20000x5000_S5000x64_S20000x64_1_0_0_1_n_n none x W1) e b1) x W2 root batch) e b2))
    (root2 (gcn (Host.dotGeneral dot_S20000x5000_S5000x64_S20000x64_1_0_0_1_n_n none x W1) e b1) root batch) batch (cntOf batch)

/-- The whole result from the argument arrays. -/
def result (x : FVec F S20000x5000 .f32) (e bu : IVec S2x320000 32) (batch : IVec S20000 32) (root : IVec S128 32)
    (W1td : FVec F S5000x64 .f32) (b1td : FVec F S64 .f32) (W2td : FVec F S5064x64 .f32) (b2td : FVec F S64 .f32)
    (W1bu : FVec F S5000x64 .f32) (b1bu : FVec F S64 .f32) (W2bu : FVec F S5064x64 .f32) (b2bu : FVec F S64 .f32) (fcW : FVec F S256x2 .f32) (fcb : FVec F S2 .f32) : FVec F S128x2 .f32 :=
  logSoftmax (logits (branch x e batch root W1td b1td W2td b2td) (branch x bu batch root W1bu b1bu W2bu b2bu) fcW fcb)

end Cert.ReferenceIdeal.Spec

end
-- ==== Proof.BridgeA.lean ====
import proofs.«422748_j23210003267823_1_alg».proof.Proof.SpecK
import proofs.«422748_j23210003267823_1_alg».proof.Proof.SpecR
import Idealize.ShloMosaic.Lib.ValueIdx
import Idealize.ShloMosaic.Lib.Pipeline.Value
import Idealize.ShloMosaic.PureOps.Ideal.Laws

/-! The second layer's projection, two ways, over the extended reals. The reference multiplies the rectified row
    `[x2[n] | x[root[batch[n]]]]` of 5064 entries by the whole `W2`; the kernel's host program adds `relu(x2[n]) · W2[:64]` and
    row `batch[n]` of `relu(x[root]) · W2[64:]`. A sum over 5064 = 64 + 5000 indices is the sum of its two parts (no
    finiteness is used: addition of extended reals is commutative and associative), rectifying commutes with
    concatenating and with gathering rows, and both programs read `root` and `batch` signed and clamped the same way. -/

set_option maxRecDepth 16384

noncomputable section

namespace Cert.Bridge.SecondLayer

open Idealize.ShloMosaic Idealize.ShloMosaic.ValueIdx
open scoped BigOperators

/-! ### A matrix product read at an entry

A `dot_general` of an `M × K` by a `K × N` matrix that contracts the left operand's columns with the right
operand's rows and has no batch axis is, at entry `(r, c)`, the sum over `k` of `lhs (r, k) * rhs (k, c)`. -/

section Dot
variable {M K N : Nat} (d : DotDims ⟨2, ![M, K]⟩ ⟨2, ![K, N]⟩ ⟨2, ![M, N]⟩)

theorem dot_contr_rank (hlc : d.lhsContracting = [1]) : d.contr.rank = 1 := by
  rw [d.rank_contr, hlc]; rfl

theorem dot_contr_size (hlc : d.lhsContracting = [1]) :
    d.contr.size ⟨0, by rw [dot_contr_rank d hlc]; exact Nat.one_pos⟩ = K := by
  have h := d.size_contr 0 (by rw [hlc]; exact Nat.one_pos)
  rw [h]
  have : d.lhsContracting[0]'(by rw [hlc]; exact Nat.one_pos) = 1 := by simp [hlc]
  rw [this]; rfl

/-- The left operand's row is the result's row. -/
theorem dot_lhs_row (hlb : d.lhsBatch = []) (hln : d.lhsNonContracting = [0])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hlb, hln])

/-- The right operand's column is the result's column. -/
theorem dot_rhs_col (hlb : d.lhsBatch = []) (hrb : d.rhsBatch = []) (hln : d.lhsNonContracting = [0])
    (hrn : d.rhsNonContracting = [1])
    (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hlb, hln, hrn])

theorem dot_apply (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ .f32) (rhs : FVec Ideal ⟨2, ![K, N]⟩ .f32) (r : Fin M) (c : Fin N) :
    Host.dotGeneral d none lhs rhs (ix2 r c) = ∑ k : Fin K, lhs (ix2 r k) * rhs (ix2 k c) := by
  simp only [Host.dotGeneral]
  rw [Ideal.dotGeneral_apply,
    ← Equiv.sum_comp (contrEquiv1 d K (dot_contr_rank d hlc) (dot_contr_size d hlc)).symm]
  refine Finset.sum_congr rfl fun k _ => ?_
  have hk := contrEquiv1_symm_val d K (dot_contr_rank d hlc) (dot_contr_size d hlc) k
  have el : d.lhsIdx (ix2 r c) ((contrEquiv1 d K (dot_contr_rank d hlc) (dot_contr_size d hlc)).symm k) = ix2 r k :=
    funext fun a => Fin.ext (by
      match a with
      | ⟨0, _⟩ => exact dot_lhs_row d hlb hln _ _
      | ⟨1, _⟩ => exact (d.lhsIdx_val_of_single hlc _ _).trans hk)
  have er : d.rhsIdx (ix2 r c) ((contrEquiv1 d K (dot_contr_rank d hlc) (dot_contr_size d hlc)).symm k) = ix2 k c :=
    funext fun a => Fin.ext (by
      match a with
      | ⟨0, _⟩ => exact (d.rhsIdx_val_of_single hrc _ _).trans hk
      | ⟨1, _⟩ => exact dot_rhs_col d hlb hrb hln hrn _ _)
  rw [el, er]

end Dot

/-! ### Row gathers read at an entry

`x[idx]` along the rows: every start index is one scalar, read signed and clamped into the operand's rows. -/

section Gather
variable {α : Type}

theorem fin2_one_ne_zero : (1 : Fin 2) ≠ 0 := by decide

/-- A start index read signed and clamped into `N` rows. -/
def clampRow {w : Nat} (N : Nat) (hN : 0 < N) (v : BitVec w) : Fin N := ⟨min v.toInt.toNat (N - 1), by omega⟩

/-- The dimension numbers of a row gather of an `N × C` operand at `R` start indices (an `R × 1` column). -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, c)` of the gathered rows is the operand at (start index `r` clamped, `c`). -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 (clampRow N hN (idx (ix2 r (0 : Fin 1)))) c) := by
  unfold Host.gather
  congr 1
  funext a
  refine Fin.ext ?_
  match a with
  | ⟨0, _⟩ =>
    show (rowDims N C R wf).start (ix2 r c) idx 0 + (rowDims N C R wf).batchCoord (ix2 r c) 0
      + (rowDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N C R wf).start (ix2 r c) idx 1 + (rowDims N C R wf).batchCoord (ix2 r c) 1
      + (rowDims N C R wf).offCoord (ix2 r c) 1 = c.val
    rw [GatherDims.batchCoord_eq_zero _ _ _ List.not_mem_nil]
    have hs : (rowDims N C R wf).start (ix2 r c) idx 1 = 0 := by
      unfold GatherDims.start
      rw [dif_neg (show ¬ (1 : Fin 2) ∈ (rowDims N C R wf).startIndexMap from
        fun h => absurd (List.mem_singleton.mp h) fin2_one_ne_zero)]
    rw [hs]
    simp only [Nat.add_zero, Nat.zero_add]
    unfold GatherDims.offCoord
    rw [dif_pos (show (1 : Fin 2) ∈ (rowDims N C R wf).sKept from (GatherDims.mem_sKept _ _).2
      ⟨fun h => absurd (List.mem_singleton.mp h) fin2_one_ne_zero, List.not_mem_nil⟩)]
    rfl

/-- The dimension numbers of an element gather of a length-`N` operand at `R` start indices (an `R × 1` column). -/
abbrev eltDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `r` of the gathered elements is the operand at start index `r`, clamped. -/
theorem gather_elts_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (eltDims N R wf) x idx (ix1 r)
      = x (ix1 (clampRow N hN (idx (ix2 r (0 : Fin 1))))) := by
  unfold Host.gather
  congr 1
  funext a
  obtain rfl : a = 0 := Subsingleton.elim _ _
  refine Fin.ext ?_
  show (eltDims N R wf).start (ix1 r) idx 0 + (eltDims N R wf).batchCoord (ix1 r) 0
    + (eltDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltDims N R wf).startIndexMap from List.mem_singleton.mpr rfl)]
  have hsi : (eltDims N R wf).siIdx (ix1 r) ⟨List.idxOf (0 : Fin 1) (eltDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Gather

/-! ### A column of start indices, a block of rows, read at an entry -/

section Layout
variable {α : Type}

/-- A vector laid out as a one-column matrix reads, in row `r`, its entry `r`. -/
theorem column_apply {R : Nat} (h : (⟨1, ![R]⟩ : Shape).BroadcastsInDim ⟨2, ![R, 1]⟩ (![0] : Fin 1 → Fin 2))
    (v : (⟨1, ![R]⟩ : Shape).Idx → α) (r : Fin R) (z : Fin 1) :
    broadcastInDim ⟨2, ![R, 1]⟩ (![0] : Fin 1 → Fin 2) h v (ix2 r z) = v (ix1 r) := by
  unfold broadcastInDim
  congr 1
  funext a
  obtain rfl : a = 0 := Subsingleton.elim _ _
  refine Fin.ext ?_
  split
  · next h1 =>
    have h1' : R = 1 := h1
    have := r.isLt
    show 0 = r.val
    omega
  · rfl

/-- A block of rows and columns cut out of a matrix reads the matrix at the offsets plus the block's coordinates. -/
theorem block_apply {A B A' B' : Nat} (o₀ o₁ : Nat)
    (h : (⟨2, ![A, B]⟩ : Shape).Slices ![o₀, o₁] ⟨2, ![A', B']⟩) (x : (⟨2, ![A, B]⟩ : Shape).Idx → α)
    (r : Fin A') (c : Fin B') (i : (⟨2, ![A, B]⟩ : Shape).Idx)
    (h₀ : (i 0).val = o₀ + r.val) (h₁ : (i 1).val = o₁ + c.val) :
    extractStridedSlice ⟨2, ![A', B']⟩ ![o₀, o₁] x h (ix2 r c) = x i := by
  unfold extractStridedSlice
  congr 1
  funext a
  refine Fin.ext ?_
  match a with
  | ⟨0, _⟩ => exact h₀.symm
  | ⟨1, _⟩ => exact h₁.symm

/-- A signed index vector wrapped where negative, read at an entry. -/
theorem wrap_apply {R : Nat} (N : BitVec 32) (v : IVec ⟨1, ![R]⟩ 32)
    (h : (⟨0, ![]⟩ : Shape).BroadcastsInDim ⟨1, ![R]⟩ (![] : Fin 0 → Fin 1)) (i : (⟨1, ![R]⟩ : Shape).Idx) :
    select (cmpi .slt v (broadcastInDim ⟨1, ![R]⟩ (![] : Fin 0 → Fin 1) h (constantI ⟨0, ![]⟩ 32 0#32)))
        (addi v (broadcastInDim ⟨1, ![R]⟩ (![] : Fin 0 → Fin 1) h (constantI ⟨0, ![]⟩ 32 N))) v i
      = Scalar.select (IntOp.cmpi .slt (v i) 0#32) (IntOp.addi (v i) N) (v i) := rfl

/-- A sum over 5064 = 64 + 5000 indices is the sum of its two parts. -/
theorem sum_split (f : Fin 5064 → EReal) :
    ∑ k, f k = (∑ k : Fin 64, f ⟨k.val, by omega⟩) + ∑ k : Fin 5000, f ⟨64 + k.val, by omega⟩ :=
  Fin.sum_univ_add (a := 64) (b := 5000) f

end Layout

/-! ### The integer side: which row of `x` a node reads -/

section Rows

/-- A signed 32-bit index with the negative ones counted from the end of `N` entries. -/
def wrap (N v : BitVec 32) : BitVec 32 := Scalar.select (IntOp.cmpi .slt v 0#32) (IntOp.addi v N) v

/-- The graph of node `n`: its graph id, wrapped, read signed and clamped into the 128 graphs. -/
def graphOf (batch : IVec Cert.KernelIdeal.S20000 32) (n : Fin 20000) : Fin 128 :=
  clampRow 128 (by decide) (wrap 128#32 (batch (ix1 n)))

/-- The root row of node `n`: its graph's root index, wrapped, read signed and clamped into the 20000 nodes. -/
def rootRow (root : IVec Cert.KernelIdeal.S128 32) (batch : IVec Cert.KernelIdeal.S20000 32) (n : Fin 20000) : Fin 20000 :=
  clampRow 20000 (by decide) (wrap 20000#32 (root (ix1 (graphOf batch n))))

end Rows

/-- The zero both programs rectify against, as the word they print. -/
abbrev zeroWord : EReal := Ideal.ofBits .f32 0x00000000#32

/-! ### The kernel's host program at `(n, c)` -/

section KernelSide
open Cert.KernelIdeal Cert.KernelIdeal.Facts₀ Cert.KernelIdeal.Facts

/-- Row `g` of the rectified root rows is the rectified row of `x` that graph `g`'s root index names. -/
theorem rootRelu_at (x : FVec Ideal S20000x5000 .f32) (root : IVec S128 32) (g : Fin 128) (k : Fin 5000) :
    Spec.rootRelu (F := Ideal) x root (ix2 g k)
      = max (x (ix2 (clampRow 20000 (by decide) (wrap 20000#32 (root (ix1 g)))) k)) zeroWord := by
  unfold Spec.rootRelu
  rw [maximumf_apply]
  congr 1
  have hd : gather_S20000x5000_S128x1_S128x5000_1_0_n_n_0_1_15000
      = rowDims 20000 5000 128 Facts₀.gather_S20000x5000_S128x1_S128x5000_1_0_n_n_0_1_15000_wf := rfl
  rw [hd, gather_rows_apply (N := 20000) (by decide), column_apply]
  rfl

/-- The kernel's projection at `(n, c)`: the first 64 terms from the node's own features, the other 5000 from
    the rectified root row of the node's graph. -/
theorem kernel_at (x2 : FVec Ideal S20000x64 .f32) (x : FVec Ideal S20000x5000 .f32) (W2 : FVec Ideal S5064x64 .f32)
    (root : IVec S128 32) (batch : IVec S20000 32) (n : Fin 20000) (c : Fin 64) :
    Spec.h2pre (F := Ideal) x2 (Spec.rootRelu x root) W2 batch (ix2 n c)
      = (∑ k : Fin 64, max (x2 (ix2 n k)) zeroWord * W2 (ix2 (⟨k.val, by omega⟩ : Fin 5064) c))
        + ∑ k : Fin 5000, max (x (ix2 (rootRow root batch n) k)) zeroWord
            * W2 (ix2 (⟨64 + k.val, by omega⟩ : Fin 5064) c) := by
  unfold Spec.h2pre
  rw [addf_apply]
  congr 1
  · rw [dot_apply (M := 20000) (K := 64) (N := 64) dot_S20000x64_S64x64_S20000x64_1_0_0_1_n_n rfl rfl rfl rfl rfl rfl]
    refine Finset.sum_congr rfl fun k _ => ?_
    rw [block_apply 0 0 _ W2 k c (ix2 (⟨k.val, by omega⟩ : Fin 5064) c) (Nat.zero_add _).symm (Nat.zero_add _).symm]
    rfl
  · have hd : gather_S128x64_S20000x1_S20000x64_1_0_n_n_0_1_164
        = rowDims 128 64 20000 Facts₀.gather_S128x64_S20000x1_S20000x64_1_0_n_n_0_1_164_wf := rfl
    rw [hd, gather_rows_apply (N := 128) (by decide), column_apply]
    show Host.dotGeneral dot_S128x5000_S5000x64_S128x64_1_0_0_1_n_n none (Spec.rootRelu x root)
        (extractStridedSlice S5000x64 ![64, 0] W2 slices_S5064x64_S5000x64_64_0) (ix2 (graphOf batch n) c) = _
    rw [dot_apply (M := 128) (K := 5000) (N := 64) dot_S128x5000_S5000x64_S128x64_1_0_0_1_n_n rfl rfl rfl rfl rfl rfl]
    refine Finset.sum_congr rfl fun k _ => ?_
    rw [block_apply 64 0 _ W2 k c (ix2 (⟨64 + k.val, by omega⟩ : Fin 5064) c) rfl (Nat.zero_add _).symm, rootRelu_at]
    rfl

end KernelSide

/-! ### The reference at `(n, c)` -/

section ReferenceSide
open Cert.ReferenceIdeal Cert.ReferenceIdeal.Facts₀ Cert.ReferenceIdeal.Facts

/-- Node `n`'s root node is its graph's root index, wrapped. -/
theorem rootOfNode_at (root : IVec S128 32) (batch : IVec S20000 32) (n : Fin 20000) :
    Spec.rootOfNode root batch (ix1 n) = wrap 20000#32 (root (ix1 (graphOf batch n))) := by
  have hd : gather_S128_S20000x1_S20000_n_0_n_n_0_1_1
      = eltDims 128 20000 Facts₀.gather_S128_S20000x1_S20000_n_0_n_n_0_1_1_wf := rfl
  have hg : Host.gather gather_S128_S20000x1_S20000_n_0_n_n_0_1_1 root
      (broadcastInDim S20000x1 ![0] bcast_S20000_S20000x1_0 (Spec.normB batch)) (ix1 n) = root (ix1 (graphOf batch n)) := by
    rw [hd, gather_elts_apply (N := 128) (by decide), column_apply]
    rfl
  unfold Spec.rootOfNode
  rw [wrap_apply, hg]
  rfl

/-- Row `n` of the gathered root rows of `x` is row `rootRow root batch n` of `x`. -/
theorem rootRows_at (x : FVec Ideal S20000x5000 .f32) (root : IVec S128 32) (batch : IVec S20000 32)
    (n : Fin 20000) (k : Fin 5000) :
    Host.gather gather_S20000x5000_S20000x1_S20000x5000_1_0_n_n_0_1_15000 x
        (broadcastInDim S20000x1 ![0] bcast_S20000_S20000x1_0 (Spec.rootOfNode root batch)) (ix2 n k)
      = x (ix2 (rootRow root batch n) k) := by
  have hd : gather_S20000x5000_S20000x1_S20000x5000_1_0_n_n_0_1_15000
      = rowDims 20000 5000 20000 Facts₀.gather_S20000x5000_S20000x1_S20000x5000_1_0_n_n_0_1_15000_wf := rfl
  rw [hd, gather_rows_apply (N := 20000) (by decide), column_apply, rootOfNode_at]
  rfl

/-- The reference's projection at `(n, c)`, its sum over the 5064 concatenated entries already split. -/
theorem reference_at (x2 : FVec Ideal S20000x64 .f32) (x : FVec Ideal S20000x5000 .f32) (W2 : FVec Ideal S5064x64 .f32)
    (root : IVec S128 32) (batch : IVec S20000 32) (n : Fin 20000) (c : Fin 64) :
    Spec.h2pre (F := Ideal) x2 x W2 root batch (ix2 n c)
      = (∑ k : Fin 64, max (x2 (ix2 n k)) zeroWord * W2 (ix2 (⟨k.val, by omega⟩ : Fin 5064) c))
        + ∑ k : Fin 5000, max (x (ix2 (rootRow root batch n) k)) zeroWord
            * W2 (ix2 (⟨64 + k.val, by omega⟩ : Fin 5064) c) := by
  unfold Spec.h2pre
  rw [dot_apply (M := 20000) (K := 5064) (N := 64) dot_S20000x5064_S5064x64_S20000x64_1_0_0_1_n_n rfl rfl rfl rfl rfl rfl,
    sum_split]
  congr 1
  · refine Finset.sum_congr rfl fun k _ => ?_
    rw [maximumf_apply,
      concatenate_pair_apply_left (1 : Fin 2) x2 _ concatenates_S20000x64_S20000x5000_S20000x5064_d1
        (ix2 n (⟨k.val, by omega⟩ : Fin 5064)) rfl (ix2 n k)
        (fun b => by match b with | ⟨0, _⟩ => rfl | ⟨1, _⟩ => rfl)]
    rfl
  · refine Finset.sum_congr rfl fun k _ => ?_
    rw [maximumf_apply,
      concatenate_pair_apply_right (1 : Fin 2) x2 _ concatenates_S20000x64_S20000x5000_S20000x5064_d1
        (ix2 n (⟨64 + k.val, by omega⟩ : Fin 5064)) rfl rfl (ix2 n k)
        (fun b hb => by
          match b with
          | ⟨0, _⟩ => rfl
          | ⟨1, _⟩ => exact absurd rfl hb)
        (Nat.add_comm _ _),
      rootRows_at]
    rfl

end ReferenceSide

end Cert.Bridge.SecondLayer

namespace Cert.Bridge

open Idealize.ShloMosaic Idealize.ShloMosaic.ValueIdx
open Cert.KernelIdeal.Facts₀ Cert.KernelIdeal.Facts

/-- Entry by entry both projections are the same two sums: 64 terms from the node's own rectified features and
    5000 terms from the rectified row of `x` that the node's graph's root index names. -/
theorem h2pre_eq (x2 : FVec Ideal Cert.KernelIdeal.S20000x64 .f32) (x : FVec Ideal Cert.KernelIdeal.S20000x5000 .f32)
    (W2 : FVec Ideal Cert.KernelIdeal.S5064x64 .f32) (root : IVec Cert.KernelIdeal.S128 32) (batch : IVec Cert.KernelIdeal.S20000 32) :
    Cert.KernelIdeal.Spec.h2pre (F := Ideal) x2 (Cert.KernelIdeal.Spec.rootRelu x root) W2 batch
      = Cert.ReferenceIdeal.Spec.h2pre (F := Ideal) x2 x W2 root batch := by
  funext j
  obtain ⟨n, c, rfl⟩ : ∃ (n : Fin 20000) (c : Fin 64), j = ix2 n c := ⟨j 0, j 1, eq_ix2 j⟩
  rw [SecondLayer.kernel_at, SecondLayer.reference_at]

end Cert.Bridge

end
-- ==== Proof.BridgeB.lean ====
import proofs.«422748_j23210003267823_1_alg».proof.Proof.SpecK
import proofs.«422748_j23210003267823_1_alg».proof.Proof.SpecR
import Idealize.ShloMosaic.Lib.ValueIdx
import Idealize.ShloMosaic.Lib.Pipeline.Value
import Idealize.ShloMosaic.PureOps.Ideal.Laws

/-! Two smaller identities over the extended reals. (1) Gathering the first layer's features per graph and then per node
    reads the same rows as gathering them at `root[batch]`: both programs read the indices signed and clamped. (2) Columns
    0 … 63 (64 … 127) of the product of `x` with the two weight matrices side by side are the product of `x` with the first
    (second) matrix. -/

set_option maxRecDepth 16384

noncomputable section

namespace Cert.Bridge

open Idealize.ShloMosaic Idealize.ShloMosaic.ValueIdx
open Cert.KernelIdeal.Facts₀ Cert.KernelIdeal.Facts

namespace RootAndColumns

/-! ## A gather of whole rows, read at an index

`x[idx]` for a table `x` of `R` rows and a column `idx` of `M` start indices: result row `m` is the row of `x` at start
index `idx[m]`, read signed and clamped into `[0, R − 1]`. -/

section RowGather
variable {α : Type}

/-- The row a start index `v` selects among `R` rows: `v` read signed, negative values taken to 0, clamped to `R − 1`. -/
def clampRow {w : Nat} (R : Nat) (hR : 0 < R) (v : BitVec w) : Fin R := ⟨min v.toInt.toNat (R - 1), by omega⟩

/-- The dimension numbers of a row gather from an `R × C` table at `M` start indices (one collapsed row axis that the
    start index addresses, one offset axis carrying the whole row). -/
abbrev rowDims (R M C : Nat) (wf : GatherDims.WF ⟨2, ![R, C]⟩ ⟨2, ![M, 1]⟩ ⟨2, ![M, C]⟩ [1] [0] [] [0] [] 1 ![1, C]) :
    GatherDims ⟨2, ![R, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather at `(m, c)` is the table at (the clamped start index of row `m`, `c`). -/
theorem gather_rows_apply {R M C w : Nat} (hR : 0 < R)
    (wf : GatherDims.WF ⟨2, ![R, C]⟩ ⟨2, ![M, 1]⟩ ⟨2, ![M, C]⟩ [1] [0] [] [0] [] 1 ![1, C])
    (x : (⟨2, ![R, C]⟩ : Shape).Idx → α) (idx : IVec ⟨2, ![M, 1]⟩ w) (m : Fin M) (c : Fin C) :
    Host.gather (rowDims R M C wf) x idx (ix2 m c) = x (ix2 (clampRow R hR (idx (ix2 m (0 : Fin 1)))) c) := by
  unfold Host.gather
  refine congrArg x (funext fun a => Fin.ext ?_)
  match a with
  | ⟨0, _⟩ =>
    show (rowDims R M C wf).start (ix2 m c) idx 0 + (rowDims R M C wf).batchCoord (ix2 m c) 0
      + (rowDims R M C wf).offCoord (ix2 m c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R M C wf).startIndexMap from List.mem_singleton.mpr rfl)]
    have hsi : (rowDims R M C wf).siIdx (ix2 m c) ⟨List.idxOf (0 : Fin 2) (rowDims R M C wf).startIndexMap,
        List.idxOf_lt_length_iff.2 (List.mem_singleton.mpr rfl)⟩ = ix2 m (0 : Fin 1) := by
      funext b; refine Fin.ext ?_
      match b with
      | ⟨0, _⟩ => rfl
      | ⟨1, _⟩ => rfl
    rw [hsi]
    rfl
  | ⟨1, _⟩ =>
    show (rowDims R M C wf).start (ix2 m c) idx 1 + (rowDims R M C wf).batchCoord (ix2 m c) 1
      + (rowDims R M C wf).offCoord (ix2 m c) 1 = c.val
    rw [GatherDims.batchCoord_eq_zero _ _ _ List.not_mem_nil]
    have hs : (rowDims R M C wf).start (ix2 m c) idx 1 = 0 := by
      unfold GatherDims.start
      rw [dif_neg (fun h : (1 : Fin 2) ∈ (rowDims R M C wf).startIndexMap =>
        absurd (List.mem_singleton.mp h) (show ¬ (1 : Fin 2) = 0 by decide))]
    have ho : (rowDims R M C wf).offCoord (ix2 m c) 1 = c.val := rfl
    rw [hs, ho, Nat.zero_add]

/-- The dimension numbers of `v[idx]` for a vector `v` of `R` entries and a column of `M` start indices. -/
abbrev pickDims (R M : Nat) (wf : GatherDims.WF ⟨1, ![R]⟩ ⟨2, ![M, 1]⟩ ⟨1, ![M]⟩ [] [0] [] [0] [] 1 ![1]) :
    GatherDims ⟨1, ![R]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- `v[idx]` at `m` is `v` at the clamped start index `idx[m]`. -/
theorem gather_pick_apply {R M w : Nat} (hR : 0 < R)
    (wf : GatherDims.WF ⟨1, ![R]⟩ ⟨2, ![M, 1]⟩ ⟨1, ![M]⟩ [] [0] [] [0] [] 1 ![1])
    (x : (⟨1, ![R]⟩ : Shape).Idx → α) (idx : IVec ⟨2, ![M, 1]⟩ w) (m : Fin M) :
    Host.gather (pickDims R M wf) x idx (ix1 m) = x (ix1 (clampRow R hR (idx (ix2 m (0 : Fin 1))))) := by
  unfold Host.gather
  refine congrArg x (funext fun a => Fin.ext ?_)
  obtain rfl : a = 0 := Subsingleton.elim _ _
  show (pickDims R M wf).start (ix1 m) idx 0 + (pickDims R M wf).batchCoord (ix1 m) 0
    + (pickDims R M wf).offCoord (ix1 m) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims R M wf).startIndexMap from List.mem_singleton.mpr rfl)]
  have hsi : (pickDims R M wf).siIdx (ix1 m) ⟨List.idxOf (0 : Fin 1) (pickDims R M wf).startIndexMap,
      List.idxOf_lt_length_iff.2 (List.mem_singleton.mpr rfl)⟩ = ix2 m (0 : Fin 1) := by
    funext b; refine Fin.ext ?_
    match b with
    | ⟨0, _⟩ => rfl
    | ⟨1, _⟩ => rfl
  rw [hsi]
  rfl

/-- A vector of `M > 1` start indices laid out as a column reads, at row `m`, its entry `m`. -/
theorem column_apply {M w : Nat} (hM : M ≠ 1) (h : (⟨1, ![M]⟩ : Shape).BroadcastsInDim ⟨2, ![M, 1]⟩ ![0])
    (v : IVec ⟨1, ![M]⟩ w) (m : Fin M) :
    broadcastInDim ⟨2, ![M, 1]⟩ ![0] h v (ix2 m (0 : Fin 1)) = v (ix1 m) :=
  broadcastInDim_apply ![0] h v (ix2 m (0 : Fin 1)) (ix1 m) (fun a => by
    obtain rfl : a = 0 := Subsingleton.elim _ _
    show m.val = if M = 1 then 0 else m.val
    rw [if_neg hM])

end RowGather

/-! ## The root rows of the first layer

Node `n` belongs to graph `g = clamp(batch[n])` (negative ids counted from the 128 graphs' end), whose root node is
`clamp(root[g])` (negative ids counted from the 20000 nodes' end). The kernel's program reads the root rows of `x2`
per graph and then that table per node; the reference reads the vector `root` per node and then `x2` at the result.
Both arrive at row `clamp(wrap(root[g]))` of `x2`. -/

/-- Counting a negative index from the end is done entry by entry: where two index vectors agree (and so do the two
    vectors of zeros and of extents), so do their wrapped forms. -/
theorem wrap_at {s t : Shape} (g zg kg : IVec t 32) (v zv kv : IVec s 32) (j : t.Idx) (i : s.Idx)
    (h : g j = v i) (hz : zg j = zv i) (hk : kg j = kv i) :
    select (cmpi .slt g zg) (addi g kg) g j = select (cmpi .slt v zv) (addi v kv) v i := by
  show Scalar.select (IntOp.cmpi .slt (g j) (zg j)) (IntOp.addi (g j) (kg j)) (g j)
    = Scalar.select (IntOp.cmpi .slt (v i) (zv i)) (IntOp.addi (v i) (kv i)) (v i)
  rw [h, hz, hk]

/-- The kernel's program at node `n`, column `c`: `x2` at the root row of the node's graph. -/
theorem root2K_at (x2 : FVec Ideal Cert.KernelIdeal.S20000x64 .f32) (root : IVec Cert.KernelIdeal.S128 32) (batch : IVec Cert.KernelIdeal.S20000 32)
    (n : Fin 20000) (c : Fin 64) :
    Cert.KernelIdeal.Spec.root2 (F := Ideal) x2 root batch (ix2 n c)
      = x2 (ix2 (clampRow 20000 (by decide) (Cert.KernelIdeal.Spec.normR root
          (ix1 (clampRow 128 (by decide) (Cert.KernelIdeal.Spec.normB batch (ix1 n)))))) c) := by
  unfold Cert.KernelIdeal.Spec.root2
  refine (gather_rows_apply (R := 128) (M := 20000) (C := 64) (by decide)
    gather_S128x64_S20000x1_S20000x64_1_0_n_n_0_1_164_wf _ _ n c).trans ?_
  rw [column_apply (M := 20000) (by decide)]
  refine (gather_rows_apply (R := 20000) (M := 128) (C := 64) (by decide)
    gather_S20000x64_S128x1_S128x64_1_0_n_n_0_1_164_wf x2 _ _ c).trans ?_
  rw [column_apply (M := 128) (by decide)]

/-- The reference at node `n`, column `c`: `x2` at the node's root row. -/
theorem root2R_at (x2 : FVec Ideal Cert.KernelIdeal.S20000x64 .f32) (root : IVec Cert.KernelIdeal.S128 32) (batch : IVec Cert.KernelIdeal.S20000 32)
    (n : Fin 20000) (c : Fin 64) :
    Cert.ReferenceIdeal.Spec.root2 (F := Ideal) x2 root batch (ix2 n c)
      = x2 (ix2 (clampRow 20000 (by decide) (Cert.ReferenceIdeal.Spec.rootOfNode root batch (ix1 n))) c) := by
  unfold Cert.ReferenceIdeal.Spec.root2
  refine (gather_rows_apply (R := 20000) (M := 20000) (C := 64) (by decide)
    Cert.ReferenceIdeal.Facts₀.gather_S20000x64_S20000x1_S20000x64_1_0_n_n_0_1_164_wf x2 _ n c).trans ?_
  rw [column_apply (M := 20000) (by decide)]

/-- The reference's root node of node `n` is the wrapped root id of the node's graph. -/
theorem rootOfNode_at (root : IVec Cert.KernelIdeal.S128 32) (batch : IVec Cert.KernelIdeal.S20000 32) (n : Fin 20000) :
    Cert.ReferenceIdeal.Spec.rootOfNode root batch (ix1 n)
      = Cert.KernelIdeal.Spec.normR root (ix1 (clampRow 128 (by decide) (Cert.KernelIdeal.Spec.normB batch (ix1 n)))) := by
  unfold Cert.ReferenceIdeal.Spec.rootOfNode Cert.KernelIdeal.Spec.normR
  refine wrap_at _ _ _ root _ _ (ix1 n) _ ?_ rfl rfl
  refine (gather_pick_apply (R := 128) (M := 20000) (by decide)
    Cert.ReferenceIdeal.Facts₀.gather_S128_S20000x1_S20000_n_0_n_n_0_1_1_wf root _ n).trans ?_
  rw [column_apply (M := 20000) (by decide)]
  rfl

/-! ## The columns of the product with two matrices side by side -/

/-- The product of `x` with a 5000 × 64 matrix `W` at row `n` and column `c` is the sum over the 5000 input
    features `k` of `x[n, k] · W[k, c]`: the contraction runs over one axis, axis 1 of `x` and axis 0 of `W`. -/
theorem xw_at (x : FVec Ideal Cert.KernelIdeal.S20000x5000 .f32) (W : FVec Ideal Cert.KernelIdeal.S5000x64 .f32)
    (n : Fin 20000) (c : Fin 64) :
    Host.dotGeneral Cert.ReferenceIdeal.dot_S20000x5000_S5000x64_S20000x64_1_0_0_1_n_n none x W (ix2 n c)
      = ∑ k : Fin 5000, x (ix2 n k) * W (ix2 k c) := by
  show FloatOps.dotGeneral _ none _ x W (ix2 n c) = _
  rw [Ideal.dotGeneral_apply,
    ← Equiv.sum_comp (contrEquiv1 Cert.ReferenceIdeal.dot_S20000x5000_S5000x64_S20000x64_1_0_0_1_n_n 5000 rfl rfl).symm]
  refine Finset.sum_congr rfl fun k _ => ?_
  have hk := contrEquiv1_symm_val Cert.ReferenceIdeal.dot_S20000x5000_S5000x64_S20000x64_1_0_0_1_n_n 5000 rfl rfl k
  have hl : Cert.ReferenceIdeal.dot_S20000x5000_S5000x64_S20000x64_1_0_0_1_n_n.lhsIdx (ix2 n c)
      ((contrEquiv1 _ 5000 rfl rfl).symm k) = ix2 n k := by
    funext a; apply Fin.ext
    match a with
    | ⟨0, _⟩ => rfl
    | ⟨1, _⟩ => exact (DotDims.lhsIdx_val_of_single _ rfl _ _).trans hk
  have hr : Cert.ReferenceIdeal.dot_S20000x5000_S5000x64_S20000x64_1_0_0_1_n_n.rhsIdx (ix2 n c)
      ((contrEquiv1 _ 5000 rfl rfl).symm k) = ix2 k c := by
    funext a; apply Fin.ext
    match a with
    | ⟨0, _⟩ => exact (DotDims.rhsIdx_val_of_single _ rfl _ _).trans hk
    | ⟨1, _⟩ => rfl
  rw [hl, hr]

/-- Column `c < 64` of `[A | B]` is column `c` of `A`. -/
theorem cat_left (A B : FVec Ideal Cert.KernelIdeal.S5000x64 .f32) (k : Fin 5000) (c : Fin 64) (hc : c.val < 128) :
    (concatenate Cert.KernelIdeal.S5000x128 1 [⟨Cert.KernelIdeal.S5000x64, A⟩, ⟨Cert.KernelIdeal.S5000x64, B⟩] concatenates_S5000x64_S5000x64_S5000x128_d1 : FVec Ideal Cert.KernelIdeal.S5000x128 .f32) (ix2 k (⟨c.val, hc⟩ : Fin 128))
      = A (ix2 k c) :=
  concatenate_pair_apply_left 1 A B concatenates_S5000x64_S5000x64_S5000x128_d1 (ix2 k (⟨c.val, hc⟩ : Fin 128)) rfl (ix2 k c)
    (fun b => match b with | ⟨0, _⟩ => rfl | ⟨1, _⟩ => rfl)

/-- Column `64 + c` of `[A | B]` is column `c` of `B`. -/
theorem cat_right (A B : FVec Ideal Cert.KernelIdeal.S5000x64 .f32) (k : Fin 5000) (c : Fin 64) (hc : 64 + c.val < 128) :
    (concatenate Cert.KernelIdeal.S5000x128 1 [⟨Cert.KernelIdeal.S5000x64, A⟩, ⟨Cert.KernelIdeal.S5000x64, B⟩] concatenates_S5000x64_S5000x64_S5000x128_d1 : FVec Ideal Cert.KernelIdeal.S5000x128 .f32) (ix2 k (⟨64 + c.val, hc⟩ : Fin 128))
      = B (ix2 k c) :=
  concatenate_pair_apply_right 1 A B concatenates_S5000x64_S5000x64_S5000x128_d1 (ix2 k (⟨64 + c.val, hc⟩ : Fin 128)) rfl rfl (ix2 k c)
    (fun b hb => match b, hb with | ⟨0, _⟩, _ => rfl | ⟨1, _⟩, hb => absurd rfl hb)
    (by show c.val + 64 = 64 + c.val; omega)

end RootAndColumns

open RootAndColumns

theorem root2_eq (x2 : FVec Ideal Cert.KernelIdeal.S20000x64 .f32) (root : IVec Cert.KernelIdeal.S128 32) (batch : IVec Cert.KernelIdeal.S20000 32) :
    Cert.KernelIdeal.Spec.root2 (F := Ideal) x2 root batch = Cert.ReferenceIdeal.Spec.root2 (F := Ideal) x2 root batch := by
  funext j
  obtain ⟨n, c, rfl⟩ : ∃ (n : Fin 20000) (c : Fin 64), j = ix2 n c := ⟨j 0, j 1, eq_ix2 j⟩
  rw [root2K_at, root2R_at, rootOfNode_at]

theorem slice_td (o : FVec Ideal Cert.KernelIdeal.S20000x128 .f32) (x : FVec Ideal Cert.KernelIdeal.S20000x5000 .f32) (A B : FVec Ideal Cert.KernelIdeal.S5000x64 .f32)
    (ho : ∀ (i : Fin 20000) (j : Fin 128), o (ix2 i j) = ∑ k : Fin 5000, x (ix2 i k) *
      (concatenate Cert.KernelIdeal.S5000x128 1 [⟨Cert.KernelIdeal.S5000x64, A⟩, ⟨Cert.KernelIdeal.S5000x64, B⟩] concatenates_S5000x64_S5000x64_S5000x128_d1 : FVec Ideal Cert.KernelIdeal.S5000x128 .f32) (ix2 k j)) :
    (extractStridedSlice Cert.KernelIdeal.S20000x64 ![0, 0] o slices_S20000x128_S20000x64_0_0 : FVec Ideal Cert.KernelIdeal.S20000x64 .f32)
      = Host.dotGeneral Cert.ReferenceIdeal.dot_S20000x5000_S5000x64_S20000x64_1_0_0_1_n_n none x A := by
  funext j
  obtain ⟨n, c, rfl⟩ : ∃ (n : Fin 20000) (c : Fin 64), j = ix2 n c := ⟨j 0, j 1, eq_ix2 j⟩
  have hc : c.val < 128 := by omega
  -- the slice at (n, c) is the product array at (n, c)
  refine (extractStridedSlice_apply ![0, 0] o slices_S20000x128_S20000x64_0_0 (ix2 n c) (ix2 n (⟨c.val, hc⟩ : Fin 128))
    (fun a => match a with
      | ⟨0, _⟩ => by show n.val = 0 + n.val; omega
      | ⟨1, _⟩ => by show c.val = 0 + c.val; omega)).trans ?_
  rw [ho n ⟨c.val, hc⟩, xw_at]
  exact Finset.sum_congr rfl fun k _ => congrArg (x (ix2 n k) * ·) (cat_left A B k c hc)

theorem slice_bu (o : FVec Ideal Cert.KernelIdeal.S20000x128 .f32) (x : FVec Ideal Cert.KernelIdeal.S20000x5000 .f32) (A B : FVec Ideal Cert.KernelIdeal.S5000x64 .f32)
    (ho : ∀ (i : Fin 20000) (j : Fin 128), o (ix2 i j) = ∑ k : Fin 5000, x (ix2 i k) *
      (concatenate Cert.KernelIdeal.S5000x128 1 [⟨Cert.KernelIdeal.S5000x64, A⟩, ⟨Cert.KernelIdeal.S5000x64, B⟩] concatenates_S5000x64_S5000x64_S5000x128_d1 : FVec Ideal Cert.KernelIdeal.S5000x128 .f32) (ix2 k j)) :
    (extractStridedSlice Cert.KernelIdeal.S20000x64 ![0, 64] o slices_S20000x128_S20000x64_0_64 : FVec Ideal Cert.KernelIdeal.S20000x64 .f32)
      = Host.dotGeneral Cert.ReferenceIdeal.dot_S20000x5000_S5000x64_S20000x64_1_0_0_1_n_n none x B := by
  funext j
  obtain ⟨n, c, rfl⟩ : ∃ (n : Fin 20000) (c : Fin 64), j = ix2 n c := ⟨j 0, j 1, eq_ix2 j⟩
  have hc : 64 + c.val < 128 := by omega
  -- the slice at (n, c) is the product array at (n, 64 + c)
  refine (extractStridedSlice_apply ![0, 64] o slices_S20000x128_S20000x64_0_64 (ix2 n c) (ix2 n (⟨64 + c.val, hc⟩ : Fin 128))
    (fun a => match a with
      | ⟨0, _⟩ => by show n.val = 0 + n.val; omega
      | ⟨1, _⟩ => by show 64 + c.val = 64 + c.val; rfl)).trans ?_
  rw [ho n ⟨64 + c.val, hc⟩, xw_at]
  exact Finset.sum_congr rfl fun k _ => congrArg (x (ix2 n k) * ·) (cat_right A B k c hc)

end Cert.Bridge

end
-- ==== Proof.BridgeC.lean ====
import proofs.«422748_j23210003267823_1_alg».proof.Proof.BridgeA
import proofs.«422748_j23210003267823_1_alg».proof.Proof.BridgeB

/-! The two programs' results are one function of the argument arrays, over the extended reals. The blocks both programs
    apply unchanged are the same functions (their shapes and dimension records have the same values in both programs);
    the first layer's projection is columns 0 … 63 and 64 … 127 of the region's product; the second layer's projection
    and the root features are the two identities proved beside this module. Everything else is the same function
    applied to equal arguments. -/

set_option maxRecDepth 16384

noncomputable section

namespace Cert.Bridge

open Idealize.ShloMosaic Idealize.ShloMosaic.ValueIdx
open Cert.KernelIdeal.Facts₀ Cert.KernelIdeal.Facts

/-! ## The shared blocks are the same functions -/

theorem gcn_eq (h : FVec Ideal Cert.KernelIdeal.S20000x64 .f32) (e : IVec Cert.KernelIdeal.S2x320000 32) (b : FVec Ideal Cert.KernelIdeal.S64 .f32) :
    Cert.KernelIdeal.Spec.gcn (F := Ideal) h e b = Cert.ReferenceIdeal.Spec.gcn (F := Ideal) h e b := rfl

theorem relu64_eq (x : FVec Ideal Cert.KernelIdeal.S20000x64 .f32) : Cert.KernelIdeal.Spec.relu64 (F := Ideal) x = Cert.ReferenceIdeal.Spec.relu64 (F := Ideal) x := rfl

theorem cntOf_eq (batch : IVec Cert.KernelIdeal.S20000 32) : Cert.KernelIdeal.Spec.cntOf (F := Ideal) batch = Cert.ReferenceIdeal.Spec.cntOf (F := Ideal) batch := rfl

theorem pool_eq (h2 r2 : FVec Ideal Cert.KernelIdeal.S20000x64 .f32) (batch : IVec Cert.KernelIdeal.S20000 32) (cnt : FVec Ideal Cert.KernelIdeal.S128x1 .f32) :
    Cert.KernelIdeal.Spec.pool (F := Ideal) h2 r2 batch cnt = Cert.ReferenceIdeal.Spec.pool (F := Ideal) h2 r2 batch cnt := rfl

theorem logits_eq (td bu : FVec Ideal Cert.KernelIdeal.S128x128 .f32) (fcW : FVec Ideal Cert.KernelIdeal.S256x2 .f32) (fcb : FVec Ideal Cert.KernelIdeal.S2 .f32) :
    Cert.KernelIdeal.Spec.logits (F := Ideal) td bu fcW fcb = Cert.ReferenceIdeal.Spec.logits (F := Ideal) td bu fcW fcb := rfl

theorem logSoftmax_eq (z : FVec Ideal Cert.KernelIdeal.S128x2 .f32) : Cert.KernelIdeal.Spec.logSoftmax (F := Ideal) z = Cert.ReferenceIdeal.Spec.logSoftmax (F := Ideal) z := rfl

/-! ## One branch -/

/-- A branch of the kernel's host program, fed the first layer's projection `x · W1`, is the reference's branch. -/
theorem branch_eq (x : FVec Ideal Cert.KernelIdeal.S20000x5000 .f32) (e : IVec Cert.KernelIdeal.S2x320000 32) (batch : IVec Cert.KernelIdeal.S20000 32) (root : IVec Cert.KernelIdeal.S128 32)
    (W1 : FVec Ideal Cert.KernelIdeal.S5000x64 .f32) (b1 : FVec Ideal Cert.KernelIdeal.S64 .f32) (W2 : FVec Ideal Cert.KernelIdeal.S5064x64 .f32) (b2 : FVec Ideal Cert.KernelIdeal.S64 .f32) :
    Cert.KernelIdeal.Spec.branch (F := Ideal) (Host.dotGeneral Cert.ReferenceIdeal.dot_S20000x5000_S5000x64_S20000x64_1_0_0_1_n_n none x W1) e batch root
        (Cert.KernelIdeal.Spec.rootRelu x root) b1 W2 b2 (Cert.KernelIdeal.Spec.cntOf batch)
      = Cert.ReferenceIdeal.Spec.branch (F := Ideal) x e batch root W1 b1 W2 b2 := by
  unfold Cert.KernelIdeal.Spec.branch Cert.ReferenceIdeal.Spec.branch
  rw [h2pre_eq, root2_eq, gcn_eq, gcn_eq, relu64_eq, pool_eq, cntOf_eq]

/-! ## The whole result -/

theorem result_eq (o : FVec Ideal Cert.KernelIdeal.S20000x128 .f32) (x : FVec Ideal Cert.KernelIdeal.S20000x5000 .f32) (e bu : IVec Cert.KernelIdeal.S2x320000 32)
    (batch : IVec Cert.KernelIdeal.S20000 32) (root : IVec Cert.KernelIdeal.S128 32)
    (W1td : FVec Ideal Cert.KernelIdeal.S5000x64 .f32) (b1td : FVec Ideal Cert.KernelIdeal.S64 .f32) (W2td : FVec Ideal Cert.KernelIdeal.S5064x64 .f32) (b2td : FVec Ideal Cert.KernelIdeal.S64 .f32)
    (W1bu : FVec Ideal Cert.KernelIdeal.S5000x64 .f32) (b1bu : FVec Ideal Cert.KernelIdeal.S64 .f32) (W2bu : FVec Ideal Cert.KernelIdeal.S5064x64 .f32) (b2bu : FVec Ideal Cert.KernelIdeal.S64 .f32)
    (fcW : FVec Ideal Cert.KernelIdeal.S256x2 .f32) (fcb : FVec Ideal Cert.KernelIdeal.S2 .f32)
    (ho : ∀ (i : Fin 20000) (j : Fin 128), o (ix2 i j) = ∑ k : Fin 5000, x (ix2 i k) *
      (concatenate Cert.KernelIdeal.S5000x128 1 [⟨Cert.KernelIdeal.S5000x64, W1td⟩, ⟨Cert.KernelIdeal.S5000x64, W1bu⟩] concatenates_S5000x64_S5000x64_S5000x128_d1 : FVec Ideal Cert.KernelIdeal.S5000x128 .f32) (ix2 k j)) :
    Cert.KernelIdeal.Spec.result (F := Ideal) o x e bu batch root b1td W2td b2td b1bu W2bu b2bu fcW fcb
      = Cert.ReferenceIdeal.Spec.result (F := Ideal) x e bu batch root W1td b1td W2td b2td W1bu b1bu W2bu b2bu fcW fcb := by
  unfold Cert.KernelIdeal.Spec.result Cert.ReferenceIdeal.Spec.result
  rw [slice_td o x W1td W1bu ho, slice_bu o x W1td W1bu ho, branch_eq, branch_eq, logits_eq, logSoftmax_eq]

end Cert.Bridge

end
-- ==== Proof.KResult.lean ====
import proofs.«422748_j23210003267823_1_alg».proof.Proof.KFrame
import proofs.«422748_j23210003267823_1_alg».proof.Proof.KTail
import proofs.«422748_j23210003267823_1_alg».proof.Proof.KMatmul
import proofs.«422748_j23210003267823_1_alg».proof.Proof.BridgeC

/-! The idealized kernel's result buffer after the run, as the reference's function of the argument arrays: the later lines
    compute `Spec.result` of the region's output array and the argument arrays (which they find as launched: none of them is
    written by any line, and the only one the pipeline stages, `x`, is an input); the output array is the matrix product;
    and `Spec.result` of the product is the reference's function. -/

set_option maxRecDepth 16384

noncomputable section

namespace Cert.KernelIdeal.Fr

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ)

/-- At the region's exit a buffer that is no array of the pipeline and is not the side-by-side weight matrix holds its
    launch contents. -/
theorem exit_arg (c : Dev nD) (r : Ref sig .tc) (hw : ∀ w, Pipeline.arrRef spec0 w ≠ r) (h0 : r ≠ main_v0) :
    Pipeline.withArrays (cfgs 0).spec c (V0 m c) (fun w => (dats (F := Ideal) m 0 c).arrAt w (cfgs 0).N) (Proc.devRef .tc r)
      = m ((c : Thread nD τ).loc r) :=
  (Pipeline.withArrays_of_ne _ c (V0 m c) _ r hw).trans
    (StableHlo.after_of_forall_not_mem (b := Proc.devRef .tc r) _ _ (head_keep r h0))

/-- `x` at the region's exit: an input's array is never written back. -/
theorem exit_x (c : Dev nD) :
    Pipeline.withArrays (cfgs 0).spec c (V0 m c) (fun w => (dats (F := Ideal) m 0 c).arrAt w (cfgs 0).N) (Proc.devRef .tc main_arg0)
      = m ((c : Thread nD τ).loc main_arg0) :=
  ((Pipeline.withArrays_arr spec0 launch0.win.arr_inj c _ _ 0).trans ((dats m 0 c).arrAt_in 0 rfl _)).trans
    ((A_eq m c 0).trans (V_main_arg0 m c))

/-- The region's output array at its exit. -/
theorem exit_out (c : Dev nD) :
    Pipeline.withArrays (cfgs 0).spec c (V0 m c) (fun w => (dats (F := Ideal) m 0 c).arrAt w (cfgs 0).N) (Proc.devRef .tc main_v1)
      = outArr m c :=
  Pipeline.withArrays_arr spec0 launch0.win.arr_inj c _ _ 2

/-- THE KERNEL'S VALUE: the result buffer after the run is the reference's function of the launch contents. -/
theorem kernel_result (c : Dev nD) :
    Pipeline.afterTail₀ cfgs (dats (F := Ideal) m) 0 (V0 m) tailOps c main_v275
      = Cert.ReferenceIdeal.Spec.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Pipeline.afterTail₀
  refine (Cert.KernelIdeal.Tail.result_eq (F := Ideal) _).trans ?_
  rw [exit_out m c, exit_x m c,
    exit_arg m c main_arg1 (by decide) (by decide), exit_arg m c main_arg2 (by decide) (by decide),
    exit_arg m c main_arg3 (by decide) (by decide), exit_arg m c main_arg4 (by decide) (by decide),
    exit_arg m c main_arg6 (by decide) (by decide), exit_arg m c main_arg7 (by decide) (by decide),
    exit_arg m c main_arg8 (by decide) (by decide), exit_arg m c main_arg10 (by decide) (by decide),
    exit_arg m c main_arg11 (by decide) (by decide), exit_arg m c main_arg12 (by decide) (by decide),
    exit_arg m c main_arg13 (by decide) (by decide), exit_arg m c main_arg14 (by decide) (by decide)]
  exact Cert.Bridge.result_eq (outArr m c) (xArr m c) _ _ _ _ (w1td m c) _ _ _ (w1bu m c) _ _ _ _ _ (out_apply m c)

/-- Every argument array ends as launched. -/
theorem args_of_run {r : PUnit × MemSt nD τ sig (Elt Ideal)}
    (h : Pipeline.FramePost cfgs (dats (F := Ideal) m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨x_of_run m h c,
    (rest_of_run m h c main_arg1 (by decide) (by decide)).trans (W_arg m (dats m) c main_arg1 (by decide) (by decide) (by decide)),
    (rest_of_run m h c main_arg2 (by decide) (by decide)).trans (W_arg m (dats m) c main_arg2 (by decide) (by decide) (by decide)),
    (rest_of_run m h c main_arg3 (by decide) (by decide)).trans (W_arg m (dats m) c main_arg3 (by decide) (by decide) (by decide)),
    (rest_of_run m h c main_arg4 (by decide) (by decide)).trans (W_arg m (dats m) c main_arg4 (by decide) (by decide) (by decide)),
    (rest_of_run m h c main_arg5 (by decide) (by decide)).trans (W_arg m (dats m) c main_arg5 (by decide) (by decide) (by decide)),
    (rest_of_run m h c main_arg6 (by decide) (by decide)).trans (W_arg m (dats m) c main_arg6 (by decide) (by decide) (by decide)),
    (rest_of_run m h c main_arg7 (by decide) (by decide)).trans (W_arg m (dats m) c main_arg7 (by decide) (by decide) (by decide)),
    (rest_of_run m h c main_arg8 (by decide) (by decide)).trans (W_arg m (dats m) c main_arg8 (by decide) (by decide) (by decide)),
    (rest_of_run m h c main_arg9 (by decide) (by decide)).trans (W_arg m (dats m) c main_arg9 (by decide) (by decide) (by decide)),
    (rest_of_run m h c main_arg10 (by decide) (by decide)).trans (W_arg m (dats m) c main_arg10 (by decide) (by decide) (by decide)),
    (rest_of_run m h c main_arg11 (by decide) (by decide)).trans (W_arg m (dats m) c main_arg11 (by decide) (by decide) (by decide)),
    (rest_of_run m h c main_arg12 (by decide) (by decide)).trans (W_arg m (dats m) c main_arg12 (by decide) (by decide) (by decide)),
    (rest_of_run m h c main_arg13 (by decide) (by decide)).trans (W_arg m (dats m) c main_arg13 (by decide) (by decide) (by decide)),
    (rest_of_run m h c main_arg14 (by decide) (by decide)).trans (W_arg m (dats m) c main_arg14 (by decide) (by decide) (by decide))⟩

end Cert.KernelIdeal.Fr

end
-- ==== Proof.RefValue.lean ====
import proofs.«422748_j23210003267823_1_alg».proof.Proof.RefRun
import proofs.«422748_j23210003267823_1_alg».proof.Proof.SpecR

/-! The reference's 378 host lines read back: from any contents `V` of the buffers, the last line's result buffer ends at
    `Spec.result` of the argument arrays (each line writes its function's value of its operands' contents into its own result
    buffer; composing them in order and naming the blocks gives `Spec.result`), and no line writes an argument. Hence the
    reference's run: every fair execution ends with the result at `Spec.result` of the launch contents, the arguments unchanged. -/

set_option maxRecDepth 16384

noncomputable section

namespace Cert.ReferenceIdeal.RefValue

open Idealize.ShloMosaic Idealize.ShloMosaic.TcCoe Idealize.ShloMosaic.StableHlo
open Idealize.SL.Sem
open Cert.ReferenceIdeal Cert.ReferenceIdeal.ValueP Cert.ReferenceIdeal.Facts₀ Cert.ReferenceIdeal.Facts

variable {F : FTy → Type} [FloatOps F]

/-- Two vectors side by side along an axis, as an ordinary function of the two. -/
def cat2 {α : Type} (t : Shape) (a : Fin t.rank) (s₁ s₂ : Shape) (h : Shape.Concatenates [s₁, s₂] t a)
    (x : s₁.Idx → α) (y : s₂.Idx → α) : t.Idx → α := concatenate t a [⟨s₁, x⟩, ⟨s₂, y⟩] h

theorem cat2_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-! The blocks that put two vectors side by side, stated over `cat2`. -/

theorem fold_srcOf (e : IVec S2x320000 32) :
    cat2 S340000 0 S320000 S20000 concatenates_S320000_S20000_S340000_d0
      (fun i => shapeCast S320000 (extractStridedSlice S1x320000 ![0, 0] e slices_S2x320000_S1x320000_0_0) shapeCasts_S1x320000_S320000 i) (iotaInDim S20000 32 0)
      = Spec.srcOf e := rfl

theorem fold_dstOf (e : IVec S2x320000 32) :
    cat2 S340000 0 S320000 S20000 concatenates_S320000_S20000_S340000_d0
      (fun i => shapeCast S320000 (extractStridedSlice S1x320000 ![1, 0] e slices_S2x320000_S1x320000_1_0) shapeCasts_S1x320000_S320000 i) (iotaInDim S20000 32 0)
      = Spec.dstOf e := rfl

theorem fold_pool (h2 root2 : FVec F S20000x64 .f32) (batch : IVec S20000 32) (cnt : FVec F S128x1 .f32) :
    Host.divf (Host.scatterAdd scatter_S128x128_S20000x1_S20000x128_1_0_0_1 (broadcastInDim S128x128 ![] bcast_S_S128x128 (constant S_ .f32 0x00000000#32)) (broadcastInDim S20000x1 ![0] bcast_S20000_S20000x1_0 batch)
        (cat2 S20000x128 1 S20000x64 S20000x64 concatenates_S20000x64_S20000x64_S20000x128_d1 h2 root2)) (broadcastInDim S128x128 ![0, 1] bcast_S128x1_S128x128_0_1 cnt)
      = Spec.pool h2 root2 batch cnt := rfl

theorem fold_logits (td bu : FVec F S128x128 .f32) (fcW : FVec F S256x2 .f32) (fcb : FVec F S2 .f32) :
    addf (Host.dotGeneral dot_S128x256_S256x2_S128x2_1_0_0_1_n_n none (cat2 S128x256 1 S128x128 S128x128 concatenates_S128x128_S128x128_S128x256_d1 td bu) fcW)
        (broadcastInDim S128x2 ![0, 1] bcast_S1x2_S128x2_0_1 (broadcastInDim S1x2 ![1] bcast_S2_S1x2_1 fcb))
      = Spec.logits td bu fcW fcb := rfl

theorem fold_h2pre (x2 : FVec F S20000x64 .f32) (x : FVec F S20000x5000 .f32) (W2 : FVec F S5064x64 .f32) (root : IVec S128 32) (batch : IVec S20000 32) :
    Host.dotGeneral dot_S20000x5064_S5064x64_S20000x64_1_0_0_1_n_n none (maximumf (cat2 S20000x5064 1 S20000x64 S20000x5000 concatenates_S20000x64_S20000x5000_S20000x5064_d1 x2
        (Host.gather gather_S20000x5000_S20000x1_S20000x5000_1_0_n_n_0_1_15000 x (broadcastInDim S20000x1 ![0] bcast_S20000_S20000x1_0 (Spec.rootOfNode root batch))))
        (broadcastInDim S20000x5064 ![] bcast_S_S20000x5064 (constant S_ .f32 0x00000000#32))) W2
      = Spec.h2pre x2 x W2 root batch := rfl

set_option maxHeartbeats 40000000 in
/-- The result buffer after the lines, from any contents `V`. -/
theorem value_eq (V : Valuation τ sig (Elt F)) :
    StableHlo.after (ops (F := F)) V (Proc.devRef .tc main_v279)
      = Spec.result (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  obtain ⟨x, h_x⟩ : ∃ x : FVec F S20000x5000 .f32, x = V (Proc.devRef .tc main_arg0) := ⟨_, rfl⟩
  obtain ⟨e, h_e⟩ : ∃ e : IVec S2x320000 32, e = V (Proc.devRef .tc main_arg1) := ⟨_, rfl⟩
  obtain ⟨bu, h_bu⟩ : ∃ bu : IVec S2x320000 32, bu = V (Proc.devRef .tc main_arg2) := ⟨_, rfl⟩
  obtain ⟨batch, h_batch⟩ : ∃ batch : IVec S20000 32, batch = V (Proc.devRef .tc main_arg3) := ⟨_, rfl⟩
  obtain ⟨root, h_root⟩ : ∃ root : IVec S128 32, root = V (Proc.devRef .tc main_arg4) := ⟨_, rfl⟩
  obtain ⟨W1td, h_W1td⟩ : ∃ W1td : FVec F S5000x64 .f32, W1td = V (Proc.devRef .tc main_arg5) := ⟨_, rfl⟩
  obtain ⟨b1td, h_b1td⟩ : ∃ b1td : FVec F S64 .f32, b1td = V (Proc.devRef .tc main_arg6) := ⟨_, rfl⟩
  obtain ⟨W2td, h_W2td⟩ : ∃ W2td : FVec F S5064x64 .f32, W2td = V (Proc.devRef .tc main_arg7) := ⟨_, rfl⟩
  obtain ⟨b2td, h_b2td⟩ : ∃ b2td : FVec F S64 .f32, b2td = V (Proc.devRef .tc main_arg8) := ⟨_, rfl⟩
  obtain ⟨W1bu, h_W1bu⟩ : ∃ W1bu : FVec F S5000x64 .f32, W1bu = V (Proc.devRef .tc main_arg9) := ⟨_, rfl⟩
  obtain ⟨b1bu, h_b1bu⟩ : ∃ b1bu : FVec F S64 .f32, b1bu = V (Proc.devRef .tc main_arg10) := ⟨_, rfl⟩
  obtain ⟨W2bu, h_W2bu⟩ : ∃ W2bu : FVec F S5064x64 .f32, W2bu = V (Proc.devRef .tc main_arg11) := ⟨_, rfl⟩
  obtain ⟨b2bu, h_b2bu⟩ : ∃ b2bu : FVec F S64 .f32, b2bu = V (Proc.devRef .tc main_arg12) := ⟨_, rfl⟩
  obtain ⟨fcW, h_fcW⟩ : ∃ fcW : FVec F S256x2 .f32, fcW = V (Proc.devRef .tc main_arg13) := ⟨_, rfl⟩
  obtain ⟨fcb, h_fcb⟩ : ∃ fcb : FVec F S2 .f32, fcb = V (Proc.devRef .tc main_arg14) := ⟨_, rfl⟩
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne',
    ← h_x, ← h_e, ← h_bu, ← h_batch, ← h_root, ← h_W1td, ← h_b1td, ← h_W2td, ← h_b2td, ← h_W1bu, ← h_b1bu, ← h_W2bu, ← h_b2bu, ← h_fcW, ← h_fcb,
    ↓cat2_eq, TRef.ofBuf, TRef.toBuf, cast_eq]
  repeat rw [← Spec.normE.eq_1]
  repeat rw [← Spec.normB.eq_1]
  repeat rw [← Spec.rootOfNode.eq_1]
  repeat erw [fold_srcOf]
  repeat erw [fold_dstOf]
  repeat rw [← Spec.degOf.eq_1]
  repeat rw [← Spec.dinvOf.eq_1]
  repeat rw [← Spec.edgeW.eq_1]
  repeat rw [← Spec.scatterMsg.eq_1]
  repeat rw [← Spec.gcn.eq_1]
  repeat rw [← Spec.relu64.eq_1]
  repeat rw [← Spec.cntOf.eq_1]
  repeat rw [fold_h2pre]
  repeat rw [← Spec.root2.eq_1]
  repeat rw [fold_pool]
  repeat rw [← Spec.branch.eq_1]
  rw [fold_logits, ← Spec.shifted.eq_1, ← Spec.logSoftmax.eq_1, ← Spec.result.eq_1]

/-- The reference's function of a memory's argument arrays. -/
def resultOf (m : (ℓ : Loc nD τ sig) → Buf (Elt F) ℓ) (c : Dev nD) : FVec F S128x2 .f32 :=
  Spec.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))

set_option maxHeartbeats 40000000 in
/-- No line writes an argument array. -/
theorem arg_kept (V : Valuation τ sig (Elt F)) (r : Ref sig .tc)
    (hr : r ∈ ([main_arg0, main_arg1, main_arg2, main_arg3, main_arg4, main_arg5, main_arg6, main_arg7, main_arg8, main_arg9, main_arg10, main_arg11, main_arg12, main_arg13, main_arg14] : List (Ref sig .tc))) :
    StableHlo.after (ops (F := F)) V (Proc.devRef .tc r) = V (Proc.devRef .tc r) := by
  simp only [List.mem_cons, List.mem_nil_iff, List.not_mem_nil, or_false] at hr
  rcases hr with rfl | rfl | rfl | rfl | rfl | rfl | rfl | rfl | rfl | rfl | rfl | rfl | rfl | rfl | rfl
  all_goals after_results_simp

set_option maxHeartbeats 4000000 in
/-- Every weakly fair execution of the reference terminates with the result at `Spec.result` of the launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v279) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v279).trans (value_eq _),
      (h c main_arg0).trans (arg_kept _ main_arg0 (by decide)),
      (h c main_arg1).trans (arg_kept _ main_arg1 (by decide)),
      (h c main_arg2).trans (arg_kept _ main_arg2 (by decide)),
      (h c main_arg3).trans (arg_kept _ main_arg3 (by decide)),
      (h c main_arg4).trans (arg_kept _ main_arg4 (by decide)),
      (h c main_arg5).trans (arg_kept _ main_arg5 (by decide)),
      (h c main_arg6).trans (arg_kept _ main_arg6 (by decide)),
      (h c main_arg7).trans (arg_kept _ main_arg7 (by decide)),
      (h c main_arg8).trans (arg_kept _ main_arg8 (by decide)),
      (h c main_arg9).trans (arg_kept _ main_arg9 (by decide)),
      (h c main_arg10).trans (arg_kept _ main_arg10 (by decide)),
      (h c main_arg11).trans (arg_kept _ main_arg11 (by decide)),
      (h c main_arg12).trans (arg_kept _ main_arg12 (by decide)),
      (h c main_arg13).trans (arg_kept _ main_arg13 (by decide)),
      (h c main_arg14).trans (arg_kept _ main_arg14 (by decide))⟩)
    (run_seq scopedRefs_eq scopedSems_eq defs main (fun _ => ops) main_eq (fun _ => ops_sub) m ρ)

end Cert.ReferenceIdeal.RefValue

end
-- ==== Proof.lean ====
/- The certificate's claim: the word-level kernel, the idealized kernel and the idealized reference each run to the end
   without a fault and leave their argument arrays unchanged; the idealization changed nothing (its ledger is empty);
   and over the extended reals the idealized kernel and the reference, run from memories that agree on the arguments,
   end with equal results. The kernel's matrix product of `x` with the two first-layer weight matrices side by side gives
   both branches' first-layer projections; its host program then splits the second layer's 5064-term contraction into
   the 64 terms of the first-layer features and the 5000 terms of the graph's root row, computing the latter once per
   graph and gathering it per node: a regrouping of one finite sum, and a row gather commuting with a row-wise
   product. -/
import proofs.«422748_j23210003267823_1_alg».proof.Defs
import proofs.«422748_j23210003267823_1_alg».proof.Proof.Gen.Kernel
import proofs.«422748_j23210003267823_1_alg».proof.Proof.Gen.KernelIdeal
import proofs.«422748_j23210003267823_1_alg».proof.Proof.Gen.ReferenceIdeal
import proofs.«422748_j23210003267823_1_alg».proof.Proof.Gen.Pre_finite_inputs
import proofs.«422748_j23210003267823_1_alg».proof.Proof.KFrame
import proofs.«422748_j23210003267823_1_alg».proof.Proof.KFrameBits
import proofs.«422748_j23210003267823_1_alg».proof.Proof.KResult
import proofs.«422748_j23210003267823_1_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both runs end with the result at the reference's function of the arguments, which agree. -/
theorem algebraic : Cert.algebraic_KernelIdeal_ReferenceIdeal := by
  intro m ρ m' ρ' _ hagree
  refine ⟨fun c => Cert.ReferenceIdeal.RefValue.resultOf m' c, ?_, Cert.ReferenceIdeal.RefValue.run (F := Ideal) m' ρ'⟩
  refine (θ_run Cert.KernelIdeal.defs _ _).mono (fun r h c => ⟨?_, Cert.KernelIdeal.Fr.args_of_run m h c⟩)
    (Cert.KernelIdeal.Fr.run_main (F := Ideal) m ρ)
  refine ((Cert.KernelIdeal.Fr.rest_of_run m h c Cert.KernelIdeal.main_v275 (by decide) (by decide)).trans
    (Cert.KernelIdeal.Fr.kernel_result m c)).trans ?_
  dsimp only [Cert.ReferenceIdeal.RefValue.resultOf]
  obtain ⟨h0, h1, h2, h3, h4, h5, h6, h7, h8, h9, h10, h11, h12, h13, h14⟩ := hagree c
  rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
